-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S64x32 : Shape := ⟨2, ![64, 32]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S32x128 : Shape := ⟨2, ![32, 128]⟩
abbrev S256x1 : Shape := ⟨2, ![256, 1]⟩
abbrev S1 : Shape := ⟨1, ![1]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128 .f32) (main_arg10 : FVec F S32x128 .f32) (main_arg11 : FVec F S128 .f32) (main_arg12 : FVec F S256x1 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg10
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x1 .f32 := Host.absf main_arg12
  let main_cst_18 : FVec F S_ .f32 := constant S_ .f32 0x7F800000#32
  let main_v50 : FVec F S256x1 .f32 := broadcastInDim S256x1 ![] bcast_S_S256x1 main_cst_18
  fn_part3 (F := F) main_arg13 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S32x128 .f32) (main_arg11 : FVec F S128 .f32) (main_arg12 : FVec F S256x1 .f32) (main_arg13 : FVec F S1 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x96 .f32) (main_arg1 : IVec S2x800000 32) (main_arg2 : FVec F S64x32 .f32) (main_arg3 : IVec S50000 32) (main_arg4 : FVec F S96x128 .f32) (main_arg5 : FVec F S96x128 .f32) (main_arg6 : FVec F S128 .f32) (main_arg7 : FVec F S128x128 .f32) (main_arg8 : FVec F S128x128 .f32) (main_arg9 : FVec F S128 .f32) (main_arg10 : FVec F S32x128 .f32) (main_arg11 : FVec F S128 .f32) (main_arg12 : FVec F S256x1 .f32) (main_arg13 : FVec F S1 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S96x128 .f32 := Host.absf main_arg4
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg6 main_arg7 main_arg8 main_arg9 main_arg10 main_arg11 main_arg12 main_arg13 main_v13 main_v16
-- ==== Kernel.lean ====
abbrev S50000x96 : Shape := ⟨2, ![50000, 96]⟩
abbrev S2x800000 : Shape := ⟨2, ![2, 800000]⟩
abbrev S64x32 : Shape := ⟨2, ![64, 32]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S32x128 : Shape := ⟨2, ![32, 128]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x96 : Shape := ⟨2, ![800000, 96]⟩
abbrev S1x128 : Shape := ⟨2, ![1, 128]⟩
abbrev S50000x128 : Shape := ⟨2, ![50000, 128]⟩
abbrev S5000x96 : Shape := ⟨2, ![5000, 96]⟩
abbrev S5000x1 : Shape := ⟨2, ![5000, 1]⟩
abbrev S5000x128 : Shape := ⟨2, ![5000, 128]⟩
abbrev S5000 : Shape := ⟨1, ![5000]⟩
abbrev S800000x128 : Shape := ⟨2, ![800000, 128]⟩
abbrev S128x1 : Shape := ⟨2, ![128, 1]⟩
abbrev S1x1 : Shape := ⟨2, ![1, 1]⟩
abbrev S64x1 : Shape := ⟨2, ![64, 1]⟩
abbrev S64x128 : Shape := ⟨2, ![64, 128]⟩
abbrev S5000x64 : Shape := ⟨2, ![5000, 64]⟩

abbrev nBuf : Space → Nat
  | .hbm => 60
  | .vmem => 35
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S64x32, .f32⟩
  | .hbm, ⟨3, _⟩ => ⟨S50000, .i32⟩
  | .hbm, ⟨4, _⟩ => ⟨S96x128, .f32⟩
  | .hbm, ⟨5, _⟩ => ⟨S96x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S32x128, .f32⟩
  | .hbm, ⟨11, _⟩ => ⟨S128, .f32⟩
  | .hbm, ⟨12, _⟩ => ⟨S256x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000x1, .f32⟩
  | .hbm, ⟨20, _⟩ => ⟨S_, .f32⟩
  | .hbm, ⟨21, _⟩ => ⟨S50000x1, .f32⟩
  | .hbm, ⟨22, _⟩ => ⟨S800000x1, .i32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x96, .f32⟩
  | .hbm, ⟨33, _⟩ => ⟨S_, .f32⟩
  | .hbm, ⟨34, _⟩ => ⟨S50000x96, .f32⟩
  | .hbm, ⟨35, _⟩ => ⟨S800000x1, .i32⟩
  | .hbm, ⟨36, _⟩ => ⟨S50000x96, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x1, .i32⟩
  | .hbm, ⟨55, _⟩ => ⟨S128x1, .f32⟩
  | .hbm, ⟨56, _⟩ => ⟨S128x1, .f32⟩
  | .hbm, ⟨57, _⟩ => ⟨S1x128, .f32⟩
  | .hbm, ⟨58, _⟩ => ⟨S1x1, .f32⟩
  | .hbm, ⟨59, _⟩ => ⟨S64x1, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S5000x1, .f32⟩
  | .local _ .vmem, ⟨5, _⟩ => ⟨S5000x1, .f32⟩
  | .local _ .vmem, ⟨6, _⟩ => ⟨S96x128, .f32⟩
  | .local _ .vmem, ⟨7, _⟩ => ⟨S96x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x1, .i32⟩
  | .local _ .vmem, ⟨23, _⟩ => ⟨S5000x1, .i32⟩
  | .local _ .vmem, ⟨24, _⟩ => ⟨S5000x128, .f32⟩
  | .local _ .vmem, ⟨25, _⟩ => ⟨S5000x128, .f32⟩
  | .local _ .vmem, ⟨26, _⟩ => ⟨S64x32, .f32⟩
  | .local _ .vmem, ⟨27, _⟩ => ⟨S32x128, .f32⟩
  | .local _ .vmem, ⟨28, _⟩ => ⟨S1x128, .f32⟩
  | .local _ .vmem, ⟨29, _⟩ => ⟨S128x1, .f32⟩
  | .local _ .vmem, ⟨30, _⟩ => ⟨S128x1, .f32⟩
  | .local _ .vmem, ⟨31, _⟩ => ⟨S1x1, .f32⟩
  | .local _ .vmem, ⟨32, _⟩ => ⟨S64x1, .f32⟩
  | .local _ .vmem, ⟨33, _⟩ => ⟨S64x128, .f32⟩
  | .local _ .vmem, ⟨34, _⟩ => ⟨S64x1, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_scratch0 : Ref sig .tc := ⟨.vmem, 33, rfl⟩
abbrev cc2_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x96 : S_.BroadcastsInDim S50000x96 (![] : Fin 0 → Fin S50000x96.rank)
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S50000_S50000x1 : S50000.ShapeCasts S50000x1
  slices_S256x1_S128x1_0_0 : S256x1.Slices ![0, 0] S128x1
  slices_S256x1_S128x1_128_0 : S256x1.Slices ![128, 0] S128x1
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  broadcasts_S5000x1_S5000x64 : S5000x1.Broadcasts S5000x64
  natLt_1_32 : 1 < 32
  broadcasts_S64x1_S64x128 : S64x1.Broadcasts S64x128
  inb_S64x32_S64x32_0_0 : ∀ a, (![0, 0] : Fin 2 → Nat) a + S64x32.size a ≤ S64x32.size a
  h_S64x32 : 0 < S64x32.numel
  inb_S32x128_S32x128_0_0 : ∀ a, (![0, 0] : Fin 2 → Nat) a + S32x128.size a ≤ S32x128.size a
  h_S32x128 : 0 < S32x128.numel
  broadcasts_S1x128_S64x128 : S1x128.Broadcasts S64x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S50000x1_S800000x1_S800000x1_1_0_0_1_wf : ScatterDims.WF S50000x1 S800000x1 S800000x1 [1] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x128_S5000x128_1_0_0_1_n_n_wf : DotDims.WF S5000x96 S96x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x32_S32x128_S64x128_1_0_0_1_n_n_wf : DotDims.WF S64x32 S32x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x128.size a ≤ S96x128.size a
  hwx0_4 : ∀ i : grid0.Coords, EltTy.bits .f32 = 32 ∨ (Rect.block (s := S96x128) S96x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S50000x1.size a
  hwx2_0 : ∀ i : grid2.Coords, EltTy.bits .i32 = 32 ∨ (Rect.block (s := S50000x1) S5000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x128.size a ≤ S32x128.size a
  hwx2_3 : ∀ i : grid2.Coords, EltTy.bits .f32 = 32 ∨ (Rect.block (s := S32x128) S32x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x1.size a ≤ S64x1.size a
  hwx2_8 : ∀ i : grid2.Coords, EltTy.bits .f32 = 32 ∨ (Rect.block (s := S64x1) S64x1.size (cc2_transform_8 i) (hinb2_8 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x32_S32x128_S64x128_1_0_0_1_n_n : DotDims S64x32 S32x128 S64x128 where
  lhsContracting := [1]
  rhsContracting := [0]
  lhsNonContracting := [0]
  rhsNonContracting := [1]
  lhsBatch := []
  rhsBatch := []
  wf := dot_S64x32_S32x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v17) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S96x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v37) S64x1.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S50000x96 : Shape := ⟨2, ![50000, 96]⟩
abbrev S2x800000 : Shape := ⟨2, ![2, 800000]⟩
abbrev S64x32 : Shape := ⟨2, ![64, 32]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S32x128 : Shape := ⟨2, ![32, 128]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S64x128 : Shape := ⟨2, ![64, 128]⟩
abbrev S64x1 : Shape := ⟨2, ![64, 1]⟩
abbrev S64x256 : Shape := ⟨2, ![64, 256]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S64x32, .f32⟩
  | .hbm, ⟨3, _⟩ => ⟨S50000, .i32⟩
  | .hbm, ⟨4, _⟩ => ⟨S96x128, .f32⟩
  | .hbm, ⟨5, _⟩ => ⟨S96x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S32x128, .f32⟩
  | .hbm, ⟨11, _⟩ => ⟨S128, .f32⟩
  | .hbm, ⟨12, _⟩ => ⟨S256x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x96, .f32⟩
  | .hbm, ⟨27, _⟩ => ⟨S_, .f32⟩
  | .hbm, ⟨28, _⟩ => ⟨S50000x96, .f32⟩
  | .hbm, ⟨29, _⟩ => ⟨S800000x1, .i32⟩
  | .hbm, ⟨30, _⟩ => ⟨S50000x96, .f32⟩
  | .hbm, ⟨31, _⟩ => ⟨S_, .f32⟩
  | .hbm, ⟨32, _⟩ => ⟨S800000x1, .f32⟩
  | .hbm, ⟨33, _⟩ => ⟨S_, .f32⟩
  | .hbm, ⟨34, _⟩ => ⟨S50000x1, .f32⟩
  | .hbm, ⟨35, _⟩ => ⟨S800000x1, .i32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S50000x96, .f32⟩
  | .hbm, ⟨41, _⟩ => ⟨S50000x96, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000, .f32⟩
  | .hbm, ⟨51, _⟩ => ⟨S50000x1, .f32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S_, .f32⟩
  | .hbm, ⟨75, _⟩ => ⟨S800000x1, .f32⟩
  | .hbm, ⟨76, _⟩ => ⟨S_, .f32⟩
  | .hbm, ⟨77, _⟩ => ⟨S50000x1, .f32⟩
  | .hbm, ⟨78, _⟩ => ⟨S800000x1, .i32⟩
  | .hbm, ⟨79, _⟩ => ⟨S50000x1, .f32⟩
  | .hbm, ⟨80, _⟩ => ⟨S_, .f32⟩
  | .hbm, ⟨81, _⟩ => ⟨S50000x1, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S50000x1, .f32⟩
  | .hbm, ⟨98, _⟩ => ⟨S50000x1, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S64x128, .f32⟩
  | .hbm, ⟨103, _⟩ => ⟨S50000x1, .i32⟩
  | .hbm, ⟨104, _⟩ => ⟨S64x128, .f32⟩
  | .hbm, ⟨105, _⟩ => ⟨S_, .f32⟩
  | .hbm, ⟨106, _⟩ => ⟨S50000x1, .f32⟩
  | .hbm, ⟨107, _⟩ => ⟨S_, .f32⟩
  | .hbm, ⟨108, _⟩ => ⟨S64x1, .f32⟩
  | .hbm, ⟨109, _⟩ => ⟨S50000x1, .i32⟩
  | .hbm, ⟨110, _⟩ => ⟨S64x1, .f32⟩
  | .hbm, ⟨111, _⟩ => ⟨S_, .f32⟩
  | .hbm, ⟨112, _⟩ => ⟨S64x1, .f32⟩
  | .hbm, ⟨113, _⟩ => ⟨S64x1, .f32⟩
  | .hbm, ⟨114, _⟩ => ⟨S64x128, .f32⟩
  | .hbm, ⟨115, _⟩ => ⟨S64x128, .f32⟩
  | .hbm, ⟨116, _⟩ => ⟨S64x128, .f32⟩
  | .hbm, ⟨117, _⟩ => ⟨S1x128, .f32⟩
  | .hbm, ⟨118, _⟩ => ⟨S64x128, .f32⟩
  | .hbm, ⟨119, _⟩ => ⟨S64x128, .f32⟩
  | .hbm, ⟨120, _⟩ => ⟨S_, .f32⟩
  | .hbm, ⟨121, _⟩ => ⟨S64x128, .f32⟩
  | .hbm, ⟨122, _⟩ => ⟨S64x128, .f32⟩
  | .hbm, ⟨123, _⟩ => ⟨S64x256, .f32⟩
  | .hbm, ⟨124, _⟩ => ⟨S64x1, .f32⟩
  | .hbm, ⟨125, _⟩ => ⟨S1x1, .f32⟩
  | .hbm, ⟨126, _⟩ => ⟨S64x1, .f32⟩
  | .hbm, ⟨127, _⟩ => ⟨S64x1, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_cst : Ref sig .tc := ⟨.hbm, 58, rfl⟩
abbrev main_call1_v0 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_call3_cst : Ref sig .tc := ⟨.hbm, 120, rfl⟩
abbrev main_call3_v0 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S_S64x128 : S_.BroadcastsInDim S64x128 (![] : Fin 0 → Fin S64x128.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  concatenates_S64x128_S64x128_S64x256_d1 : Shape.Concatenates [S64x128, S64x128] S64x256 1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  dot_S64x32_S32x128_S64x128_1_0_0_1_n_n_wf : DotDims.WF S64x32 S32x128 S64x128 [1] [0] [0] [1] [] []
  dot_S64x256_S256x1_S64x1_1_0_0_1_n_n_wf : DotDims.WF S64x256 S256x1 S64x1 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x32_S32x128_S64x128_1_0_0_1_n_n : DotDims S64x32 S32x128 S64x128 where
  lhsContracting := [1]
  rhsContracting := [0]
  lhsNonContracting := [0]
  rhsNonContracting := [1]
  lhsBatch := []
  rhsBatch := []
  wf := dot_S64x32_S32x128_S64x128_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.K.R0.lean ====
/-
  Region 0 of the kernel's program: the node layer with 96 input features, one block of 5000 rows per grid point.
  What the layer's body leaves in its output block is one function of the six input blocks (the neighbour sums, the
  nodes' own rows, the in-degrees, the two weight matrices, the bias row); the body's run, the proof data of the pipeline
  and the obligation at every grid point are stated at a parameter V, the buffer contents when the region is entered.
-/
import proofs.«411664_j16982300688532_2_alg».proof.Proof.Gen.Kernel.Launch
import proofs.«411664_j16982300688532_2_alg».proof.Proof.Gen.Kernel.Skeleton
import proofs.«411664_j16982300688532_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle of the output buffer: the body's one store. -/
abbrev r0_out : Rect S5000x128 := Rect.unit (s := S5000x128) ![0, 0] S5000x128.size inb_S5000x128_S5000x128_0_0

/-- The output block after the body, from the six input blocks: the one store's payload over the loaded blocks. -/
def out0_6 (x0 : Vec F S5000x96 .f32) (x1 : Vec F S5000x96 .f32) (x2 : Vec F S5000x1 .f32) (x3 : Vec F S96x128 .f32) (x4 : Vec F S96x128 .f32) (x5 : Vec F S1x128 .f32) : Vec F S5000x128 .f32 :=
  View.canon [⟨r0_out, k0_pay1 (View.ld x0 (Rect.unit (s := S5000x96) ![0, 0] S5000x96.size inb_S5000x96_S5000x96_0_0)) (View.ld x2 (Rect.unit (s := S5000x1) ![0, 0] S5000x1.size inb_S5000x1_S5000x1_0_0)) (View.ld x1 (Rect.unit (s := S5000x96) ![0, 0] S5000x96.size inb_S5000x96_S5000x96_0_0)) (View.ld x3 (Rect.unit (s := S96x128) ![0, 0] S96x128.size inb_S96x128_S96x128_0_0)) (View.ld x4 (Rect.unit (s := S96x128) ![0, 0] S96x128.size inb_S96x128_S96x128_0_0)) (View.ld x5 (Rect.unit (s := S1x128) ![0, 0] S1x128.size inb_S1x128_S1x128_0_0))⟩]

/-- The one store covers the buffer. -/
theorem cover0_6 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

set_option maxHeartbeats 4000000 in
/-- The body on whole staging buffers, the inputs' at read contents and the output's at anything, runs to the end holding
    the inputs' as they were and the output's at out0_6 of the inputs'. -/
theorem sound_kernel0 (c : Dev nD) (i : grid0.Coords) (E : Set ℕ)
    (arg1 : Memref sig .tc .vmem S5000x96 .f32) (harg1 : arg1.IsWhole) (arg2 : Memref sig .tc .vmem S5000x96 .f32) (harg2 : arg2.IsWhole)
    (arg3 : Memref sig .tc .vmem S5000x1 .f32) (harg3 : arg3.IsWhole) (arg4 : Memref sig .tc .vmem S96x128 .f32) (harg4 : arg4.IsWhole)
    (arg5 : Memref sig .tc .vmem S96x128 .f32) (harg5 : arg5.IsWhole) (arg6 : Memref sig .tc .vmem S1x128 .f32) (harg6 : arg6.IsWhole)
    (arg7 : Memref sig .tc .vmem S5000x128 .f32) (harg7 : arg7.IsWhole)
    (x0 : Vec F S5000x96 .f32) (x1 : Vec F S5000x96 .f32) (x2 : Vec F S5000x1 .f32) (x3 : Vec F S96x128 .f32) (x4 : Vec F S96x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage_transform_kernel i arg1 harg1 arg2 harg2 arg3 harg3 arg4 harg4 arg5 harg5 arg6 harg6 arg7 harg7) K := by
  simp only [cc0__sage_transform_kernel_eq_skeleton]; unfold cc0__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of this pipeline on core c: the arrays as the region finds them; after the body at point t each
    input's buffer at its block and the output's at out0_6 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c (grid0.coords t) Set.univ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.R1.lean ====
/-
  Region 1 of the kernel's program: the node layer with 128 input features, one block of 5000 rows per grid point.
  What the layer's body leaves in its output block is one function of the six input blocks (the neighbour sums, the
  nodes' own rows, the in-degrees, the two weight matrices, the bias row); the body's run, the proof data of the pipeline
  and the obligation at every grid point are stated at a parameter V, the buffer contents when the region is entered.
-/
import proofs.«411664_j16982300688532_2_alg».proof.Proof.Gen.Kernel.Launch
import proofs.«411664_j16982300688532_2_alg».proof.Proof.Gen.Kernel.Skeleton
import proofs.«411664_j16982300688532_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the output buffer: the body's one store. -/
abbrev r1_out : Rect S5000x128 := Rect.unit (s := S5000x128) ![0, 0] S5000x128.size inb_S5000x128_S5000x128_0_0

/-- The output block after the body, from the six input blocks: the one store's payload over the loaded blocks. -/
def out1_6 (x0 : Vec F S5000x128 .f32) (x1 : Vec F S5000x128 .f32) (x2 : Vec F S5000x1 .f32) (x3 : Vec F S128x128 .f32) (x4 : Vec F S128x128 .f32) (x5 : Vec F S1x128 .f32) : Vec F S5000x128 .f32 :=
  View.canon [⟨r1_out, k1_pay1 (View.ld x0 (Rect.unit (s := S5000x128) ![0, 0] S5000x128.size inb_S5000x128_S5000x128_0_0)) (View.ld x2 (Rect.unit (s := S5000x1) ![0, 0] S5000x1.size inb_S5000x1_S5000x1_0_0)) (View.ld x1 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128x128) ![0, 0] S128x128.size inb_S128x128_S128x128_0_0)) (View.ld x5 (Rect.unit (s := S1x128) ![0, 0] S1x128.size inb_S1x128_S1x128_0_0))⟩]

/-- The one store covers the buffer. -/
theorem cover1_6 (p0 : Vec F S5000x128 .f32) (y : S5000x128.Idx) :
    ∃ pc ∈ ([⟨r1_out, p0⟩] : List (View.Piece (Elt F) S5000x128 .f32)), y ∈ pc.1.set :=
  View.cover_of_tiled [⟨r1_out, p0⟩] S5000x128.size (by rfl) y

set_option maxHeartbeats 4000000 in
/-- The body on whole staging buffers, the inputs' at read contents and the output's at anything, runs to the end holding
    the inputs' as they were and the output's at out1_6 of the inputs'. -/
theorem sound_kernel1 (c : Dev nD) (i : grid1.Coords) (E : Set ℕ)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 : Vec F S5000x128 .f32) (x1 : Vec F S5000x128 .f32) (x2 : Vec F S5000x1 .f32) (x3 : Vec F S128x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__sage_transform_kernel i arg1 harg1 arg2 harg2 arg3 harg3 arg4 harg4 arg5 harg5 arg6 harg6 arg7 harg7) K := by
  simp only [cc1__sage_transform_kernel_eq_skeleton]; unfold cc1__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this pipeline on core c: the arrays as the region finds them; after the body at point t each
    input's buffer at its block and the output's at out1_6 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c (grid1.coords t) Set.univ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.R2.lean ====
/-
  Region 2 of the kernel's program: the pooling and head layer, one block of 5000 node rows per grid point.
  Two buffers of the kernel's own are carried from point to point: the per-graph sums of node rows (64 by 128)
  and the per-graph node counts (64 by 1). The first point clears both; every point adds its block's
  contribution; the last point reads both and the six small operands and stores the 64 head outputs. What the two
  carried buffers hold after each point is a recursion over the points; the output block is a function of their
  final contents. All is stated at a parameter V, the buffer contents when the region is entered.
-/
import proofs.«411664_j16982300688532_2_alg».proof.Proof.Gen.Kernel.Launch
import proofs.«411664_j16982300688532_2_alg».proof.Proof.Gen.Kernel.Skeleton
import proofs.«411664_j16982300688532_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions and where the output window is idle -/

/-- The first conditional's condition, from the grid coordinate: the point is the first. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 10 = 0 :=
  (by decide +kernel : ∀ t : Fin grid2.N, cond2_0 (grid2.coords t) ↔ t.val % 10 = 0)
/-- The second conditional's condition: the point is the last. -/
abbrev cond2_1 (i : grid2.Coords) : Prop := k2_cond2 i = 1#1
/-- It holds at point 9 only. -/
theorem hcond2_1 : ∀ t : Fin cfg2.N, cond2_1 (grid2.coords t) ↔ t.val % 10 = 9 :=
  (by decide +kernel : ∀ t : Fin grid2.N, cond2_1 (grid2.coords t) ↔ t.val % 10 = 9)

/-- Window 0 is an input: never idle. -/
theorem liveAt2_0 : ∀ t : Fin cfg2.N, cfg2.idle 0 (grid2.coords t) = false := by decide +kernel
/-- Window 1 is an input: never idle. -/
theorem liveAt2_1 : ∀ t : Fin cfg2.N, cfg2.idle 1 (grid2.coords t) = false := by decide +kernel
/-- Window 2 is an input: never idle. -/
theorem liveAt2_2 : ∀ t : Fin cfg2.N, cfg2.idle 2 (grid2.coords t) = false := by decide +kernel
/-- Window 3 is an input: never idle. -/
theorem liveAt2_3 : ∀ t : Fin cfg2.N, cfg2.idle 3 (grid2.coords t) = false := by decide +kernel
/-- Window 4 is an input: never idle. -/
theorem liveAt2_4 : ∀ t : Fin cfg2.N, cfg2.idle 4 (grid2.coords t) = false := by decide +kernel
/-- Window 5 is an input: never idle. -/
theorem liveAt2_5 : ∀ t : Fin cfg2.N, cfg2.idle 5 (grid2.coords t) = false := by decide +kernel
/-- Window 6 is an input: never idle. -/
theorem liveAt2_6 : ∀ t : Fin cfg2.N, cfg2.idle 6 (grid2.coords t) = false := by decide +kernel
/-- Window 7 is an input: never idle. -/
theorem liveAt2_7 : ∀ t : Fin cfg2.N, cfg2.idle 7 (grid2.coords t) = false := by decide +kernel
/-- Away from the last point the output window is idle: nothing is stored into its buffer, -/
theorem idleAt2_8 : ∀ t : Fin cfg2.N, ¬cond2_1 (grid2.coords t) → cfg2.idle 8 (grid2.coords t) = true := by decide +kernel
/-- and its block is not written back. -/
theorem noFlush2_8 : ∀ t : Fin cfg2.N, ¬cond2_1 (grid2.coords t) → (cfg2.win 8).flush t = false := by decide +kernel
/-- At the last point it is live. -/
theorem liveAt2_8 : ∀ t : Fin cfg2.N, cond2_1 (grid2.coords t) → cfg2.idle 8 (grid2.coords t) = false := by decide +kernel

/-! ## What the body's stores leave -/

/-- The whole-buffer rectangles of the two carried buffers and of the output buffer. -/
abbrev r2_sum : Rect S64x128 := (Rect.unit (s := S64x128) ![0, 0] S64x128.size inb_S64x128_S64x128_0_0)
abbrev r2_cnt : Rect S64x1 := (Rect.unit (s := S64x1) ![0, 0] S64x1.size inb_S64x1_S64x1_0_0)
/-- The two carried buffers as memrefs: whole scoped buffers of the kernel's own. -/
abbrev scM2_0 : Memref sig .tc .vmem S64x128 .f32 := Memref.whole cc2_scratch0
abbrev scM2_1 : Memref sig .tc .vmem S64x1 .f32 := Memref.whole cc2_scratch1

/-- The sums buffer after the first point's clearing store. -/
def zero2_0 : Vec F S64x128 .f32 := View.canon [⟨r2_sum, k2_pay1 (F := F)⟩]
/-- The counts buffer after the first point's clearing store. -/
def zero2_1 : Vec F S64x1 .f32 := View.canon [⟨r2_cnt, k2_pay2 (F := F)⟩]
/-- The sums buffer after a point's accumulating store, from the point's two blocks and what the buffer held. -/
def step2_0 (x0 : Vec F S5000x1 .i32) (x1 : Vec F S5000x128 .f32) (s0 : Vec F S64x128 .f32) : Vec F S64x128 .f32 :=
  View.canon [⟨r2_sum, k2_pay4 (View.ld x0 (Rect.unit (s := S5000x1) ![0, 0] S5000x1.size inb_S5000x1_S5000x1_0_0)) (View.ld x1 (Rect.unit (s := S5000x128) ![0, 0] S5000x128.size inb_S5000x128_S5000x128_0_0)) (View.ld s0 r2_sum)⟩]
/-- The counts buffer after a point's accumulating store, from the point's ids block and what the buffer held. -/
def step2_1 (x0 : Vec F S5000x1 .i32) (s1 : Vec F S64x1 .f32) : Vec F S64x1 .f32 :=
  View.canon [⟨r2_cnt, k2_pay5 (View.ld x0 (Rect.unit (s := S5000x1) ![0, 0] S5000x1.size inb_S5000x1_S5000x1_0_0)) (View.ld s1 r2_cnt)⟩]
/-- The output buffer after the last point's store, from the two carried buffers and the six small operands. -/
def out2_8 (s0 : Vec F S64x128 .f32) (s1 : Vec F S64x1 .f32) (x2 : Vec F S64x32 .f32) (x3 : Vec F S32x128 .f32) (x4 : Vec F S1x128 .f32) (x5 : Vec F S128x1 .f32) (x6 : Vec F S128x1 .f32) (x7 : Vec F S1x1 .f32) : Vec F S64x1 .f32 :=
  View.canon [⟨r2_cnt, k2_pay6 (View.ld s0 r2_sum) (View.ld s1 r2_cnt) (View.ld x2 (Rect.unit (s := S64x32) ![0, 0] S64x32.size inb_S64x32_S64x32_0_0)) (View.ld x3 (Rect.unit (s := S32x128) ![0, 0] S32x128.size inb_S32x128_S32x128_0_0)) (View.ld x4 (Rect.unit (s := S1x128) ![0, 0] S1x128.size inb_S1x128_S1x128_0_0)) (View.ld x5 (Rect.unit (s := S128x1) ![0, 0] S128x1.size inb_S128x1_S128x1_0_0)) (View.ld x6 (Rect.unit (s := S128x1) ![0, 0] S128x1.size inb_S128x1_S128x1_0_0)) (View.ld x7 (Rect.unit (s := S1x1) ![0, 0] S1x1.size inb_S1x1_S1x1_0_0))⟩]

/-- What the two carried buffers hold after the body at point n: at the first point the accumulating stores over the
    cleared buffers, afterwards over what the point before left. -/
def acc2 (c : Dev nD) : (n : ℕ) → n < cfg2.N → Vec F S64x128 .f32 × Vec F S64x1 .f32
  | 0, hn => (step2_0 (iblk2 V c 0 ⟨0, hn⟩) (iblk2 V c 1 ⟨0, hn⟩) zero2_0, step2_1 (iblk2 V c 0 ⟨0, hn⟩) zero2_1)
  | n + 1, hn => (step2_0 (iblk2 V c 0 ⟨n + 1, hn⟩) (iblk2 V c 1 ⟨n + 1, hn⟩) (acc2 c n (Nat.lt_of_succ_lt hn)).1,
      step2_1 (iblk2 V c 0 ⟨n + 1, hn⟩) (acc2 c n (Nat.lt_of_succ_lt hn)).2)

/-- After the first point: the accumulating stores' payloads over the cleared buffers. -/
theorem acc2_zero (c : Dev nD) (h : 0 < cfg2.N) : acc2 V c 0 h =
    (View.canon [⟨r2_sum, k2_pay4 (View.ld (iblk2 V c 0 ⟨0, h⟩) (Rect.unit (s := S5000x1) ![0, 0] S5000x1.size inb_S5000x1_S5000x1_0_0)) (View.ld (iblk2 V c 1 ⟨0, h⟩) (Rect.unit (s := S5000x128) ![0, 0] S5000x128.size inb_S5000x128_S5000x128_0_0)) (View.ld (View.canon [⟨r2_sum, k2_pay1 (F := F)⟩]) r2_sum)⟩],
     View.canon [⟨r2_cnt, k2_pay5 (View.ld (iblk2 V c 0 ⟨0, h⟩) (Rect.unit (s := S5000x1) ![0, 0] S5000x1.size inb_S5000x1_S5000x1_0_0)) (View.ld (View.canon [⟨r2_cnt, k2_pay2 (F := F)⟩]) r2_cnt)⟩]) := rfl

/-- After a later point: the accumulating stores' payloads over what the point before left. -/
theorem acc2_succ (c : Dev nD) (n : ℕ) (h : n + 1 < cfg2.N) : acc2 V c (n + 1) h =
    (View.canon [⟨r2_sum, k2_pay4 (View.ld (iblk2 V c 0 ⟨n + 1, h⟩) (Rect.unit (s := S5000x1) ![0, 0] S5000x1.size inb_S5000x1_S5000x1_0_0)) (View.ld (iblk2 V c 1 ⟨n + 1, h⟩) (Rect.unit (s := S5000x128) ![0, 0] S5000x128.size inb_S5000x128_S5000x128_0_0)) (View.ld (acc2 V c n (Nat.lt_of_succ_lt h)).1 r2_sum)⟩],
     View.canon [⟨r2_cnt, k2_pay5 (View.ld (iblk2 V c 0 ⟨n + 1, h⟩) (Rect.unit (s := S5000x1) ![0, 0] S5000x1.size inb_S5000x1_S5000x1_0_0)) (View.ld (acc2 V c n (Nat.lt_of_succ_lt h)).2 r2_cnt)⟩]) := rfl

/-- At a point that is not the first, the recursion read at the point's own position. -/
theorem acc2_pos (c : Dev nD) (t : Fin cfg2.N) (hz : t.val ≠ 0) : acc2 V c t.val t.isLt =
    (step2_0 (iblk2 V c 0 t) (iblk2 V c 1 t) (acc2 V c (t.val - 1) (Nat.lt_of_le_of_lt (Nat.sub_le _ _) t.isLt)).1,
     step2_1 (iblk2 V c 0 t) (acc2 V c (t.val - 1) (Nat.lt_of_le_of_lt (Nat.sub_le _ _) t.isLt)).2) := by
  obtain ⟨n, hn⟩ := t
  cases n with
  | zero => exact absurd rfl hz
  | succ n => rfl

/-- At the first point. -/
theorem acc2_first (c : Dev nD) (t : Fin cfg2.N) (hz : t.val = 0) : acc2 V c t.val t.isLt =
    (step2_0 (iblk2 V c 0 t) (iblk2 V c 1 t) zero2_0, step2_1 (iblk2 V c 0 t) zero2_1) := by
  obtain ⟨n, hn⟩ := t
  cases n with
  | zero => rfl
  | succ n => exact absurd hz (Nat.succ_ne_zero n)

/-! ## The body's run, case by case -/

/-- The zero offsets of a whole-buffer rectangle of rank 2, as the constant function. -/
theorem hz2 : (![0, 0] : Fin 2 → ℕ) = fun _ => 0 := by funext a; fin_cases a <;> rfl

/-- A store through the whole-buffer rectangle, last, covers the sums buffer whatever was stored before. -/
theorem cov2_sum (w : Vec F S64x128 .f32) (L : List (View.Piece (Elt F) S64x128 .f32)) (y : S64x128.Idx) :
    ∃ pc ∈ ((⟨r2_sum, w⟩ : View.Piece (Elt F) S64x128 .f32) :: L), y ∈ pc.1.set :=
  ⟨_, List.mem_cons.mpr (Or.inl rfl), View.mem_set_unit_zero hz2 inb_S64x128_S64x128_0_0 y⟩
/-- The same of the counts buffer and of the output buffer, which has its shape. -/
theorem cov2_cnt (w : Vec F S64x1 .f32) (L : List (View.Piece (Elt F) S64x1 .f32)) (y : S64x1.Idx) :
    ∃ pc ∈ ((⟨r2_cnt, w⟩ : View.Piece (Elt F) S64x1 .f32) :: L), y ∈ pc.1.set :=
  ⟨_, List.mem_cons.mpr (Or.inl rfl), View.mem_set_unit_zero hz2 inb_S64x1_S64x1_0_0 y⟩

set_option maxHeartbeats 4000000 in
/-- At the first point: the two input buffers at read contents, the two carried buffers at anything; the body clears
    the carried buffers, then leaves them at the accumulating stores over the cleared contents. -/
theorem sound_kernel2_A (c : Dev nD) (i : grid2.Coords) (E : Set ℕ) (hc0 : cond2_0 i) (hc1 : ¬cond2_1 i)
    (arg1 : Memref sig .tc .vmem S5000x1 .i32) (harg1 : arg1.IsWhole) (arg2 : Memref sig .tc .vmem S5000x128 .f32) (harg2 : arg2.IsWhole) (arg3 : Memref sig .tc .vmem S64x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x1 .f32) (harg11 : arg11.IsWhole)
    (x0 : Vec F S5000x1 .i32) (x1 : Vec F S5000x128 .f32) (K : PUnit → sProp 𝕄) :
    iprop(owns (c : Thread nD τ) arg1 fullShare x0 ∗ owns (c : Thread nD τ) arg2 fullShare x1
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1
            ∗ owns (c : Thread nD τ) arg10 fullShare (step2_0 x0 x1 zero2_0) ∗ owns (c : Thread nD τ) arg11 fullShare (step2_1 x0 zero2_1)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11) K := by
  simp only [cc2__pool_head_kernel_eq_skeleton]; unfold cc2__pool_head_kernel_skel
  unfold owns
  iintro ⟨⟨%f0, %hf0, H0⟩, ⟨%f1, %hf1, H1⟩, ⟨%d10, %f10, -, H10⟩, ⟨%d11, %f11, -, H11⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H10]
  · iexists _; isplitr
    swap; · iexact H10
    ipureintro
    sl_unfold_run_names
    rw [View.read_writes_eq_canon _ _ _ (cov2_sum _ _)]
    unfold step2_0 zero2_0
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  · iexists _; isplitr
    swap; · iexact H11
    ipureintro
    sl_unfold_run_names
    rw [View.read_writes_eq_canon _ _ _ (cov2_cnt _ _)]
    unfold step2_1 zero2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]

set_option maxHeartbeats 4000000 in
/-- At a middle point: the carried buffers at what the point before left; the body leaves them at the accumulating
    stores over those contents. -/
theorem sound_kernel2_B (c : Dev nD) (i : grid2.Coords) (E : Set ℕ) (hc0 : ¬cond2_0 i) (hc1 : ¬cond2_1 i)
    (arg1 : Memref sig .tc .vmem S5000x1 .i32) (harg1 : arg1.IsWhole) (arg2 : Memref sig .tc .vmem S5000x128 .f32) (harg2 : arg2.IsWhole) (arg3 : Memref sig .tc .vmem S64x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x1 .f32) (harg11 : arg11.IsWhole)
    (x0 : Vec F S5000x1 .i32) (x1 : Vec F S5000x128 .f32) (xs0 : Vec F S64x128 .f32) (xs1 : Vec F S64x1 .f32) (K : PUnit → sProp 𝕄) :
    iprop(owns (c : Thread nD τ) arg1 fullShare x0 ∗ owns (c : Thread nD τ) arg2 fullShare x1
        ∗ owns (c : Thread nD τ) arg10 fullShare xs0 ∗ owns (c : Thread nD τ) arg11 fullShare xs1
        ∗ (iprop(owns (c : Thread nD τ) arg1 fullShare x0 ∗ owns (c : Thread nD τ) arg2 fullShare x1
            ∗ owns (c : Thread nD τ) arg10 fullShare (step2_0 x0 x1 xs0) ∗ owns (c : Thread nD τ) arg11 fullShare (step2_1 x0 xs1)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11) K := by
  simp only [cc2__pool_head_kernel_eq_skeleton]; unfold cc2__pool_head_kernel_skel
  unfold owns
  iintro ⟨⟨%f0, %hf0, H0⟩, ⟨%f1, %hf1, H1⟩, ⟨%f10, %hf10, H10⟩, ⟨%f11, %hf11, H11⟩, Hk⟩
  subst hf0; subst hf1; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H10]
  · iexists _; isplitr
    swap; · iexact H10
    ipureintro
    sl_unfold_run_names
    rw [View.read_writes_eq_canon _ _ _ (cov2_sum _ _)]
    unfold step2_0
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  · iexists _; isplitr
    swap; · iexact H11
    ipureintro
    sl_unfold_run_names
    rw [View.read_writes_eq_canon _ _ _ (cov2_cnt _ _)]
    unfold step2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]

set_option maxHeartbeats 4000000 in
/-- At the last point: as at a middle point, and then the body reads the carried buffers and the six small operands
    and stores the head outputs into the output buffer, found at anything. -/
theorem sound_kernel2_C (c : Dev nD) (i : grid2.Coords) (E : Set ℕ) (hc0 : ¬cond2_0 i) (hc1 : cond2_1 i)
    (arg1 : Memref sig .tc .vmem S5000x1 .i32) (harg1 : arg1.IsWhole) (arg2 : Memref sig .tc .vmem S5000x128 .f32) (harg2 : arg2.IsWhole) (arg3 : Memref sig .tc .vmem S64x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x1 .f32) (harg11 : arg11.IsWhole)
    (x0 : Vec F S5000x1 .i32) (x1 : Vec F S5000x128 .f32) (x2 : Vec F S64x32 .f32) (x3 : Vec F S32x128 .f32) (x4 : Vec F S1x128 .f32) (x5 : Vec F S128x1 .f32) (x6 : Vec F S128x1 .f32) (x7 : Vec F S1x1 .f32) (xs0 : Vec F S64x128 .f32) (xs1 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 (step2_0 x0 x1 xs0) (step2_1 x0 xs1) x2 x3 x4 x5 x6 x7)
            ∗ owns (c : Thread nD τ) arg10 fullShare (step2_0 x0 x1 xs0) ∗ owns (c : Thread nD τ) arg11 fullShare (step2_1 x0 xs1)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%f10, %hf10, H10⟩, ⟨%f11, %hf11, H11⟩, Hk⟩
  subst hf0; subst hf1; subst hf2; subst hf3; subst hf4; subst hf5; subst hf6; subst hf7; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists _; isplitr
    swap; · iexact H9
    ipureintro
    sl_unfold_run_names
    rw [View.read_writes_eq_canon _ _ _ (cov2_cnt _ _)]
    unfold out2_8 step2_0 step2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  isplitl [H10]
  · iexists _; isplitr
    swap; · iexact H10
    ipureintro
    sl_unfold_run_names
    rw [View.read_writes_eq_canon _ _ _ (cov2_sum _ _)]
    unfold step2_0
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  · iexists _; isplitr
    swap; · iexact H11
    ipureintro
    sl_unfold_run_names
    rw [View.read_writes_eq_canon _ _ _ (cov2_cnt _ _)]
    unfold step2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]

/-! ## The invariant: the carried buffers between points -/

/-- The core's scoped buffers other than this call's staging buffers and its two carried buffers, at anything:
    carried unopened from point to point. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- What the region is handed, with the two carried buffers split off as memrefs owned at anything. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA
  rw [Pipeline.scopedRest_split_of_list spec2 c [cc2_scratch0, cc2_scratch1] (by decide) (by decide)]
  simp only [scM2_0, scM2_1, owns_whole, bigSepL_cons_cons, bigSepL_singleton]
  try rfl

/-- The invariant before position n: before the first point what the region is handed; afterwards the two carried
    buffers at what the point before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2) ∗ rest2 c) ∗ (∃ r, prngReg c r)) := by
  cases n with
  | zero => exact absurd rfl hz
  | succ n => rfl

/-! ## The pipeline's proof data -/

/-- The proof data of this pipeline on core c: the arrays as the region finds them; after the body at point t each
    input's buffer at its block and the output's at the head of what the carried buffers hold after point t (read only at
    the last point, where the block is written back); the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (acc2 V c t.val t.isLt).1 (acc2 V c t.val t.isLt).2 (iblk2 V c 2 t) (iblk2 V c 3 t) (iblk2 V c 4 t) (iblk2 V c 5 t) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (acc2 V c t.val t.isLt).1 (acc2 V c t.val t.isLt).2 (iblk2 V c 2 t) (iblk2 V c 3 t) (iblk2 V c 4 t) (iblk2 V c 5 t) (iblk2 V c 6 t) (iblk2 V c 7 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The output block at the last point: the last store's payload over the carried buffers' final contents and the six
    small operands' blocks. -/
theorem after2_8_last (c : Dev nD) : (dat2 V c).after 8 Gen.t2_9 =
    View.canon [⟨r2_cnt, k2_pay6 (View.ld (acc2 V c 9 (by rw [show cfg2.N = 10 from N_2]; decide)).1 r2_sum) (View.ld (acc2 V c 9 (by rw [show cfg2.N = 10 from N_2]; decide)).2 r2_cnt)
      (View.ld (iblk2 V c 2 Gen.t2_9) (Rect.unit (s := S64x32) ![0, 0] S64x32.size inb_S64x32_S64x32_0_0)) (View.ld (iblk2 V c 3 Gen.t2_9) (Rect.unit (s := S32x128) ![0, 0] S32x128.size inb_S32x128_S32x128_0_0)) (View.ld (iblk2 V c 4 Gen.t2_9) (Rect.unit (s := S1x128) ![0, 0] S1x128.size inb_S1x128_S1x128_0_0))
      (View.ld (iblk2 V c 5 Gen.t2_9) (Rect.unit (s := S128x1) ![0, 0] S128x1.size inb_S128x1_S128x1_0_0)) (View.ld (iblk2 V c 6 Gen.t2_9) (Rect.unit (s := S128x1) ![0, 0] S128x1.size inb_S128x1_S128x1_0_0)) (View.ld (iblk2 V c 7 Gen.t2_9) (Rect.unit (s := S1x1) ![0, 0] S1x1.size inb_S1x1_S1x1_0_0))⟩] := by
  rw [after2_8]; rfl

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' buffers hold their blocks; the closed forms say which case the point is in; the
    invariant hands the body the carried buffers at what the point before left (at anything at the first point) and takes
    them back at this point's contents; away from the last point the output buffer passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  by_cases h0 : t.val % 10 = 0
  · have h1 : ¬t.val % 10 = 9 := by omega
    have hz : t.val = 0 := by omega
    rw [Dat.leavesExact_idle (dat2 V c) 8 t (idleAt2_8 t (fun h => h1 ((hcond2_1 t).mp h))) (noFlush2_8 t (fun h => h1 ((hcond2_1 t).mp h)))]
    rw [acc2_first V c t hz]
    rw [PhiS2_castSucc V c t, PhiS2_zero V c _ _ hz, PhiA2_eq]
    iintro ⟨⟨⟨⟨⟨%ds0, HS0⟩, ⟨%ds1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c (grid2.coords t) Set.univ ((hcond2_0 t).mpr h0) (fun h => h1 ((hcond2_1 t).mp h)) _ _ _ _ _ _ _ _ _ _ _ _ _ _ _ _ _ _ _ _ _ _ (iblk2 V c 0 t) (iblk2 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := by omega
    by_cases h1 : t.val % 10 = 9
    · rw [show (dat2 V c).leavesExact 8 t = owns (c : Thread nD τ) (st2_8 t) fullShare ((dat2 V c).after 8 t) from by
        unfold Dat.leavesExact; rw [liveAt2_8 t ((hcond2_1 t).mpr h1)], after2_8]
      rw [acc2_pos V c t hz]
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c (grid2.coords t) Set.univ (fun h => h0 ((hcond2_0 t).mp h)) ((hcond2_1 t).mpr h1) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat2 V c) 8 t (idleAt2_8 t (fun h => h1 ((hcond2_1 t).mp h))) (noFlush2_8 t (fun h => h1 ((hcond2_1 t).mp h)))]
      rw [acc2_pos V c t hz]
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c (grid2.coords t) Set.univ (fun h => h0 ((hcond2_0 t).mp h)) (fun h => h1 ((hcond2_1 t).mp h)) _ _ _ _ _ _ _ _ _ _ _ _ _ _ _ _ _ _ _ _ _ _ (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the region was handed: the carried buffers' named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitr [Hg]
  · isplitr [HR]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Region

end Cert.Kernel.Hand

end
-- ==== Proof.K.Run.lean ====
/-
  The run of the kernel's program: its three regions among three stretches of host operations, from the launch to the
  return. The buffer contents at every boundary are a fold from the launch memory: a host stretch applies its
  operations; a region leaves its input arrays as it found them and its output array at what its write-backs
  leave. Every weakly fair execution terminates with every unscoped buffer at the last boundary's contents; from that
  follow the result's value and that the argument arrays end as launched.
-/
import proofs.«411664_j16982300688532_2_alg».proof.Proof.Gen.Kernel.Launch
import proofs.«411664_j16982300688532_2_alg».proof.Proof.Gen.Kernel.Skeleton
import proofs.«411664_j16982300688532_2_alg».proof.Proof.Gen.Kernel.Points
import proofs.«411664_j16982300688532_2_alg».proof.Proof.K.R0
import proofs.«411664_j16982300688532_2_alg».proof.Proof.K.R1
import proofs.«411664_j16982300688532_2_alg».proof.Proof.K.R2
import proofs.«411664_j16982300688532_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes its output array only: any other buffer leaves it as it entered (an input array by the
    pipeline's own account of it, a bypassing buffer untouched). -/
theorem W2_keep (c : Dev nD) (b : Ref sig .tc) (hb : b ≠ Pipeline.arrRef spec0 6) :
    W2 m ρ c (Proc.devRef .tc b) = W1 m ρ c (Proc.devRef .tc b) := by
  by_cases h : ∃ w, Pipeline.arrRef spec0 w = b
  · obtain ⟨w, rfl⟩ := h
    have hw : w ≠ 6 := fun e => hb (by rw [e])
    rw [W2_arr]
    refine ((dat0 (V1 m ρ) c).arrAt_in w ?_ _).trans (A_eq0 (V1 m ρ) c w)
    revert hw; revert w; decide
  · exact W2_of_ne m ρ c b fun w e => h ⟨w, e⟩

/-- After the host stretch before region 1. -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes its output array only: any other buffer leaves it as it entered (an input array by the
    pipeline's own account of it, a bypassing buffer untouched). -/
theorem W4_keep (c : Dev nD) (b : Ref sig .tc) (hb : b ≠ Pipeline.arrRef spec1 6) :
    W4 m ρ c (Proc.devRef .tc b) = W3 m ρ c (Proc.devRef .tc b) := by
  by_cases h : ∃ w, Pipeline.arrRef spec1 w = b
  · obtain ⟨w, rfl⟩ := h
    have hw : w ≠ 6 := fun e => hb (by rw [e])
    rw [W4_arr]
    refine ((dat1 (V3 m ρ) c).arrAt_in w ?_ _).trans (A_eq1 (V3 m ρ) c w)
    revert hw; revert w; decide
  · exact W4_of_ne m ρ c b fun w e => h ⟨w, e⟩

/-- After the host stretch before region 2. -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes its output array only: any other buffer leaves it as it entered (an input array by the
    pipeline's own account of it, a bypassing buffer untouched). -/
theorem W6_keep (c : Dev nD) (b : Ref sig .tc) (hb : b ≠ Pipeline.arrRef spec2 8) :
    W6 m ρ c (Proc.devRef .tc b) = W5 m ρ c (Proc.devRef .tc b) := by
  by_cases h : ∃ w, Pipeline.arrRef spec2 w = b
  · obtain ⟨w, rfl⟩ := h
    have hw : w ≠ 8 := fun e => hb (by rw [e])
    rw [W6_arr]
    refine ((dat2 (V5 m ρ) c).arrAt_in w ?_ _).trans (A_eq2 (V5 m ρ) c w)
    revert hw; revert w; decide
  · exact W6_of_ne m ρ c b fun w e => h ⟨w, e⟩

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at W1, left at W2. Its arrays split out of
    the unscoped buffers and put back at the exit contents; the generator register into the invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays split out of
    the unscoped buffers and put back at the exit contents; the generator register into the invariant and out; nothing
    owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays split out of
    the unscoped buffers and put back at the exit contents; the generator register into the invariant and out; nothing
    owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    unfold Pipeline.ΦA
    isplitl [Hr]; · iexact Hr
    iexact Hp
  hout c := by
    rw [Pipeline.ownSems0_none, show (pdats m ρ 2 c).Φ (Fin.last _) = (dat2 (V5 m ρ) c).Φ (Fin.last cfg2.N) from rfl]
    iintro H
    ihave H' := (hout2 (V5 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K.Frame.lean ====
/-
  What the run's last boundary says of the buffers the claims read: an argument array is written by no host operation
  and is no region's output, so it ends as launched; the result is the last region's output array.
-/
import proofs.«411664_j16982300688532_2_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer that no host stretch writes and that is no region's output holds at the last boundary what it held at
    launch. -/
theorem W6_kept (c : Dev nD) (b : Ref sig .tc) (h0 : b ∉ hostOps0_W) (h1 : b ∉ hostOps1_W) (h2 : b ∉ hostOps2_W)
    (n0 : b ≠ Pipeline.arrRef spec0 6) (n1 : b ≠ Pipeline.arrRef spec1 6) (n2 : b ≠ Pipeline.arrRef spec2 8) :
    W6 m ρ c (Proc.devRef .tc b) = m ((c : Thread nD τ).loc b) :=
  (W6_keep m ρ c b n2).trans <| (StableHlo.after_of_writes_sub hostOps2 _ hostOps2_writes h2).trans <|
    (W4_keep m ρ c b n1).trans <| (StableHlo.after_of_writes_sub hostOps1 _ hostOps1_writes h1).trans <|
    (W2_keep m ρ c b n0).trans <| (StableHlo.after_of_writes_sub hostOps0 _ hostOps0_writes h0).trans rfl

/-- The run with the result named and the arguments unchanged. -/
theorem run_val : θ_run defs (onTc (τ := τ) (main (F := F))) ⟨m, fun _ => 0, ρ⟩ (fun r => ∀ c : Dev nD,
      r.2.mem ((c.tc : Thread nD τ).loc main_v37) = (dat2 (V5 m ρ) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v37 (by decide))).trans (W6_arr m ρ c 8),
      (h c _ (mem_uc main_arg0 (by decide))).trans (W6_kept m ρ c main_arg0 (by decide) (by decide) (by decide) (by decide) (by decide) (by decide)),
      (h c _ (mem_uc main_arg1 (by decide))).trans (W6_kept m ρ c main_arg1 (by decide) (by decide) (by decide) (by decide) (by decide) (by decide)),
      (h c _ (mem_uc main_arg2 (by decide))).trans (W6_kept m ρ c main_arg2 (by decide) (by decide) (by decide) (by decide) (by decide) (by decide)),
      (h c _ (mem_uc main_arg3 (by decide))).trans (W6_kept m ρ c main_arg3 (by decide) (by decide) (by decide) (by decide) (by decide) (by decide)),
      (h c _ (mem_uc main_arg4 (by decide))).trans (W6_kept m ρ c main_arg4 (by decide) (by decide) (by decide) (by decide) (by decide) (by decide)),
      (h c _ (mem_uc main_arg5 (by decide))).trans (W6_kept m ρ c main_arg5 (by decide) (by decide) (by decide) (by decide) (by decide) (by decide)),
      (h c _ (mem_uc main_arg6 (by decide))).trans (W6_kept m ρ c main_arg6 (by decide) (by decide) (by decide) (by decide) (by decide) (by decide)),
      (h c _ (mem_uc main_arg7 (by decide))).trans (W6_kept m ρ c main_arg7 (by decide) (by decide) (by decide) (by decide) (by decide) (by decide)),
      (h c _ (mem_uc main_arg8 (by decide))).trans (W6_kept m ρ c main_arg8 (by decide) (by decide) (by decide) (by decide) (by decide) (by decide)),
      (h c _ (mem_uc main_arg9 (by decide))).trans (W6_kept m ρ c main_arg9 (by decide) (by decide) (by decide) (by decide) (by decide) (by decide)),
      (h c _ (mem_uc main_arg10 (by decide))).trans (W6_kept m ρ c main_arg10 (by decide) (by decide) (by decide) (by decide) (by decide) (by decide)),
      (h c _ (mem_uc main_arg11 (by decide))).trans (W6_kept m ρ c main_arg11 (by decide) (by decide) (by decide) (by decide) (by decide) (by decide)),
      (h c _ (mem_uc main_arg12 (by decide))).trans (W6_kept m ρ c main_arg12 (by decide) (by decide) (by decide) (by decide) (by decide) (by decide)),
      (h c _ (mem_uc main_arg13 (by decide))).trans (W6_kept m ρ c main_arg13 (by decide) (by decide) (by decide) (by decide) (by decide) (by decide))⟩) (run_all m ρ)

/-- The frame: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (run_val m ρ)

end Cert.Kernel.Hand

end
-- ==== Proof.KI.R0.lean ====
/-
  Region 0 of the kernel's program: the node layer with 96 input features, one block of 5000 rows per grid point.
  What the layer's body leaves in its output block is one function of the six input blocks (the neighbour sums, the
  nodes' own rows, the in-degrees, the two weight matrices, the bias row); the body's run, the proof data of the pipeline
  and the obligation at every grid point are stated at a parameter V, the buffer contents when the region is entered.
-/
import proofs.«411664_j16982300688532_2_alg».proof.Proof.Gen.KernelIdeal.Launch
import proofs.«411664_j16982300688532_2_alg».proof.Proof.Gen.KernelIdeal.Skeleton
import proofs.«411664_j16982300688532_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangle of the output buffer: the body's one store. -/
abbrev r0_out : Rect S5000x128 := Rect.unit (s := S5000x128) ![0, 0] S5000x128.size inb_S5000x128_S5000x128_0_0

/-- The output block after the body, from the six input blocks: the one store's payload over the loaded blocks. -/
def out0_6 (x0 : Vec F S5000x96 .f32) (x1 : Vec F S5000x96 .f32) (x2 : Vec F S5000x1 .f32) (x3 : Vec F S96x128 .f32) (x4 : Vec F S96x128 .f32) (x5 : Vec F S1x128 .f32) : Vec F S5000x128 .f32 :=
  View.canon [⟨r0_out, k0_pay1 (View.ld x0 (Rect.unit (s := S5000x96) ![0, 0] S5000x96.size inb_S5000x96_S5000x96_0_0)) (View.ld x2 (Rect.unit (s := S5000x1) ![0, 0] S5000x1.size inb_S5000x1_S5000x1_0_0)) (View.ld x1 (Rect.unit (s := S5000x96) ![0, 0] S5000x96.size inb_S5000x96_S5000x96_0_0)) (View.ld x3 (Rect.unit (s := S96x128) ![0, 0] S96x128.size inb_S96x128_S96x128_0_0)) (View.ld x4 (Rect.unit (s := S96x128) ![0, 0] S96x128.size inb_S96x128_S96x128_0_0)) (View.ld x5 (Rect.unit (s := S1x128) ![0, 0] S1x128.size inb_S1x128_S1x128_0_0))⟩]

/-- The one store covers the buffer. -/
theorem cover0_6 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

set_option maxHeartbeats 4000000 in
/-- The body on whole staging buffers, the inputs' at read contents and the output's at anything, runs to the end holding
    the inputs' as they were and the output's at out0_6 of the inputs'. -/
theorem sound_kernel0 (c : Dev nD) (i : grid0.Coords) (E : Set ℕ)
    (arg1 : Memref sig .tc .vmem S5000x96 .f32) (harg1 : arg1.IsWhole) (arg2 : Memref sig .tc .vmem S5000x96 .f32) (harg2 : arg2.IsWhole)
    (arg3 : Memref sig .tc .vmem S5000x1 .f32) (harg3 : arg3.IsWhole) (arg4 : Memref sig .tc .vmem S96x128 .f32) (harg4 : arg4.IsWhole)
    (arg5 : Memref sig .tc .vmem S96x128 .f32) (harg5 : arg5.IsWhole) (arg6 : Memref sig .tc .vmem S1x128 .f32) (harg6 : arg6.IsWhole)
    (arg7 : Memref sig .tc .vmem S5000x128 .f32) (harg7 : arg7.IsWhole)
    (x0 : Vec F S5000x96 .f32) (x1 : Vec F S5000x96 .f32) (x2 : Vec F S5000x1 .f32) (x3 : Vec F S96x128 .f32) (x4 : Vec F S96x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage_transform_kernel i arg1 harg1 arg2 harg2 arg3 harg3 arg4 harg4 arg5 harg5 arg6 harg6 arg7 harg7) K := by
  simp only [cc0__sage_transform_kernel_eq_skeleton]; unfold cc0__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of this pipeline on core c: the arrays as the region finds them; after the body at point t each
    input's buffer at its block and the output's at out0_6 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c (grid0.coords t) Set.univ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.R1.lean ====
/-
  Region 1 of the kernel's program: the node layer with 128 input features, one block of 5000 rows per grid point.
  What the layer's body leaves in its output block is one function of the six input blocks (the neighbour sums, the
  nodes' own rows, the in-degrees, the two weight matrices, the bias row); the body's run, the proof data of the pipeline
  and the obligation at every grid point are stated at a parameter V, the buffer contents when the region is entered.
-/
import proofs.«411664_j16982300688532_2_alg».proof.Proof.Gen.KernelIdeal.Launch
import proofs.«411664_j16982300688532_2_alg».proof.Proof.Gen.KernelIdeal.Skeleton
import proofs.«411664_j16982300688532_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the output buffer: the body's one store. -/
abbrev r1_out : Rect S5000x128 := Rect.unit (s := S5000x128) ![0, 0] S5000x128.size inb_S5000x128_S5000x128_0_0

/-- The output block after the body, from the six input blocks: the one store's payload over the loaded blocks. -/
def out1_6 (x0 : Vec F S5000x128 .f32) (x1 : Vec F S5000x128 .f32) (x2 : Vec F S5000x1 .f32) (x3 : Vec F S128x128 .f32) (x4 : Vec F S128x128 .f32) (x5 : Vec F S1x128 .f32) : Vec F S5000x128 .f32 :=
  View.canon [⟨r1_out, k1_pay1 (View.ld x0 (Rect.unit (s := S5000x128) ![0, 0] S5000x128.size inb_S5000x128_S5000x128_0_0)) (View.ld x2 (Rect.unit (s := S5000x1) ![0, 0] S5000x1.size inb_S5000x1_S5000x1_0_0)) (View.ld x1 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128x128) ![0, 0] S128x128.size inb_S128x128_S128x128_0_0)) (View.ld x5 (Rect.unit (s := S1x128) ![0, 0] S1x128.size inb_S1x128_S1x128_0_0))⟩]

/-- The one store covers the buffer. -/
theorem cover1_6 (p0 : Vec F S5000x128 .f32) (y : S5000x128.Idx) :
    ∃ pc ∈ ([⟨r1_out, p0⟩] : List (View.Piece (Elt F) S5000x128 .f32)), y ∈ pc.1.set :=
  View.cover_of_tiled [⟨r1_out, p0⟩] S5000x128.size (by rfl) y

set_option maxHeartbeats 4000000 in
/-- The body on whole staging buffers, the inputs' at read contents and the output's at anything, runs to the end holding
    the inputs' as they were and the output's at out1_6 of the inputs'. -/
theorem sound_kernel1 (c : Dev nD) (i : grid1.Coords) (E : Set ℕ)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 : Vec F S5000x128 .f32) (x1 : Vec F S5000x128 .f32) (x2 : Vec F S5000x1 .f32) (x3 : Vec F S128x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__sage_transform_kernel i arg1 harg1 arg2 harg2 arg3 harg3 arg4 harg4 arg5 harg5 arg6 harg6 arg7 harg7) K := by
  simp only [cc1__sage_transform_kernel_eq_skeleton]; unfold cc1__sage_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this pipeline on core c: the arrays as the region finds them; after the body at point t each
    input's buffer at its block and the output's at out1_6 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c (grid1.coords t) Set.univ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.R2.lean ====
/-
  Region 2 of the kernel's program: the pooling and head layer, one block of 5000 node rows per grid point.
  Two buffers of the kernel's own are carried from point to point: the per-graph sums of node rows (64 by 128)
  and the per-graph node counts (64 by 1). The first point clears both; every point adds its block's
  contribution; the last point reads both and the six small operands and stores the 64 head outputs. What the two
  carried buffers hold after each point is a recursion over the points; the output block is a function of their
  final contents. All is stated at a parameter V, the buffer contents when the region is entered.
-/
import proofs.«411664_j16982300688532_2_alg».proof.Proof.Gen.KernelIdeal.Launch
import proofs.«411664_j16982300688532_2_alg».proof.Proof.Gen.KernelIdeal.Skeleton
import proofs.«411664_j16982300688532_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions and where the output window is idle -/

/-- The first conditional's condition, from the grid coordinate: the point is the first. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 10 = 0 :=
  (by decide +kernel : ∀ t : Fin grid2.N, cond2_0 (grid2.coords t) ↔ t.val % 10 = 0)
/-- The second conditional's condition: the point is the last. -/
abbrev cond2_1 (i : grid2.Coords) : Prop := k2_cond2 i = 1#1
/-- It holds at point 9 only. -/
theorem hcond2_1 : ∀ t : Fin cfg2.N, cond2_1 (grid2.coords t) ↔ t.val % 10 = 9 :=
  (by decide +kernel : ∀ t : Fin grid2.N, cond2_1 (grid2.coords t) ↔ t.val % 10 = 9)

/-- Window 0 is an input: never idle. -/
theorem liveAt2_0 : ∀ t : Fin cfg2.N, cfg2.idle 0 (grid2.coords t) = false := by decide +kernel
/-- Window 1 is an input: never idle. -/
theorem liveAt2_1 : ∀ t : Fin cfg2.N, cfg2.idle 1 (grid2.coords t) = false := by decide +kernel
/-- Window 2 is an input: never idle. -/
theorem liveAt2_2 : ∀ t : Fin cfg2.N, cfg2.idle 2 (grid2.coords t) = false := by decide +kernel
/-- Window 3 is an input: never idle. -/
theorem liveAt2_3 : ∀ t : Fin cfg2.N, cfg2.idle 3 (grid2.coords t) = false := by decide +kernel
/-- Window 4 is an input: never idle. -/
theorem liveAt2_4 : ∀ t : Fin cfg2.N, cfg2.idle 4 (grid2.coords t) = false := by decide +kernel
/-- Window 5 is an input: never idle. -/
theorem liveAt2_5 : ∀ t : Fin cfg2.N, cfg2.idle 5 (grid2.coords t) = false := by decide +kernel
/-- Window 6 is an input: never idle. -/
theorem liveAt2_6 : ∀ t : Fin cfg2.N, cfg2.idle 6 (grid2.coords t) = false := by decide +kernel
/-- Window 7 is an input: never idle. -/
theorem liveAt2_7 : ∀ t : Fin cfg2.N, cfg2.idle 7 (grid2.coords t) = false := by decide +kernel
/-- Away from the last point the output window is idle: nothing is stored into its buffer, -/
theorem idleAt2_8 : ∀ t : Fin cfg2.N, ¬cond2_1 (grid2.coords t) → cfg2.idle 8 (grid2.coords t) = true := by decide +kernel
/-- and its block is not written back. -/
theorem noFlush2_8 : ∀ t : Fin cfg2.N, ¬cond2_1 (grid2.coords t) → (cfg2.win 8).flush t = false := by decide +kernel
/-- At the last point it is live. -/
theorem liveAt2_8 : ∀ t : Fin cfg2.N, cond2_1 (grid2.coords t) → cfg2.idle 8 (grid2.coords t) = false := by decide +kernel

/-! ## What the body's stores leave -/

/-- The whole-buffer rectangles of the two carried buffers and of the output buffer. -/
abbrev r2_sum : Rect S64x128 := (Rect.unit (s := S64x128) ![0, 0] S64x128.size inb_S64x128_S64x128_0_0)
abbrev r2_cnt : Rect S64x1 := (Rect.unit (s := S64x1) ![0, 0] S64x1.size inb_S64x1_S64x1_0_0)
/-- The two carried buffers as memrefs: whole scoped buffers of the kernel's own. -/
abbrev scM2_0 : Memref sig .tc .vmem S64x128 .f32 := Memref.whole cc2_scratch0
abbrev scM2_1 : Memref sig .tc .vmem S64x1 .f32 := Memref.whole cc2_scratch1

/-- The sums buffer after the first point's clearing store. -/
def zero2_0 : Vec F S64x128 .f32 := View.canon [⟨r2_sum, k2_pay1 (F := F)⟩]
/-- The counts buffer after the first point's clearing store. -/
def zero2_1 : Vec F S64x1 .f32 := View.canon [⟨r2_cnt, k2_pay2 (F := F)⟩]
/-- The sums buffer after a point's accumulating store, from the point's two blocks and what the buffer held. -/
def step2_0 (x0 : Vec F S5000x1 .i32) (x1 : Vec F S5000x128 .f32) (s0 : Vec F S64x128 .f32) : Vec F S64x128 .f32 :=
  View.canon [⟨r2_sum, k2_pay4 (View.ld x0 (Rect.unit (s := S5000x1) ![0, 0] S5000x1.size inb_S5000x1_S5000x1_0_0)) (View.ld x1 (Rect.unit (s := S5000x128) ![0, 0] S5000x128.size inb_S5000x128_S5000x128_0_0)) (View.ld s0 r2_sum)⟩]
/-- The counts buffer after a point's accumulating store, from the point's ids block and what the buffer held. -/
def step2_1 (x0 : Vec F S5000x1 .i32) (s1 : Vec F S64x1 .f32) : Vec F S64x1 .f32 :=
  View.canon [⟨r2_cnt, k2_pay5 (View.ld x0 (Rect.unit (s := S5000x1) ![0, 0] S5000x1.size inb_S5000x1_S5000x1_0_0)) (View.ld s1 r2_cnt)⟩]
/-- The output buffer after the last point's store, from the two carried buffers and the six small operands. -/
def out2_8 (s0 : Vec F S64x128 .f32) (s1 : Vec F S64x1 .f32) (x2 : Vec F S64x32 .f32) (x3 : Vec F S32x128 .f32) (x4 : Vec F S1x128 .f32) (x5 : Vec F S128x1 .f32) (x6 : Vec F S128x1 .f32) (x7 : Vec F S1x1 .f32) : Vec F S64x1 .f32 :=
  View.canon [⟨r2_cnt, k2_pay6 (View.ld s0 r2_sum) (View.ld s1 r2_cnt) (View.ld x2 (Rect.unit (s := S64x32) ![0, 0] S64x32.size inb_S64x32_S64x32_0_0)) (View.ld x3 (Rect.unit (s := S32x128) ![0, 0] S32x128.size inb_S32x128_S32x128_0_0)) (View.ld x4 (Rect.unit (s := S1x128) ![0, 0] S1x128.size inb_S1x128_S1x128_0_0)) (View.ld x5 (Rect.unit (s := S128x1) ![0, 0] S128x1.size inb_S128x1_S128x1_0_0)) (View.ld x6 (Rect.unit (s := S128x1) ![0, 0] S128x1.size inb_S128x1_S128x1_0_0)) (View.ld x7 (Rect.unit (s := S1x1) ![0, 0] S1x1.size inb_S1x1_S1x1_0_0))⟩]

/-- What the two carried buffers hold after the body at point n: at the first point the accumulating stores over the
    cleared buffers, afterwards over what the point before left. -/
def acc2 (c : Dev nD) : (n : ℕ) → n < cfg2.N → Vec F S64x128 .f32 × Vec F S64x1 .f32
  | 0, hn => (step2_0 (iblk2 V c 0 ⟨0, hn⟩) (iblk2 V c 1 ⟨0, hn⟩) zero2_0, step2_1 (iblk2 V c 0 ⟨0, hn⟩) zero2_1)
  | n + 1, hn => (step2_0 (iblk2 V c 0 ⟨n + 1, hn⟩) (iblk2 V c 1 ⟨n + 1, hn⟩) (acc2 c n (Nat.lt_of_succ_lt hn)).1,
      step2_1 (iblk2 V c 0 ⟨n + 1, hn⟩) (acc2 c n (Nat.lt_of_succ_lt hn)).2)

/-- After the first point: the accumulating stores' payloads over the cleared buffers. -/
theorem acc2_zero (c : Dev nD) (h : 0 < cfg2.N) : acc2 V c 0 h =
    (View.canon [⟨r2_sum, k2_pay4 (View.ld (iblk2 V c 0 ⟨0, h⟩) (Rect.unit (s := S5000x1) ![0, 0] S5000x1.size inb_S5000x1_S5000x1_0_0)) (View.ld (iblk2 V c 1 ⟨0, h⟩) (Rect.unit (s := S5000x128) ![0, 0] S5000x128.size inb_S5000x128_S5000x128_0_0)) (View.ld (View.canon [⟨r2_sum, k2_pay1 (F := F)⟩]) r2_sum)⟩],
     View.canon [⟨r2_cnt, k2_pay5 (View.ld (iblk2 V c 0 ⟨0, h⟩) (Rect.unit (s := S5000x1) ![0, 0] S5000x1.size inb_S5000x1_S5000x1_0_0)) (View.ld (View.canon [⟨r2_cnt, k2_pay2 (F := F)⟩]) r2_cnt)⟩]) := rfl

/-- After a later point: the accumulating stores' payloads over what the point before left. -/
theorem acc2_succ (c : Dev nD) (n : ℕ) (h : n + 1 < cfg2.N) : acc2 V c (n + 1) h =
    (View.canon [⟨r2_sum, k2_pay4 (View.ld (iblk2 V c 0 ⟨n + 1, h⟩) (Rect.unit (s := S5000x1) ![0, 0] S5000x1.size inb_S5000x1_S5000x1_0_0)) (View.ld (iblk2 V c 1 ⟨n + 1, h⟩) (Rect.unit (s := S5000x128) ![0, 0] S5000x128.size inb_S5000x128_S5000x128_0_0)) (View.ld (acc2 V c n (Nat.lt_of_succ_lt h)).1 r2_sum)⟩],
     View.canon [⟨r2_cnt, k2_pay5 (View.ld (iblk2 V c 0 ⟨n + 1, h⟩) (Rect.unit (s := S5000x1) ![0, 0] S5000x1.size inb_S5000x1_S5000x1_0_0)) (View.ld (acc2 V c n (Nat.lt_of_succ_lt h)).2 r2_cnt)⟩]) := rfl

/-- At a point that is not the first, the recursion read at the point's own position. -/
theorem acc2_pos (c : Dev nD) (t : Fin cfg2.N) (hz : t.val ≠ 0) : acc2 V c t.val t.isLt =
    (step2_0 (iblk2 V c 0 t) (iblk2 V c 1 t) (acc2 V c (t.val - 1) (Nat.lt_of_le_of_lt (Nat.sub_le _ _) t.isLt)).1,
     step2_1 (iblk2 V c 0 t) (acc2 V c (t.val - 1) (Nat.lt_of_le_of_lt (Nat.sub_le _ _) t.isLt)).2) := by
  obtain ⟨n, hn⟩ := t
  cases n with
  | zero => exact absurd rfl hz
  | succ n => rfl

/-- At the first point. -/
theorem acc2_first (c : Dev nD) (t : Fin cfg2.N) (hz : t.val = 0) : acc2 V c t.val t.isLt =
    (step2_0 (iblk2 V c 0 t) (iblk2 V c 1 t) zero2_0, step2_1 (iblk2 V c 0 t) zero2_1) := by
  obtain ⟨n, hn⟩ := t
  cases n with
  | zero => rfl
  | succ n => exact absurd hz (Nat.succ_ne_zero n)

/-! ## The body's run, case by case -/

/-- The zero offsets of a whole-buffer rectangle of rank 2, as the constant function. -/
theorem hz2 : (![0, 0] : Fin 2 → ℕ) = fun _ => 0 := by funext a; fin_cases a <;> rfl

/-- A store through the whole-buffer rectangle, last, covers the sums buffer whatever was stored before. -/
theorem cov2_sum (w : Vec F S64x128 .f32) (L : List (View.Piece (Elt F) S64x128 .f32)) (y : S64x128.Idx) :
    ∃ pc ∈ ((⟨r2_sum, w⟩ : View.Piece (Elt F) S64x128 .f32) :: L), y ∈ pc.1.set :=
  ⟨_, List.mem_cons.mpr (Or.inl rfl), View.mem_set_unit_zero hz2 inb_S64x128_S64x128_0_0 y⟩
/-- The same of the counts buffer and of the output buffer, which has its shape. -/
theorem cov2_cnt (w : Vec F S64x1 .f32) (L : List (View.Piece (Elt F) S64x1 .f32)) (y : S64x1.Idx) :
    ∃ pc ∈ ((⟨r2_cnt, w⟩ : View.Piece (Elt F) S64x1 .f32) :: L), y ∈ pc.1.set :=
  ⟨_, List.mem_cons.mpr (Or.inl rfl), View.mem_set_unit_zero hz2 inb_S64x1_S64x1_0_0 y⟩

set_option maxHeartbeats 4000000 in
/-- At the first point: the two input buffers at read contents, the two carried buffers at anything; the body clears
    the carried buffers, then leaves them at the accumulating stores over the cleared contents. -/
theorem sound_kernel2_A (c : Dev nD) (i : grid2.Coords) (E : Set ℕ) (hc0 : cond2_0 i) (hc1 : ¬cond2_1 i)
    (arg1 : Memref sig .tc .vmem S5000x1 .i32) (harg1 : arg1.IsWhole) (arg2 : Memref sig .tc .vmem S5000x128 .f32) (harg2 : arg2.IsWhole) (arg3 : Memref sig .tc .vmem S64x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x1 .f32) (harg11 : arg11.IsWhole)
    (x0 : Vec F S5000x1 .i32) (x1 : Vec F S5000x128 .f32) (K : PUnit → sProp 𝕄) :
    iprop(owns (c : Thread nD τ) arg1 fullShare x0 ∗ owns (c : Thread nD τ) arg2 fullShare x1
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1
            ∗ owns (c : Thread nD τ) arg10 fullShare (step2_0 x0 x1 zero2_0) ∗ owns (c : Thread nD τ) arg11 fullShare (step2_1 x0 zero2_1)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11) K := by
  simp only [cc2__pool_head_kernel_eq_skeleton]; unfold cc2__pool_head_kernel_skel
  unfold owns
  iintro ⟨⟨%f0, %hf0, H0⟩, ⟨%f1, %hf1, H1⟩, ⟨%d10, %f10, -, H10⟩, ⟨%d11, %f11, -, H11⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H10]
  · iexists _; isplitr
    swap; · iexact H10
    ipureintro
    sl_unfold_run_names
    rw [View.read_writes_eq_canon _ _ _ (cov2_sum _ _)]
    unfold step2_0 zero2_0
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  · iexists _; isplitr
    swap; · iexact H11
    ipureintro
    sl_unfold_run_names
    rw [View.read_writes_eq_canon _ _ _ (cov2_cnt _ _)]
    unfold step2_1 zero2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]

set_option maxHeartbeats 4000000 in
/-- At a middle point: the carried buffers at what the point before left; the body leaves them at the accumulating
    stores over those contents. -/
theorem sound_kernel2_B (c : Dev nD) (i : grid2.Coords) (E : Set ℕ) (hc0 : ¬cond2_0 i) (hc1 : ¬cond2_1 i)
    (arg1 : Memref sig .tc .vmem S5000x1 .i32) (harg1 : arg1.IsWhole) (arg2 : Memref sig .tc .vmem S5000x128 .f32) (harg2 : arg2.IsWhole) (arg3 : Memref sig .tc .vmem S64x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x1 .f32) (harg11 : arg11.IsWhole)
    (x0 : Vec F S5000x1 .i32) (x1 : Vec F S5000x128 .f32) (xs0 : Vec F S64x128 .f32) (xs1 : Vec F S64x1 .f32) (K : PUnit → sProp 𝕄) :
    iprop(owns (c : Thread nD τ) arg1 fullShare x0 ∗ owns (c : Thread nD τ) arg2 fullShare x1
        ∗ owns (c : Thread nD τ) arg10 fullShare xs0 ∗ owns (c : Thread nD τ) arg11 fullShare xs1
        ∗ (iprop(owns (c : Thread nD τ) arg1 fullShare x0 ∗ owns (c : Thread nD τ) arg2 fullShare x1
            ∗ owns (c : Thread nD τ) arg10 fullShare (step2_0 x0 x1 xs0) ∗ owns (c : Thread nD τ) arg11 fullShare (step2_1 x0 xs1)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11) K := by
  simp only [cc2__pool_head_kernel_eq_skeleton]; unfold cc2__pool_head_kernel_skel
  unfold owns
  iintro ⟨⟨%f0, %hf0, H0⟩, ⟨%f1, %hf1, H1⟩, ⟨%f10, %hf10, H10⟩, ⟨%f11, %hf11, H11⟩, Hk⟩
  subst hf0; subst hf1; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H10]
  · iexists _; isplitr
    swap; · iexact H10
    ipureintro
    sl_unfold_run_names
    rw [View.read_writes_eq_canon _ _ _ (cov2_sum _ _)]
    unfold step2_0
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  · iexists _; isplitr
    swap; · iexact H11
    ipureintro
    sl_unfold_run_names
    rw [View.read_writes_eq_canon _ _ _ (cov2_cnt _ _)]
    unfold step2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]

set_option maxHeartbeats 4000000 in
/-- At the last point: as at a middle point, and then the body reads the carried buffers and the six small operands
    and stores the head outputs into the output buffer, found at anything. -/
theorem sound_kernel2_C (c : Dev nD) (i : grid2.Coords) (E : Set ℕ) (hc0 : ¬cond2_0 i) (hc1 : cond2_1 i)
    (arg1 : Memref sig .tc .vmem S5000x1 .i32) (harg1 : arg1.IsWhole) (arg2 : Memref sig .tc .vmem S5000x128 .f32) (harg2 : arg2.IsWhole) (arg3 : Memref sig .tc .vmem S64x32 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x1 .f32) (harg11 : arg11.IsWhole)
    (x0 : Vec F S5000x1 .i32) (x1 : Vec F S5000x128 .f32) (x2 : Vec F S64x32 .f32) (x3 : Vec F S32x128 .f32) (x4 : Vec F S1x128 .f32) (x5 : Vec F S128x1 .f32) (x6 : Vec F S128x1 .f32) (x7 : Vec F S1x1 .f32) (xs0 : Vec F S64x128 .f32) (xs1 : Vec F S64x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ owns (c : Thread nD τ) arg10 fullShare xs0 ∗ owns (c : Thread nD τ) arg11 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 (step2_0 x0 x1 xs0) (step2_1 x0 xs1) x2 x3 x4 x5 x6 x7)
            ∗ owns (c : Thread nD τ) arg10 fullShare (step2_0 x0 x1 xs0) ∗ owns (c : Thread nD τ) arg11 fullShare (step2_1 x0 xs1)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%f10, %hf10, H10⟩, ⟨%f11, %hf11, H11⟩, Hk⟩
  subst hf0; subst hf1; subst hf2; subst hf3; subst hf4; subst hf5; subst hf6; subst hf7; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H9]
  · iexists _; isplitr
    swap; · iexact H9
    ipureintro
    sl_unfold_run_names
    rw [View.read_writes_eq_canon _ _ _ (cov2_cnt _ _)]
    unfold out2_8 step2_0 step2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  isplitl [H10]
  · iexists _; isplitr
    swap; · iexact H10
    ipureintro
    sl_unfold_run_names
    rw [View.read_writes_eq_canon _ _ _ (cov2_sum _ _)]
    unfold step2_0
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]
  · iexists _; isplitr
    swap; · iexact H11
    ipureintro
    sl_unfold_run_names
    rw [View.read_writes_eq_canon _ _ _ (cov2_cnt _ _)]
    unfold step2_1
    simp only [View.readAt_eq_ld, View.canon_cons_unit_zero (S := S64x128) hz2, View.canon_unit_zero (S := S64x128) hz2, View.readCov_unit_zero (S := S64x128) _ hz2, View.ld_unit_zero (S := S64x128) hz2,
      View.canon_cons_unit_zero (S := S64x1) hz2, View.canon_unit_zero (S := S64x1) hz2, View.readCov_unit_zero (S := S64x1) _ hz2, View.ld_unit_zero (S := S64x1) hz2]

/-! ## The invariant: the carried buffers between points -/

/-- The core's scoped buffers other than this call's staging buffers and its two carried buffers, at anything:
    carried unopened from point to point. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- What the region is handed, with the two carried buffers split off as memrefs owned at anything. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA
  rw [Pipeline.scopedRest_split_of_list spec2 c [cc2_scratch0, cc2_scratch1] (by decide) (by decide)]
  simp only [scM2_0, scM2_1, owns_whole, bigSepL_cons_cons, bigSepL_singleton]
  try rfl

/-- The invariant before position n: before the first point what the region is handed; afterwards the two carried
    buffers at what the point before left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2) ∗ rest2 c) ∗ (∃ r, prngReg c r)) := by
  cases n with
  | zero => exact absurd rfl hz
  | succ n => rfl

/-! ## The pipeline's proof data -/

/-- The proof data of this pipeline on core c: the arrays as the region finds them; after the body at point t each
    input's buffer at its block and the output's at the head of what the carried buffers hold after point t (read only at
    the last point, where the block is written back); the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (acc2 V c t.val t.isLt).1 (acc2 V c t.val t.isLt).2 (iblk2 V c 2 t) (iblk2 V c 3 t) (iblk2 V c 4 t) (iblk2 V c 5 t) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (acc2 V c t.val t.isLt).1 (acc2 V c t.val t.isLt).2 (iblk2 V c 2 t) (iblk2 V c 3 t) (iblk2 V c 4 t) (iblk2 V c 5 t) (iblk2 V c 6 t) (iblk2 V c 7 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The output block at the last point: the last store's payload over the carried buffers' final contents and the six
    small operands' blocks. -/
theorem after2_8_last (c : Dev nD) : (dat2 V c).after 8 Gen.t2_9 =
    View.canon [⟨r2_cnt, k2_pay6 (View.ld (acc2 V c 9 (by rw [show cfg2.N = 10 from N_2]; decide)).1 r2_sum) (View.ld (acc2 V c 9 (by rw [show cfg2.N = 10 from N_2]; decide)).2 r2_cnt)
      (View.ld (iblk2 V c 2 Gen.t2_9) (Rect.unit (s := S64x32) ![0, 0] S64x32.size inb_S64x32_S64x32_0_0)) (View.ld (iblk2 V c 3 Gen.t2_9) (Rect.unit (s := S32x128) ![0, 0] S32x128.size inb_S32x128_S32x128_0_0)) (View.ld (iblk2 V c 4 Gen.t2_9) (Rect.unit (s := S1x128) ![0, 0] S1x128.size inb_S1x128_S1x128_0_0))
      (View.ld (iblk2 V c 5 Gen.t2_9) (Rect.unit (s := S128x1) ![0, 0] S128x1.size inb_S128x1_S128x1_0_0)) (View.ld (iblk2 V c 6 Gen.t2_9) (Rect.unit (s := S128x1) ![0, 0] S128x1.size inb_S128x1_S128x1_0_0)) (View.ld (iblk2 V c 7 Gen.t2_9) (Rect.unit (s := S1x1) ![0, 0] S1x1.size inb_S1x1_S1x1_0_0))⟩] := by
  rw [after2_8]; rfl

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' buffers hold their blocks; the closed forms say which case the point is in; the
    invariant hands the body the carried buffers at what the point before left (at anything at the first point) and takes
    them back at this point's contents; away from the last point the output buffer passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  by_cases h0 : t.val % 10 = 0
  · have h1 : ¬t.val % 10 = 9 := by omega
    have hz : t.val = 0 := by omega
    rw [Dat.leavesExact_idle (dat2 V c) 8 t (idleAt2_8 t (fun h => h1 ((hcond2_1 t).mp h))) (noFlush2_8 t (fun h => h1 ((hcond2_1 t).mp h)))]
    rw [acc2_first V c t hz]
    rw [PhiS2_castSucc V c t, PhiS2_zero V c _ _ hz, PhiA2_eq]
    iintro ⟨⟨⟨⟨⟨%ds0, HS0⟩, ⟨%ds1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c (grid2.coords t) Set.univ ((hcond2_0 t).mpr h0) (fun h => h1 ((hcond2_1 t).mp h)) _ _ _ _ _ _ _ _ _ _ _ _ _ _ _ _ _ _ _ _ _ _ (iblk2 V c 0 t) (iblk2 V c 1 t) _)
    isplitl [H0]; · iexact H0
    isplitl [H1]; · iexact H1
    isplitl [HS0]; · iexists _; iexact HS0
    isplitl [HS1]; · iexists _; iexact HS1
    iintro ⟨H0, H1, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := by omega
    by_cases h1 : t.val % 10 = 9
    · rw [show (dat2 V c).leavesExact 8 t = owns (c : Thread nD τ) (st2_8 t) fullShare ((dat2 V c).after 8 t) from by
        unfold Dat.leavesExact; rw [liveAt2_8 t ((hcond2_1 t).mpr h1)], after2_8]
      rw [acc2_pos V c t hz]
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c (grid2.coords t) Set.univ (fun h => h0 ((hcond2_0 t).mp h)) ((hcond2_1 t).mpr h1) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat2 V c) 8 t (idleAt2_8 t (fun h => h1 ((hcond2_1 t).mp h))) (noFlush2_8 t (fun h => h1 ((hcond2_1 t).mp h)))]
      rw [acc2_pos V c t hz]
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c (grid2.coords t) Set.univ (fun h => h0 ((hcond2_0 t).mp h)) (fun h => h1 ((hcond2_1 t).mp h)) _ _ _ _ _ _ _ _ _ _ _ _ _ _ _ _ _ _ _ _ _ _ (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the region was handed: the carried buffers' named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitr [Hg]
  · isplitr [HR]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Region

end Cert.KernelIdeal.Hand

end
-- ==== Proof.KI.Run.lean ====
/-
  The run of the kernel's program: its three regions among three stretches of host operations, from the launch to the
  return. The buffer contents at every boundary are a fold from the launch memory: a host stretch applies its
  operations; a region leaves its input arrays as it found them and its output array at what its write-backs
  leave. Every weakly fair execution terminates with every unscoped buffer at the last boundary's contents; from that
  follow the result's value and that the argument arrays end as launched.
-/
import proofs.«411664_j16982300688532_2_alg».proof.Proof.Gen.KernelIdeal.Launch
import proofs.«411664_j16982300688532_2_alg».proof.Proof.Gen.KernelIdeal.Skeleton
import proofs.«411664_j16982300688532_2_alg».proof.Proof.Gen.KernelIdeal.Points
import proofs.«411664_j16982300688532_2_alg».proof.Proof.KI.R0
import proofs.«411664_j16982300688532_2_alg».proof.Proof.KI.R1
import proofs.«411664_j16982300688532_2_alg».proof.Proof.KI.R2
import proofs.«411664_j16982300688532_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes its output array only: any other buffer leaves it as it entered (an input array by the
    pipeline's own account of it, a bypassing buffer untouched). -/
theorem W2_keep (c : Dev nD) (b : Ref sig .tc) (hb : b ≠ Pipeline.arrRef spec0 6) :
    W2 m ρ c (Proc.devRef .tc b) = W1 m ρ c (Proc.devRef .tc b) := by
  by_cases h : ∃ w, Pipeline.arrRef spec0 w = b
  · obtain ⟨w, rfl⟩ := h
    have hw : w ≠ 6 := fun e => hb (by rw [e])
    rw [W2_arr]
    refine ((dat0 (V1 m ρ) c).arrAt_in w ?_ _).trans (A_eq0 (V1 m ρ) c w)
    revert hw; revert w; decide
  · exact W2_of_ne m ρ c b fun w e => h ⟨w, e⟩

/-- After the host stretch before region 1. -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes its output array only: any other buffer leaves it as it entered (an input array by the
    pipeline's own account of it, a bypassing buffer untouched). -/
theorem W4_keep (c : Dev nD) (b : Ref sig .tc) (hb : b ≠ Pipeline.arrRef spec1 6) :
    W4 m ρ c (Proc.devRef .tc b) = W3 m ρ c (Proc.devRef .tc b) := by
  by_cases h : ∃ w, Pipeline.arrRef spec1 w = b
  · obtain ⟨w, rfl⟩ := h
    have hw : w ≠ 6 := fun e => hb (by rw [e])
    rw [W4_arr]
    refine ((dat1 (V3 m ρ) c).arrAt_in w ?_ _).trans (A_eq1 (V3 m ρ) c w)
    revert hw; revert w; decide
  · exact W4_of_ne m ρ c b fun w e => h ⟨w, e⟩

/-- After the host stretch before region 2. -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes its output array only: any other buffer leaves it as it entered (an input array by the
    pipeline's own account of it, a bypassing buffer untouched). -/
theorem W6_keep (c : Dev nD) (b : Ref sig .tc) (hb : b ≠ Pipeline.arrRef spec2 8) :
    W6 m ρ c (Proc.devRef .tc b) = W5 m ρ c (Proc.devRef .tc b) := by
  by_cases h : ∃ w, Pipeline.arrRef spec2 w = b
  · obtain ⟨w, rfl⟩ := h
    have hw : w ≠ 8 := fun e => hb (by rw [e])
    rw [W6_arr]
    refine ((dat2 (V5 m ρ) c).arrAt_in w ?_ _).trans (A_eq2 (V5 m ρ) c w)
    revert hw; revert w; decide
  · exact W6_of_ne m ρ c b fun w e => h ⟨w, e⟩

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at W1, left at W2. Its arrays split out of
    the unscoped buffers and put back at the exit contents; the generator register into the invariant and out; nothing
    owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays split out of
    the unscoped buffers and put back at the exit contents; the generator register into the invariant and out; nothing
    owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays split out of
    the unscoped buffers and put back at the exit contents; the generator register into the invariant and out; nothing
    owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    unfold Pipeline.ΦA
    isplitl [Hr]; · iexact Hr
    iexact Hp
  hout c := by
    rw [Pipeline.ownSems0_none, show (pdats m ρ 2 c).Φ (Fin.last _) = (dat2 (V5 m ρ) c).Φ (Fin.last cfg2.N) from rfl]
    iintro H
    ihave H' := (hout2 (V5 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Frame.lean ====
/-
  What the run's last boundary says of the buffers the claims read: an argument array is written by no host operation
  and is no region's output, so it ends as launched; the result is the last region's output array.
-/
import proofs.«411664_j16982300688532_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer that no host stretch writes and that is no region's output holds at the last boundary what it held at
    launch. -/
theorem W6_kept (c : Dev nD) (b : Ref sig .tc) (h0 : b ∉ hostOps0_W) (h1 : b ∉ hostOps1_W) (h2 : b ∉ hostOps2_W)
    (n0 : b ≠ Pipeline.arrRef spec0 6) (n1 : b ≠ Pipeline.arrRef spec1 6) (n2 : b ≠ Pipeline.arrRef spec2 8) :
    W6 m ρ c (Proc.devRef .tc b) = m ((c : Thread nD τ).loc b) :=
  (W6_keep m ρ c b n2).trans <| (StableHlo.after_of_writes_sub hostOps2 _ hostOps2_writes h2).trans <|
    (W4_keep m ρ c b n1).trans <| (StableHlo.after_of_writes_sub hostOps1 _ hostOps1_writes h1).trans <|
    (W2_keep m ρ c b n0).trans <| (StableHlo.after_of_writes_sub hostOps0 _ hostOps0_writes h0).trans rfl

/-- The run with the result named and the arguments unchanged. -/
theorem run_val : θ_run defs (onTc (τ := τ) (main (F := F))) ⟨m, fun _ => 0, ρ⟩ (fun r => ∀ c : Dev nD,
      r.2.mem ((c.tc : Thread nD τ).loc main_v37) = (dat2 (V5 m ρ) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v37 (by decide))).trans (W6_arr m ρ c 8),
      (h c _ (mem_uc main_arg0 (by decide))).trans (W6_kept m ρ c main_arg0 (by decide) (by decide) (by decide) (by decide) (by decide) (by decide)),
      (h c _ (mem_uc main_arg1 (by decide))).trans (W6_kept m ρ c main_arg1 (by decide) (by decide) (by decide) (by decide) (by decide) (by decide)),
      (h c _ (mem_uc main_arg2 (by decide))).trans (W6_kept m ρ c main_arg2 (by decide) (by decide) (by decide) (by decide) (by decide) (by decide)),
      (h c _ (mem_uc main_arg3 (by decide))).trans (W6_kept m ρ c main_arg3 (by decide) (by decide) (by decide) (by decide) (by decide) (by decide)),
      (h c _ (mem_uc main_arg4 (by decide))).trans (W6_kept m ρ c main_arg4 (by decide) (by decide) (by decide) (by decide) (by decide) (by decide)),
      (h c _ (mem_uc main_arg5 (by decide))).trans (W6_kept m ρ c main_arg5 (by decide) (by decide) (by decide) (by decide) (by decide) (by decide)),
      (h c _ (mem_uc main_arg6 (by decide))).trans (W6_kept m ρ c main_arg6 (by decide) (by decide) (by decide) (by decide) (by decide) (by decide)),
      (h c _ (mem_uc main_arg7 (by decide))).trans (W6_kept m ρ c main_arg7 (by decide) (by decide) (by decide) (by decide) (by decide) (by decide)),
      (h c _ (mem_uc main_arg8 (by decide))).trans (W6_kept m ρ c main_arg8 (by decide) (by decide) (by decide) (by decide) (by decide) (by decide)),
      (h c _ (mem_uc main_arg9 (by decide))).trans (W6_kept m ρ c main_arg9 (by decide) (by decide) (by decide) (by decide) (by decide) (by decide)),
      (h c _ (mem_uc main_arg10 (by decide))).trans (W6_kept m ρ c main_arg10 (by decide) (by decide) (by decide) (by decide) (by decide) (by decide)),
      (h c _ (mem_uc main_arg11 (by decide))).trans (W6_kept m ρ c main_arg11 (by decide) (by decide) (by decide) (by decide) (by decide) (by decide)),
      (h c _ (mem_uc main_arg12 (by decide))).trans (W6_kept m ρ c main_arg12 (by decide) (by decide) (by decide) (by decide) (by decide) (by decide)),
      (h c _ (mem_uc main_arg13 (by decide))).trans (W6_kept m ρ c main_arg13 (by decide) (by decide) (by decide) (by decide) (by decide) (by decide))⟩) (run_all m ρ)

/-- The frame: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (run_val m ρ)

end Cert.KernelIdeal.Hand

end
-- ==== Proof.KI.HostVal.lean ====
/-
  What the host stretches of the kernel's program leave in the buffers its three regions read.

  The program's own composed terms over the launch memory — the two index columns, the in-degrees and the two neighbour
  sums — are named here, spelt as the printed operations spell them. Each stretch is a fold of its operations over the
  buffer contents it starts from; read at a result buffer the fold is the operations' composed term, and a buffer no
  operation of a stretch writes, and that is no region's output array, is carried through unchanged. The reshapes and the
  slices are then read at an index.
-/
import proofs.«411664_j16982300688532_2_alg».proof.Proof.KI.Run
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable {F : FTy → Type} [FloatOps F]

/-! ## The program's composed terms over the launch memory -/

/-- The source-node column the gathers read: row 0 of the edge array, a negative entry wrapped by the node count. -/
def srcCol (m : (ℓ : Loc nD τ sig) → Buf (Elt F) ℓ) (c : Dev nD) : Buf (Elt F) ((c : Thread nD τ).loc main_v13) :=
  broadcastInDim S800000x1 ![0] bcast_S800000_S800000x1_0 (select (cmpi .slt (shapeCast _ (extractStridedSlice S1x800000 ![0, 0] (m ((c : Thread nD τ).loc main_arg1)) slices_S2x800000_S1x800000_0_0) shapeCasts_S1x800000_S800000) (broadcastInDim S800000 ![] bcast_S_S800000 (constantI S_ 32 0#32))) (addi (shapeCast _ (extractStridedSlice S1x800000 ![0, 0] (m ((c : Thread nD τ).loc main_arg1)) slices_S2x800000_S1x800000_0_0) shapeCasts_S1x800000_S800000) (broadcastInDim S800000 ![] bcast_S_S800000 (constantI S_ 32 50000#32))) (shapeCast _ (extractStridedSlice S1x800000 ![0, 0] (m ((c : Thread nD τ).loc main_arg1)) slices_S2x800000_S1x800000_0_0) shapeCasts_S1x800000_S800000))

/-- The target-node column the segment sums read: row 1 of the edge array. -/
def dstCol (m : (ℓ : Loc nD τ sig) → Buf (Elt F) ℓ) (c : Dev nD) : Buf (Elt F) ((c : Thread nD τ).loc main_v6) :=
  broadcastInDim S800000x1 ![0] bcast_S800000_S800000x1_0 (shapeCast _ (extractStridedSlice S1x800000 ![1, 0] (m ((c : Thread nD τ).loc main_arg1)) slices_S2x800000_S1x800000_1_0) shapeCasts_S1x800000_S800000)

/-- The in-degrees: the segment sum of ones over the target nodes. -/
def degK (m : (ℓ : Loc nD τ sig) → Buf (Elt F) ℓ) (c : Dev nD) : Buf (Elt F) ((c : Thread nD τ).loc main_v7) :=
  Host.scatterAdd scatter_S50000x1_S800000x1_S800000x1_1_0_0_1 (broadcastInDim S50000x1 ![] bcast_S_S50000x1 (constant S_ .f32 0x00000000#32)) (dstCol m c) (broadcastInDim S800000x1 ![] bcast_S_S800000x1 (constant S_ .f32 0x3F800000#32))

/-- The first neighbour sums: the segment sum over the target nodes of the source nodes' feature rows. -/
def ssum0K (m : (ℓ : Loc nD τ sig) → Buf (Elt F) ℓ) (c : Dev nD) : Buf (Elt F) ((c : Thread nD τ).loc main_v17) :=
  Host.scatterAdd scatter_S50000x96_S800000x1_S800000x96_1_0_0_1 (broadcastInDim S50000x96 ![] bcast_S_S50000x96 (constant S_ .f32 0x00000000#32)) (dstCol m c) (Host.gather gather_S50000x96_S800000x1_S800000x96_1_0_n_n_0_1_196 (m ((c : Thread nD τ).loc main_arg0)) (srcCol m c))

/-- The second neighbour sums of a node array h: the segment sum over the target nodes of the source nodes' rows of h. -/
def ssum1K (h : (⟨S50000x128, .f32⟩ : BufTy).Contents (Elt F)) (m : (ℓ : Loc nD τ sig) → Buf (Elt F) ℓ) (c : Dev nD) : Buf (Elt F) ((c : Thread nD τ).loc main_v29) :=
  Host.scatterAdd scatter_S50000x128_S800000x1_S800000x128_1_0_0_1 (broadcastInDim S50000x128 ![] bcast_S_S50000x128 (constant S_ .f32 0x00000000#32)) (dstCol m c) (Host.gather gather_S50000x128_S800000x1_S800000x128_1_0_n_n_0_1_1128 h (srcCol m c))

/-! ## Each stretch as a fold over any starting contents -/

section Stretch
variable (W : Valuation τ sig (Elt F))

/-- Row 0 of the edge array, flattened. -/
theorem after0_v1 : StableHlo.after hostOps0 W (Proc.devRef .tc main_v1)
    = shapeCast _ (extractStridedSlice S1x800000 ![0, 0] (W (Proc.devRef .tc main_arg1)) slices_S2x800000_S1x800000_0_0) shapeCasts_S1x800000_S800000 := by
  after_results; rfl

/-- Row 1 of the edge array, flattened. -/
theorem after0_v3 : StableHlo.after hostOps0 W (Proc.devRef .tc main_v3)
    = shapeCast _ (extractStridedSlice S1x800000 ![1, 0] (W (Proc.devRef .tc main_arg1)) slices_S2x800000_S1x800000_1_0) shapeCasts_S1x800000_S800000 := by
  after_results; rfl

/-- The second stretch's neighbour sums, over the flattened edge rows and the node array it finds. -/
theorem after1_v29 : StableHlo.after hostOps1 W (Proc.devRef .tc main_v29)
    = Host.scatterAdd scatter_S50000x128_S800000x1_S800000x128_1_0_0_1 (broadcastInDim S50000x128 ![] bcast_S_S50000x128 (constant S_ .f32 0x00000000#32)) (broadcastInDim S800000x1 ![0] bcast_S800000_S800000x1_0 (W (Proc.devRef .tc main_v3))) (Host.gather gather_S50000x128_S800000x1_S800000x128_1_0_n_n_0_1_1128 (W (Proc.devRef .tc main_v19)) (broadcastInDim S800000x1 ![0] bcast_S800000_S800000x1_0 (select (cmpi .slt (W (Proc.devRef .tc main_v1)) (broadcastInDim S800000 ![] bcast_S_S800000 (constantI S_ 32 0#32))) (addi (W (Proc.devRef .tc main_v1)) (broadcastInDim S800000 ![] bcast_S_S800000 (constantI S_ 32 50000#32))) (W (Proc.devRef .tc main_v1))))) := by
  after_results

end Stretch

variable (m : (ℓ : Loc nD τ sig) → Buf (Elt F) ℓ) (ρ : Dev nD → PrngReg) (c : Dev nD)

/-! ## Buffers carried through unchanged -/

/-- A buffer the first stretch does not write holds at region 0's entry what it held at launch. -/
theorem V1_kept (b : Ref sig .tc) (h0 : b ∉ hostOps0_W) : V1 m ρ c b = m ((c : Thread nD τ).loc b) :=
  (StableHlo.after_of_writes_sub hostOps0 _ hostOps0_writes h0).trans rfl

/-- A buffer the first two stretches do not write and that is not region 0's output holds at region 1's entry what it
    held at launch. -/
theorem V3_kept (b : Ref sig .tc) (h0 : b ∉ hostOps0_W) (h1 : b ∉ hostOps1_W) (n0 : b ≠ Pipeline.arrRef spec0 6) :
    V3 m ρ c b = m ((c : Thread nD τ).loc b) :=
  (StableHlo.after_of_writes_sub hostOps1 _ hostOps1_writes h1).trans <| (W2_keep m ρ c b n0).trans <| V1_kept m ρ c b h0

/-- A buffer no stretch writes and that is neither region 0's nor region 1's output holds at region 2's entry what it
    held at launch. -/
theorem V5_kept (b : Ref sig .tc) (h0 : b ∉ hostOps0_W) (h1 : b ∉ hostOps1_W) (h2 : b ∉ hostOps2_W)
    (n0 : b ≠ Pipeline.arrRef spec0 6) (n1 : b ≠ Pipeline.arrRef spec1 6) : V5 m ρ c b = m ((c : Thread nD τ).loc b) :=
  (StableHlo.after_of_writes_sub hostOps2 _ hostOps2_writes h2).trans <| (W4_keep m ρ c b n1).trans <| V3_kept m ρ c b h0 h1 n0

/-! ## (a) Region 0's entry -/

theorem V1_main_v17 : V1 m ρ c main_v17 = ssum0K m c := by
  show StableHlo.after hostOps0 (W0 m ρ c) (Proc.devRef .tc main_v17) = _
  after_results; rfl

theorem V1_main_v7 : V1 m ρ c main_v7 = degK m c := by
  show StableHlo.after hostOps0 (W0 m ρ c) (Proc.devRef .tc main_v7) = _
  after_results; rfl

theorem V1_main_v18 : V1 m ρ c main_v18 = shapeCast _ (m ((c : Thread nD τ).loc main_arg6)) shapeCasts_S128_S1x128 := by
  show StableHlo.after hostOps0 (W0 m ρ c) (Proc.devRef .tc main_v18) = _
  after_results; rfl

theorem V1_main_arg0 : V1 m ρ c main_arg0 = m ((c : Thread nD τ).loc main_arg0) := V1_kept m ρ c main_arg0 (by decide)
theorem V1_main_arg4 : V1 m ρ c main_arg4 = m ((c : Thread nD τ).loc main_arg4) := V1_kept m ρ c main_arg4 (by decide)
theorem V1_main_arg5 : V1 m ρ c main_arg5 = m ((c : Thread nD τ).loc main_arg5) := V1_kept m ρ c main_arg5 (by decide)

/-! ## (b) Region 1's entry -/

theorem V3_main_v29 : V3 m ρ c main_v29 = ssum1K (W2 m ρ c (Proc.devRef .tc main_v19)) m c := by
  show StableHlo.after hostOps1 (W2 m ρ c) (Proc.devRef .tc main_v29) = _
  rw [after1_v29, W2_keep m ρ c main_v1 (by decide), W2_keep m ρ c main_v3 (by decide)]
  show Host.scatterAdd _ _ (broadcastInDim _ _ _ (StableHlo.after hostOps0 (W0 m ρ c) (Proc.devRef .tc main_v3)))
    (Host.gather _ _ (broadcastInDim _ _ _ (select (cmpi .slt (StableHlo.after hostOps0 (W0 m ρ c) (Proc.devRef .tc main_v1)) _)
      (addi (StableHlo.after hostOps0 (W0 m ρ c) (Proc.devRef .tc main_v1)) _) (StableHlo.after hostOps0 (W0 m ρ c) (Proc.devRef .tc main_v1))))) = _
  rw [after0_v1, after0_v3]
  rfl

theorem V3_main_v19 : V3 m ρ c main_v19 = W2 m ρ c (Proc.devRef .tc main_v19) :=
  StableHlo.after_of_writes_sub hostOps1 _ hostOps1_writes (by decide)

theorem V3_main_v7 : V3 m ρ c main_v7 = degK m c :=
  (StableHlo.after_of_writes_sub hostOps1 _ hostOps1_writes (by decide)).trans <|
    (W2_keep m ρ c main_v7 (by decide)).trans <| V1_main_v7 m ρ c

theorem V3_main_v30 : V3 m ρ c main_v30 = shapeCast _ (m ((c : Thread nD τ).loc main_arg9)) shapeCasts_S128_S1x128 := by
  show StableHlo.after hostOps1 (W2 m ρ c) (Proc.devRef .tc main_v30) = _
  after_results
  rw [W2_keep m ρ c main_arg9 (by decide)]
  show (fun i => shapeCast _ (V1 m ρ c main_arg9) _ i) = _
  rw [V1_kept m ρ c main_arg9 (by decide)]
  rfl

theorem V3_main_arg7 : V3 m ρ c main_arg7 = m ((c : Thread nD τ).loc main_arg7) :=
  V3_kept m ρ c main_arg7 (by decide) (by decide) (by decide)
theorem V3_main_arg8 : V3 m ρ c main_arg8 = m ((c : Thread nD τ).loc main_arg8) :=
  V3_kept m ρ c main_arg8 (by decide) (by decide) (by decide)

/-! ## (c) Region 2's entry -/

theorem V5_main_v31 : V5 m ρ c main_v31 = W4 m ρ c (Proc.devRef .tc main_v31) :=
  StableHlo.after_of_writes_sub hostOps2 _ hostOps2_writes (by decide)

/-- A buffer the first two stretches do not write and that is no output of regions 0 and 1 holds at region 1's exit
    what it held at launch. -/
theorem W4_kept (b : Ref sig .tc) (h0 : b ∉ hostOps0_W) (h1 : b ∉ hostOps1_W)
    (n0 : b ≠ Pipeline.arrRef spec0 6) (n1 : b ≠ Pipeline.arrRef spec1 6) :
    W4 m ρ c (Proc.devRef .tc b) = m ((c : Thread nD τ).loc b) :=
  (W4_keep m ρ c b n1).trans <| V3_kept m ρ c b h0 h1 n0

theorem V5_main_v32 : V5 m ρ c main_v32 = shapeCast _ (m ((c : Thread nD τ).loc main_arg3)) shapeCasts_S50000_S50000x1 := by
  show StableHlo.after hostOps2 (W4 m ρ c) (Proc.devRef .tc main_v32) = _
  after_results
  rw [W4_kept m ρ c main_arg3 (by decide) (by decide) (by decide) (by decide)]
  rfl

theorem V5_main_v33 : V5 m ρ c main_v33 = extractStridedSlice S128x1 ![0, 0] (m ((c : Thread nD τ).loc main_arg12)) slices_S256x1_S128x1_0_0 := by
  show StableHlo.after hostOps2 (W4 m ρ c) (Proc.devRef .tc main_v33) = _
  after_results
  rw [W4_kept m ρ c main_arg12 (by decide) (by decide) (by decide) (by decide)]

theorem V5_main_v34 : V5 m ρ c main_v34 = extractStridedSlice S128x1 ![128, 0] (m ((c : Thread nD τ).loc main_arg12)) slices_S256x1_S128x1_128_0 := by
  show StableHlo.after hostOps2 (W4 m ρ c) (Proc.devRef .tc main_v34) = _
  after_results
  rw [W4_kept m ρ c main_arg12 (by decide) (by decide) (by decide) (by decide)]

theorem V5_main_v35 : V5 m ρ c main_v35 = shapeCast _ (m ((c : Thread nD τ).loc main_arg11)) shapeCasts_S128_S1x128 := by
  show StableHlo.after hostOps2 (W4 m ρ c) (Proc.devRef .tc main_v35) = _
  after_results
  rw [W4_kept m ρ c main_arg11 (by decide) (by decide) (by decide) (by decide)]
  rfl

theorem V5_main_v36 : V5 m ρ c main_v36 = shapeCast _ (m ((c : Thread nD τ).loc main_arg13)) shapeCasts_S1_S1x1 := by
  show StableHlo.after hostOps2 (W4 m ρ c) (Proc.devRef .tc main_v36) = _
  after_results
  rw [W4_kept m ρ c main_arg13 (by decide) (by decide) (by decide) (by decide)]
  rfl

theorem V5_main_arg2 : V5 m ρ c main_arg2 = m ((c : Thread nD τ).loc main_arg2) :=
  V5_kept m ρ c main_arg2 (by decide) (by decide) (by decide) (by decide) (by decide)
theorem V5_main_arg10 : V5 m ρ c main_arg10 = m ((c : Thread nD τ).loc main_arg10) :=
  V5_kept m ρ c main_arg10 (by decide) (by decide) (by decide) (by decide) (by decide)

/-! ## (d) The reshapes and the slices read at an index -/

/-- A vector stored as a one-column matrix reads, at row i, its entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem V1_main_v18_at (u : Fin 1) (j : Fin 128) :
    V1 m ρ c main_v18 (ix2 u j) = m ((c : Thread nD τ).loc main_arg6) (ix1 j) :=
  (congrFun (V1_main_v18 m ρ c) (ix2 u j)).trans (shapeCast_a_1a_apply (a := 128) _ shapeCasts_S128_S1x128 u j)

theorem V3_main_v30_at (u : Fin 1) (j : Fin 128) :
    V3 m ρ c main_v30 (ix2 u j) = m ((c : Thread nD τ).loc main_arg9) (ix1 j) :=
  (congrFun (V3_main_v30 m ρ c) (ix2 u j)).trans (shapeCast_a_1a_apply (a := 128) _ shapeCasts_S128_S1x128 u j)

theorem V5_main_v35_at (u : Fin 1) (j : Fin 128) :
    V5 m ρ c main_v35 (ix2 u j) = m ((c : Thread nD τ).loc main_arg11) (ix1 j) :=
  (congrFun (V5_main_v35 m ρ c) (ix2 u j)).trans (shapeCast_a_1a_apply (a := 128) _ shapeCasts_S128_S1x128 u j)

theorem V5_main_v36_at (u : Fin 1) (j : Fin 1) :
    V5 m ρ c main_v36 (ix2 u j) = m ((c : Thread nD τ).loc main_arg13) (ix1 j) :=
  (congrFun (V5_main_v36 m ρ c) (ix2 u j)).trans (shapeCast_a_1a_apply (a := 1) _ shapeCasts_S1_S1x1 u j)

theorem V5_main_v32_at (n : Fin 50000) (u : Fin 1) :
    V5 m ρ c main_v32 (ix2 n u) = m ((c : Thread nD τ).loc main_arg3) (ix1 n) :=
  (congrFun (V5_main_v32 m ρ c) (ix2 n u)).trans (shapeCast_a_a1_apply (a := 50000) _ shapeCasts_S50000_S50000x1 n u)

/-- The top half of the head weights. -/
theorem V5_main_v33_at (k : Fin 128) (u : Fin 1) :
    V5 m ρ c main_v33 (ix2 k u) = m ((c : Thread nD τ).loc main_arg12) (ix2 (Fin.castAdd 128 k) u) :=
  (congrFun (V5_main_v33 m ρ c) (ix2 k u)).trans
    (slice2_axis0_apply (n0 := 256) (n1 := 1) (m := 128) 0 _ slices_S256x1_S128x1_0_0 k u (Fin.castAdd 128 k) (Nat.zero_add _).symm)

/-- The bottom half of the head weights. -/
theorem V5_main_v34_at (k : Fin 128) (u : Fin 1) :
    V5 m ρ c main_v34 (ix2 k u) = m ((c : Thread nD τ).loc main_arg12) (ix2 (Fin.natAdd 128 k) u) :=
  (congrFun (V5_main_v34 m ρ c) (ix2 k u)).trans
    (slice2_axis0_apply (n0 := 256) (n1 := 1) (m := 128) 128 _ slices_S256x1_S128x1_128_0 k u (Fin.natAdd 128 k) rfl)

/-- The first layer's bias as the rank-1 array the specification takes. -/
theorem V1_main_v18_fun :
    (fun i : (⟨1, ![128]⟩ : Shape).Idx => V1 m ρ c main_v18 (ix2 0 (i 0))) = m ((c : Thread nD τ).loc main_arg6) :=
  funext fun i => (V1_main_v18_at m ρ c 0 (i 0)).trans (congrArg _ (eq_ix1 i).symm)

/-- The second layer's bias as the rank-1 array the specification takes. -/
theorem V3_main_v30_fun :
    (fun i : (⟨1, ![128]⟩ : Shape).Idx => V3 m ρ c main_v30 (ix2 0 (i 0))) = m ((c : Thread nD τ).loc main_arg9) :=
  funext fun i => (V3_main_v30_at m ρ c 0 (i 0)).trans (congrArg _ (eq_ix1 i).symm)

/-- The feature branch's bias as the rank-1 array the specification takes. -/
theorem V5_main_v35_fun :
    (fun i : (⟨1, ![128]⟩ : Shape).Idx => V5 m ρ c main_v35 (ix2 0 (i 0))) = m ((c : Thread nD τ).loc main_arg11) :=
  funext fun i => (V5_main_v35_at m ρ c 0 (i 0)).trans (congrArg _ (eq_ix1 i).symm)

/-- The head's bias as the rank-1 array the specification takes. -/
theorem V5_main_v36_fun :
    (fun i : (⟨1, ![1]⟩ : Shape).Idx => V5 m ρ c main_v36 (ix2 0 (i 0))) = m ((c : Thread nD τ).loc main_arg13) :=
  funext fun i => (V5_main_v36_at m ρ c 0 (i 0)).trans (congrArg _ (eq_ix1 i).symm)

/-- The graph numbers as the rank-1 array of words the specification takes. -/
theorem V5_main_v32_fun :
    (fun i : (⟨1, ![50000]⟩ : Shape).Idx => V5 m ρ c main_v32 (ix2 (i 0) 0)) = m ((c : Thread nD τ).loc main_arg3) :=
  funext fun i => (V5_main_v32_at m ρ c (i 0) 0).trans (congrArg _ (eq_ix1 i).symm)

end Cert.KernelIdeal.Val

end
-- ==== Proof.Spec.lean ====
/-
  The mathematics both programs compute, entry by entry, on the extended reals.

  A graph of 50000 nodes and 800000 directed edges; two rounds of mean aggregation over incoming edges, each followed by
  an affine map, a row normalisation by the Euclidean norm (floored at a small constant) and, after the first round only,
  a clamp at zero; then a mean over the nodes of each of 64 graphs, a second affine branch on per-graph features, and
  a linear head over the two branches side by side.
-/
import Idealize.ShloMosaic.PureOps.Ideal
import Idealize.ShloMosaic.Lib.ValueIdx
import Idealize.ShloMosaic.Lib.ValueIdxRank1

noncomputable section

open scoped BigOperators

namespace Cert.Spec

open Idealize.ShloMosaic Idealize.ShloMosaic.ValueIdx

/-- The number one, the norm's floor (the float nearest to 1e-12) and zero, as the binary words both programs carry. -/
abbrev one : EReal := Ideal.ofBits .f32 0x3F800000#32
abbrev floor : EReal := Ideal.ofBits .f32 0x2B8CBCCC#32
abbrev zero : EReal := Ideal.ofBits .f32 0x00000000#32

/-- Entry (r, j) of a node layer before normalisation: the neighbour sum of row r divided by the in-degree (at least
    one) through the left weights, plus the node's own row through the right weights, plus the bias. -/
def pre (d : ℕ) (ssum root : (⟨2, ![50000, d]⟩ : Shape).Idx → EReal) (deg : (⟨2, ![50000, 1]⟩ : Shape).Idx → EReal)
    (wl wr : (⟨2, ![d, 128]⟩ : Shape).Idx → EReal) (b : (⟨1, ![128]⟩ : Shape).Idx → EReal) (r : Fin 50000) (j : Fin 128) : EReal :=
  ((∑ k : Fin d, Ideal.div (ssum (ix2 r k)) (max (deg (ix2 r 0)) one) * wl (ix2 k j))
    + ∑ k : Fin d, root (ix2 r k) * wr (ix2 k j)) + b (ix1 j)

/-- The Euclidean norm of row r of that layer. -/
def rowNorm (d : ℕ) (ssum root : (⟨2, ![50000, d]⟩ : Shape).Idx → EReal) (deg : (⟨2, ![50000, 1]⟩ : Shape).Idx → EReal)
    (wl wr : (⟨2, ![d, 128]⟩ : Shape).Idx → EReal) (b : (⟨1, ![128]⟩ : Shape).Idx → EReal) (r : Fin 50000) : EReal :=
  Ideal.sqrt (∑ j : Fin 128, pre d ssum root deg wl wr b r j * pre d ssum root deg wl wr b r j)

/-- Entry (r, j) of the normalised layer: the pre-activation over the row norm floored at the small constant. -/
def normed (d : ℕ) (ssum root : (⟨2, ![50000, d]⟩ : Shape).Idx → EReal) (deg : (⟨2, ![50000, 1]⟩ : Shape).Idx → EReal)
    (wl wr : (⟨2, ![d, 128]⟩ : Shape).Idx → EReal) (b : (⟨1, ![128]⟩ : Shape).Idx → EReal) (r : Fin 50000) (j : Fin 128) : EReal :=
  Ideal.div (pre d ssum root deg wl wr b r j) (max (rowNorm d ssum root deg wl wr b r) floor)

/-- The first layer (96 input features): normalised, then clamped at zero. -/
def layer0 (ssum root : (⟨2, ![50000, 96]⟩ : Shape).Idx → EReal) (deg : (⟨2, ![50000, 1]⟩ : Shape).Idx → EReal)
    (wl wr : (⟨2, ![96, 128]⟩ : Shape).Idx → EReal) (b : (⟨1, ![128]⟩ : Shape).Idx → EReal) :
    (⟨2, ![50000, 128]⟩ : Shape).Idx → EReal :=
  fun i => max (normed 96 ssum root deg wl wr b (i 0) (i 1)) zero

/-- The second layer (128 input features): normalised only. -/
def layer1 (ssum root : (⟨2, ![50000, 128]⟩ : Shape).Idx → EReal) (deg : (⟨2, ![50000, 1]⟩ : Shape).Idx → EReal)
    (wl wr : (⟨2, ![128, 128]⟩ : Shape).Idx → EReal) (b : (⟨1, ![128]⟩ : Shape).Idx → EReal) :
    (⟨2, ![50000, 128]⟩ : Shape).Idx → EReal :=
  fun i => normed 128 ssum root deg wl wr b (i 0) (i 1)

/-- Column k of the sum of the rows of h whose graph number (the word read signed) is g. -/
def graphSum {w : ℕ} (batch : (⟨1, ![50000]⟩ : Shape).Idx → BitVec w) (h : (⟨2, ![50000, 128]⟩ : Shape).Idx → EReal)
    (g : Fin 64) (k : Fin 128) : EReal :=
  ∑ n : Fin 50000, if (batch (ix1 n)).toInt = (g.val : ℤ) then h (ix2 n k) else 0

/-- The number of nodes of graph g. -/
def graphCount {w : ℕ} (batch : (⟨1, ![50000]⟩ : Shape).Idx → BitVec w) (g : Fin 64) : EReal :=
  ∑ n : Fin 50000, if (batch (ix1 n)).toInt = (g.val : ℤ) then one else 0

/-- The mean row of graph g (the count floored at one). -/
def graphMean {w : ℕ} (batch : (⟨1, ![50000]⟩ : Shape).Idx → BitVec w) (h : (⟨2, ![50000, 128]⟩ : Shape).Idx → EReal)
    (g : Fin 64) (k : Fin 128) : EReal :=
  Ideal.div (graphSum batch h g k) (max (graphCount batch g) one)

/-- The per-graph feature branch: an affine map of the 32 features, clamped at zero. -/
def globalEmb (u : (⟨2, ![64, 32]⟩ : Shape).Idx → EReal) (wg : (⟨2, ![32, 128]⟩ : Shape).Idx → EReal)
    (bg : (⟨1, ![128]⟩ : Shape).Idx → EReal) (g : Fin 64) (k : Fin 128) : EReal :=
  max ((∑ q : Fin 32, u (ix2 g q) * wg (ix2 q k)) + bg (ix1 k)) zero

/-- The head: the mean row through the top 128 rows of the head weights, the feature branch through the bottom 128,
    plus the bias. -/
def head {w : ℕ} (batch : (⟨1, ![50000]⟩ : Shape).Idx → BitVec w) (h : (⟨2, ![50000, 128]⟩ : Shape).Idx → EReal)
    (u : (⟨2, ![64, 32]⟩ : Shape).Idx → EReal) (wg : (⟨2, ![32, 128]⟩ : Shape).Idx → EReal)
    (bg : (⟨1, ![128]⟩ : Shape).Idx → EReal) (wh : (⟨2, ![256, 1]⟩ : Shape).Idx → EReal)
    (bh : (⟨1, ![1]⟩ : Shape).Idx → EReal) : (⟨2, ![64, 1]⟩ : Shape).Idx → EReal :=
  fun i => ((∑ k : Fin 128, graphMean batch h (i 0) k * wh (ix2 (Fin.castAdd 128 k) 0))
    + ∑ k : Fin 128, globalEmb u wg bg (i 0) k * wh (ix2 (Fin.natAdd 128 k) 0)) + bh (ix1 0)

end Cert.Spec

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.KI.Pay0.lean ====
/-
  The first node layer's body, entry by entry. What the body stores in its output block is, at row y and lane j, the
  pre-activation of that row over the row's Euclidean norm (floored at the small constant), clamped at zero; the
  pre-activation is the row of neighbour sums over the in-degree (at least one) through the left weights, plus the
  node's own row through the right weights, plus the bias.
-/
import proofs.«411664_j16982300688532_2_alg».proof.Proof.Gen.KernelIdeal.Skeleton
import proofs.«411664_j16982300688532_2_alg».proof.Proof.Spec
import proofs.«411664_j16982300688532_2_alg».proof.Proof.LibMatProd
import Idealize.ShloMosaic.PureOps.Ideal.Laws
import Idealize.ShloMosaic.Lib.ValueIdx
import Idealize.ShloMosaic.Lib.ValueLayout

noncomputable section

open scoped BigOperators

namespace Cert.KernelIdeal.Val

open Idealize.ShloMosaic Idealize.ShloMosaic.ValueIdx Cert.KernelIdeal

section Layout
variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum over the lanes of an `[a, b]` vector, at row `r`. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src (funext fun ax => ?_)
  match ax with
  | ⟨0, _⟩ => exact Fin.ext rfl
  | ⟨1, _⟩ => exact Fin.ext rfl

/-- The square root of a vector, at an index. -/
theorem sqrt_apply {s : Shape} {φ : FTy} (a : FVec Ideal s φ) (i : s.Idx) : sqrt a i = Ideal.sqrt (a i) := rfl

/-- The pre-activation of the 96-feature layer at row y and lane j, from the block's six operands. -/
def pre0 (x0 x9 : Vec Ideal S5000x96 .f32) (x2 : Vec Ideal S5000x1 .f32) (x11 x13 : Vec Ideal S96x128 .f32)
    (x18 : Vec Ideal S1x128 .f32) (y : Fin 5000) (j : Fin 128) : EReal :=
  ((∑ k : Fin 96, Ideal.div (x0 (ix2 y k)) (max (x2 (ix2 y 0)) Cert.Spec.one) * x11 (ix2 k j))
    + ∑ k : Fin 96, x9 (ix2 y k) * x13 (ix2 k j)) + x18 (ix2 0 j)

/-- The body's stored value at row y and lane j. -/
theorem k0_pay1_apply (x0 x9 : Vec Ideal S5000x96 .f32) (x2 : Vec Ideal S5000x1 .f32) (x11 x13 : Vec Ideal S96x128 .f32)
    (x18 : Vec Ideal S1x128 .f32) (y : Fin 5000) (j : Fin 128) :
    Gen.k0_pay1 (F := Ideal) x0 x2 x9 x11 x13 x18 (ix2 y j)
      = max (Ideal.div (pre0 x0 x9 x2 x11 x13 x18 y j)
          (max (Ideal.sqrt (∑ j' : Fin 128, pre0 x0 x9 x2 x11 x13 x18 y j' * pre0 x0 x9 x2 x11 x13 x18 y j')) Cert.Spec.floor))
        Cert.Spec.zero := by
  unfold Gen.k0_pay1 pre0
  simp only [maximumf_apply, divf_apply, broadcast_apply, addf_apply, mulf_apply, truncf_apply, sqrt_apply,
    shapeCast_self, broadcastTo_a1_ab_apply, broadcastTo_1b_ab_apply, shapeCast_a_a1_apply, laneSum_apply,
    Cert.LibMatProd.matmul_zero_apply dot_S5000x96_S96x128_S5000x128_1_0_0_1_n_n rfl]
  rw [laneSum_apply]
  simp only [maximumf_apply, divf_apply, broadcast_apply, addf_apply, mulf_apply, truncf_apply,
    shapeCast_self, broadcastTo_a1_ab_apply, broadcastTo_1b_ab_apply,
    Cert.LibMatProd.matmul_zero_apply dot_S5000x96_S96x128_S5000x128_1_0_0_1_n_n rfl]
  rfl

end Cert.KernelIdeal.Val

end
-- ==== Proof.KI.Val0.lean ====
/-
  The first node layer's result array. Each grid point's output block is rows 5000 t … 5000 t + 4999 of one function of
  the arrays the region finds: the layer of the specification, read off the body's entry-by-entry value and the input
  blocks' places in their arrays; the ten blocks cover the 50000 rows.
-/
import proofs.«411664_j16982300688532_2_alg».proof.Proof.KI.R0
import proofs.«411664_j16982300688532_2_alg».proof.Proof.KI.Pay0
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's value over any six blocks that are rows of six arrays -/

/-- The pre-activation over blocks that hold row r of the row arrays and the whole of the weights and the bias is the
    specification's at row r. -/
theorem pre0_of_rows (x0 x9 : Vec Ideal S5000x96 .f32) (x2 : Vec Ideal S5000x1 .f32) (x11 x13 : Vec Ideal S96x128 .f32)
    (x18 : Vec Ideal S1x128 .f32)
    (A0 A1 : S50000x96.Idx → EReal) (A2 : S50000x1.Idx → EReal) (A3 A4 : S96x128.Idx → EReal) (A5 : S1x128.Idx → EReal)
    (p : Fin 5000) (r : Fin 50000)
    (h0 : ∀ k : Fin 96, x0 (ix2 p k) = A0 (ix2 r k)) (h1 : ∀ k : Fin 96, x9 (ix2 p k) = A1 (ix2 r k))
    (h2 : x2 (ix2 p 0) = A2 (ix2 r 0))
    (h3 : ∀ (k : Fin 96) (q : Fin 128), x11 (ix2 k q) = A3 (ix2 k q)) (h4 : ∀ (k : Fin 96) (q : Fin 128), x13 (ix2 k q) = A4 (ix2 k q))
    (h5 : ∀ q : Fin 128, x18 (ix2 0 q) = A5 (ix2 0 q)) (q : Fin 128) :
    pre0 x0 x9 x2 x11 x13 x18 p q = Cert.Spec.pre 96 A0 A1 A2 A3 A4 (fun i => A5 (ix2 0 (i 0))) r q := by
  unfold pre0 Cert.Spec.pre
  simp only [h0, h1, h2, h3, h4, h5]

/-- So the stored value at (p, q) is the specification's layer at (r, q). -/
theorem stored0_of_rows (x0 x9 : Vec Ideal S5000x96 .f32) (x2 : Vec Ideal S5000x1 .f32) (x11 x13 : Vec Ideal S96x128 .f32)
    (x18 : Vec Ideal S1x128 .f32)
    (A0 A1 : S50000x96.Idx → EReal) (A2 : S50000x1.Idx → EReal) (A3 A4 : S96x128.Idx → EReal) (A5 : S1x128.Idx → EReal)
    (p : Fin 5000) (r : Fin 50000)
    (h0 : ∀ k : Fin 96, x0 (ix2 p k) = A0 (ix2 r k)) (h1 : ∀ k : Fin 96, x9 (ix2 p k) = A1 (ix2 r k))
    (h2 : x2 (ix2 p 0) = A2 (ix2 r 0))
    (h3 : ∀ (k : Fin 96) (q : Fin 128), x11 (ix2 k q) = A3 (ix2 k q)) (h4 : ∀ (k : Fin 96) (q : Fin 128), x13 (ix2 k q) = A4 (ix2 k q))
    (h5 : ∀ q : Fin 128, x18 (ix2 0 q) = A5 (ix2 0 q)) (q : Fin 128) :
    Gen.k0_pay1 (F := Ideal) x0 x2 x9 x11 x13 x18 (ix2 p q)
      = Cert.Spec.layer0 A0 A1 A2 A3 A4 (fun i => A5 (ix2 0 (i 0))) (ix2 r q) := by
  rw [k0_pay1_apply]
  simp only [pre0_of_rows x0 x9 x2 x11 x13 x18 A0 A1 A2 A3 A4 A5 p r h0 h1 h2 h3 h4 h5]
  rfl

/-! ## The blocks are rows of the arrays -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the three row windows and the output move with the point, the weights and
    the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t holds rows 5000 t … of the neighbour sums. -/
theorem blk0_0 (c : Dev nD) (t : Fin cfg0.N) (p : Fin 5000) (k : Fin 96) (r : Fin 50000) (hr : r.val = 5000 * t.val + p.val) :
    (iblk0 V c 0 t : Vec Ideal S5000x96 .f32) (ix2 p k) = (V c main_v17 : S50000x96.Idx → EReal) (ix2 r k) := by
  obtain ⟨e0, e1, -⟩ := idx_facts0 t
  show (V c main_v17 : S50000x96.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 96 + 1 * k.val = k.val; omega

/-- Window 1's, of the nodes' own features. -/
theorem blk0_1 (c : Dev nD) (t : Fin cfg0.N) (p : Fin 5000) (k : Fin 96) (r : Fin 50000) (hr : r.val = 5000 * t.val + p.val) :
    (iblk0 V c 1 t : Vec Ideal S5000x96 .f32) (ix2 p k) = (V c main_arg0 : S50000x96.Idx → EReal) (ix2 r k) := by
  obtain ⟨-, -, e0, e1, -⟩ := idx_facts0 t
  show (V c main_arg0 : S50000x96.Idx → EReal) (((cfg0.win 1).blk t).view.emb (ix2 p k)) = _
  refine congrArg _ (funext fun a => Fin.ext ?_)
  match a with
  | ⟨0, _⟩ => show win0_1.index t (0 : Fin 2) * 5000 + 1 * p.val = r.val; omega
  | ⟨1, _⟩ => show win0_1.index t (1 : Fin 2) * 96 + 1 * k.val = k.val; omega

/-- Window 2's, of the in-degrees. -/
theorem blk0_2 (c : Dev nD) (t : Fin cfg0.N) (p : Fin 5000) (r : Fin 50000) (hr : r.val = 5000 * t.val + p.val) :
    (iblk0 V c 2 t : Vec Ideal S5000x1 .f32) (ix2 p 0) = (V c main_v7 : S50000x1.Idx → EReal) (ix2 r 0) := by
  obtain ⟨-, -, -, -, e0, e1, -⟩ := idx_facts0 t
  show (V c main_v7 : S50000x1.Idx → EReal) (((cfg0.win 2).blk t).view.emb (ix2 p 0)) = _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- Windows 3 and 4 hold the whole of the two weight matrices at every point. -/
theorem blk0_3 (c : Dev nD) (t : Fin cfg0.N) (k : Fin 96) (q : Fin 128) :
    (iblk0 V c 3 t : Vec Ideal S96x128 .f32) (ix2 k q) = (V c main_arg4 : S96x128.Idx → EReal) (ix2 k q) := by
  obtain ⟨-, -, -, -, -, -, e0, e1, -⟩ := idx_facts0 t
  show (V c main_arg4 : S96x128.Idx → EReal) (((cfg0.win 3).blk t).view.emb (ix2 k q)) = _
  refine congrArg _ (funext fun a => Fin.ext ?_)
  match a with
  | ⟨0, _⟩ => show win0_3.index t (0 : Fin 2) * 96 + 1 * k.val = k.val; omega
  | ⟨1, _⟩ => show win0_3.index t (1 : Fin 2) * 128 + 1 * q.val = q.val; omega

theorem blk0_4 (c : Dev nD) (t : Fin cfg0.N) (k : Fin 96) (q : Fin 128) :
    (iblk0 V c 4 t : Vec Ideal S96x128 .f32) (ix2 k q) = (V c main_arg5 : S96x128.Idx → EReal) (ix2 k q) := by
  obtain ⟨-, -, -, -, -, -, -, -, e0, e1, -⟩ := idx_facts0 t
  show (V c main_arg5 : S96x128.Idx → EReal) (((cfg0.win 4).blk t).view.emb (ix2 k q)) = _
  refine congrArg _ (funext fun a => Fin.ext ?_)
  match a with
  | ⟨0, _⟩ => show win0_4.index t (0 : Fin 2) * 96 + 1 * k.val = k.val; omega
  | ⟨1, _⟩ => show win0_4.index t (1 : Fin 2) * 128 + 1 * q.val = q.val; omega

/-- Window 5 holds the bias row. -/
theorem blk0_5 (c : Dev nD) (t : Fin cfg0.N) (q : Fin 128) :
    (iblk0 V c 5 t : Vec Ideal S1x128 .f32) (ix2 0 q) = (V c main_v18 : S1x128.Idx → EReal) (ix2 0 q) := by
  obtain ⟨-, -, -, -, -, -, -, -, -, -, e0, e1, -⟩ := idx_facts0 t
  show (V c main_v18 : S1x128.Idx → EReal) (((cfg0.win 5).blk t).view.emb (ix2 0 q)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- The output block's entry (p, q) at point t is the array's entry (5000 t + p, q). -/
theorem emb0_6 (t : Fin cfg0.N) (p : Fin 5000) (q : Fin 128) (r : Fin 50000) (hr : r.val = 5000 * t.val + p.val) :
    ((cfg0.win 6).blk t).view.emb (ix2 p q) = (ix2 r q : S50000x128.Idx) := by
  obtain ⟨-, -, -, -, -, -, -, -, -, -, -, -, e0, e1⟩ := idx_facts0 t
  refine funext fun a => Fin.ext ?_
  match a with
  | ⟨0, _⟩ => show win0_6.index t (0 : Fin 2) * 5000 + 1 * p.val = r.val; omega
  | ⟨1, _⟩ => show win0_6.index t (1 : Fin 2) * 128 + 1 * q.val = q.val; omega

/-! ## What each point writes back, and the array -/

/-- WHAT POINT t WRITES BACK is block t of that layer. -/
theorem flushed0_eq (c : Dev nD) (t : Fin cfg0.N) :
    (dat0 V c).flushed 6 t = ((cfg0.win 6).blk t).view.read (Elt Ideal)
      (Cert.Spec.layer0 (V c main_v17) (V c main_arg0) (V c main_v7) (V c main_arg4) (V c main_arg5)
        (fun i => V c main_v18 (ix2 0 (i 0)))) := by
  show (cfg0.win 6).cut (grid0.coords t) ((dat0 V c).after 6 t) = _
  rw [after0_6]
  unfold out0_6
  rw [View.canon_unit_zero hz0]
  simp only [View.ld_unit_zero (S := S5000x96) hz0, View.ld_unit_zero (S := S5000x1) hz0, View.ld_unit_zero (S := S96x128) hz0,
    View.ld_unit_zero (S := S1x128) hz0]
  funext j
  obtain ⟨p, q, rfl⟩ : ∃ (p : Fin 5000) (q : Fin 128), j = ix2 p q := ⟨j 0, j 1, eq_ix2 j⟩
  have ht : t.val < 10 := lt_of_lt_of_eq t.isLt N_0
  have hp : p.val < 5000 := p.isLt
  let r : Fin 50000 := ⟨5000 * t.val + p.val, by omega⟩
  have hr : r.val = 5000 * t.val + p.val := rfl
  show Gen.k0_pay1 (F := Ideal) (iblk0 V c 0 t) (iblk0 V c 2 t) (iblk0 V c 1 t) (iblk0 V c 3 t) (iblk0 V c 4 t) (iblk0 V c 5 t) (ix2 p q)
    = Cert.Spec.layer0 (V c main_v17) (V c main_arg0) (V c main_v7) (V c main_arg4) (V c main_arg5)
        (fun i => V c main_v18 (ix2 0 (i 0))) (((cfg0.win 6).blk t).view.emb (ix2 p q))
  rw [emb0_6 t p q r hr]
  exact stored0_of_rows (iblk0 V c 0 t) (iblk0 V c 1 t) (iblk0 V c 2 t) (iblk0 V c 3 t) (iblk0 V c 4 t) (iblk0 V c 5 t)
    (V c main_v17) (V c main_arg0) (V c main_v7) (V c main_arg4) (V c main_arg5) (V c main_v18) p r
    (fun k => blk0_0 V c t p k r hr) (fun k => blk0_1 V c t p k r hr) (blk0_2 V c t p r hr)
    (fun k q => blk0_3 V c t k q) (fun k q => blk0_4 V c t k q) (fun q => blk0_5 V c t q) q

/-- An index of the result array is in point t's block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- Row r of the result array is in the block of point r / 5000. -/
theorem rows_cover0 (i : S50000x128.Idx) : ∃ t : Fin cfg0.N, (cfg0.win 6).flush t = true ∧ i ∈ ((cfg0.win 6).blk t).view.set := by
  have h0 : (i 0).val < 50000 := (i 0).isLt
  have h1 : (i 1).val < 128 := (i 1).isLt
  have hN : cfg0.N = 10 := N_0
  let t : Fin cfg0.N := ⟨(i 0).val / 5000, by rw [hN]; omega⟩
  have htv : t.val = (i 0).val / 5000 := rfl
  obtain ⟨-, -, -, -, -, -, -, -, -, -, -, -, e0, e1⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE ARRAY after the region: the first layer of the arrays as the region finds them. -/
theorem arr0 (c : Dev nD) :
    (dat0 V c).arrAt 6 cfg0.N = Cert.Spec.layer0 (V c main_v17) (V c main_arg0) (V c main_v7) (V c main_arg4) (V c main_arg5)
      (fun i => V c main_v18 (ix2 0 (i 0))) :=
  (dat0 V c).arrAt_eq_of_cover 6 _ (fun t _ => flushed0_eq V c t) rows_cover0

end Cert.KernelIdeal.Val

end
-- ==== Proof.KI.Pay1.lean ====
/-
  The second node layer's body, entry by entry. What the body stores in its output block is, at row y and lane j, the
  pre-activation of that row over the row's Euclidean norm (floored at the small constant); the pre-activation is the
  row of neighbour sums over the in-degree (at least one) through the left weights, plus the node's own row through the
  right weights, plus the bias. The layer has 128 input features and no clamp.
-/
import proofs.«411664_j16982300688532_2_alg».proof.Proof.KI.Pay0

noncomputable section

open scoped BigOperators

namespace Cert.KernelIdeal.Val

open Idealize.ShloMosaic Idealize.ShloMosaic.ValueIdx Cert.KernelIdeal

/-- The pre-activation of the 128-feature layer at row y and lane j, from the block's six operands. -/
def pre1 (x0 x9 : Vec Ideal S5000x128 .f32) (x2 : Vec Ideal S5000x1 .f32) (x12 x14 : Vec Ideal S128x128 .f32)
    (x19 : Vec Ideal S1x128 .f32) (y : Fin 5000) (j : Fin 128) : EReal :=
  ((∑ k : Fin 128, Ideal.div (x0 (ix2 y k)) (max (x2 (ix2 y 0)) Cert.Spec.one) * x12 (ix2 k j))
    + ∑ k : Fin 128, x9 (ix2 y k) * x14 (ix2 k j)) + x19 (ix2 0 j)

/-- The body's stored value at row y and lane j. -/
theorem k1_pay1_apply (x0 x9 : Vec Ideal S5000x128 .f32) (x2 : Vec Ideal S5000x1 .f32) (x12 x14 : Vec Ideal S128x128 .f32)
    (x19 : Vec Ideal S1x128 .f32) (y : Fin 5000) (j : Fin 128) :
    Gen.k1_pay1 (F := Ideal) x0 x2 x9 x12 x14 x19 (ix2 y j)
      = Ideal.div (pre1 x0 x9 x2 x12 x14 x19 y j)
          (max (Ideal.sqrt (∑ j' : Fin 128, pre1 x0 x9 x2 x12 x14 x19 y j' * pre1 x0 x9 x2 x12 x14 x19 y j')) Cert.Spec.floor) := by
  unfold Gen.k1_pay1 pre1
  simp only [maximumf_apply, divf_apply, broadcast_apply, addf_apply, mulf_apply, truncf_apply, sqrt_apply,
    shapeCast_self, broadcastTo_a1_ab_apply, broadcastTo_1b_ab_apply, shapeCast_a_a1_apply,
    Cert.LibMatProd.matmul_zero_apply dot_S5000x128_S128x128_S5000x128_1_0_0_1_n_n rfl]
  rw [laneSum_apply]
  simp only [maximumf_apply, divf_apply, broadcast_apply, addf_apply, mulf_apply, truncf_apply,
    shapeCast_self, broadcastTo_a1_ab_apply, broadcastTo_1b_ab_apply,
    Cert.LibMatProd.matmul_zero_apply dot_S5000x128_S128x128_S5000x128_1_0_0_1_n_n rfl]
  rfl

end Cert.KernelIdeal.Val

end
-- ==== Proof.KI.Val1.lean ====
/-
  The second node layer's result array. Each grid point's output block is rows 5000 t … 5000 t + 4999 of one function of
  the arrays the region finds: the second layer of the specification, read off the body's entry-by-entry value and the
  input blocks' places in their arrays; the ten blocks cover the 50000 rows.
-/
import proofs.«411664_j16982300688532_2_alg».proof.Proof.KI.R1
import proofs.«411664_j16982300688532_2_alg».proof.Proof.KI.Pay1
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's value over any six blocks that are rows of six arrays -/

/-- The pre-activation over blocks that hold row r of the row arrays and the whole of the weights and the bias is the
    specification's at row r. -/
theorem pre1_of_rows (x0 x9 : Vec Ideal S5000x128 .f32) (x2 : Vec Ideal S5000x1 .f32) (x12 x14 : Vec Ideal S128x128 .f32)
    (x19 : Vec Ideal S1x128 .f32)
    (A0 A1 : S50000x128.Idx → EReal) (A2 : S50000x1.Idx → EReal) (A3 A4 : S128x128.Idx → EReal) (A5 : S1x128.Idx → EReal)
    (p : Fin 5000) (r : Fin 50000)
    (h0 : ∀ k : Fin 128, x0 (ix2 p k) = A0 (ix2 r k)) (h1 : ∀ k : Fin 128, x9 (ix2 p k) = A1 (ix2 r k))
    (h2 : x2 (ix2 p 0) = A2 (ix2 r 0))
    (h3 : ∀ (k : Fin 128) (q : Fin 128), x12 (ix2 k q) = A3 (ix2 k q)) (h4 : ∀ (k : Fin 128) (q : Fin 128), x14 (ix2 k q) = A4 (ix2 k q))
    (h5 : ∀ q : Fin 128, x19 (ix2 0 q) = A5 (ix2 0 q)) (q : Fin 128) :
    pre1 x0 x9 x2 x12 x14 x19 p q = Cert.Spec.pre 128 A0 A1 A2 A3 A4 (fun i => A5 (ix2 0 (i 0))) r q := by
  unfold pre1 Cert.Spec.pre
  simp only [h0, h1, h2, h3, h4, h5]

/-- So the stored value at (p, q) is the specification's second layer at (r, q). -/
theorem stored1_of_rows (x0 x9 : Vec Ideal S5000x128 .f32) (x2 : Vec Ideal S5000x1 .f32) (x12 x14 : Vec Ideal S128x128 .f32)
    (x19 : Vec Ideal S1x128 .f32)
    (A0 A1 : S50000x128.Idx → EReal) (A2 : S50000x1.Idx → EReal) (A3 A4 : S128x128.Idx → EReal) (A5 : S1x128.Idx → EReal)
    (p : Fin 5000) (r : Fin 50000)
    (h0 : ∀ k : Fin 128, x0 (ix2 p k) = A0 (ix2 r k)) (h1 : ∀ k : Fin 128, x9 (ix2 p k) = A1 (ix2 r k))
    (h2 : x2 (ix2 p 0) = A2 (ix2 r 0))
    (h3 : ∀ (k : Fin 128) (q : Fin 128), x12 (ix2 k q) = A3 (ix2 k q)) (h4 : ∀ (k : Fin 128) (q : Fin 128), x14 (ix2 k q) = A4 (ix2 k q))
    (h5 : ∀ q : Fin 128, x19 (ix2 0 q) = A5 (ix2 0 q)) (q : Fin 128) :
    Gen.k1_pay1 (F := Ideal) x0 x2 x9 x12 x14 x19 (ix2 p q)
      = Cert.Spec.layer1 A0 A1 A2 A3 A4 (fun i => A5 (ix2 0 (i 0))) (ix2 r q) := by
  rw [k1_pay1_apply]
  simp only [pre1_of_rows x0 x9 x2 x12 x14 x19 A0 A1 A2 A3 A4 A5 p r h0 h1 h2 h3 h4 h5]
  rfl

/-! ## The blocks are rows of the arrays -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the three row windows and the output move with the point, the weights and
    the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t holds rows 5000 t … of the neighbour sums. -/
theorem blk1_0 (c : Dev nD) (t : Fin cfg1.N) (p : Fin 5000) (k : Fin 128) (r : Fin 50000) (hr : r.val = 5000 * t.val + p.val) :
    (iblk1 V c 0 t : Vec Ideal S5000x128 .f32) (ix2 p k) = (V c main_v29 : S50000x128.Idx → EReal) (ix2 r k) := by
  obtain ⟨e0, e1, -⟩ := idx_facts1 t
  show (V c main_v29 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Window 1's, of the first layer's rows. -/
theorem blk1_1 (c : Dev nD) (t : Fin cfg1.N) (p : Fin 5000) (k : Fin 128) (r : Fin 50000) (hr : r.val = 5000 * t.val + p.val) :
    (iblk1 V c 1 t : Vec Ideal S5000x128 .f32) (ix2 p k) = (V c main_v19 : S50000x128.Idx → EReal) (ix2 r k) := by
  obtain ⟨-, -, e0, e1, -⟩ := idx_facts1 t
  show (V c main_v19 : S50000x128.Idx → EReal) (((cfg1.win 1).blk t).view.emb (ix2 p k)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Window 2's, of the in-degrees. -/
theorem blk1_2 (c : Dev nD) (t : Fin cfg1.N) (p : Fin 5000) (r : Fin 50000) (hr : r.val = 5000 * t.val + p.val) :
    (iblk1 V c 2 t : Vec Ideal S5000x1 .f32) (ix2 p 0) = (V c main_v7 : S50000x1.Idx → EReal) (ix2 r 0) := by
  obtain ⟨-, -, -, -, e0, e1, -⟩ := idx_facts1 t
  show (V c main_v7 : S50000x1.Idx → EReal) (((cfg1.win 2).blk t).view.emb (ix2 p 0)) = _
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- Windows 3 and 4 hold the whole of the two weight matrices at every point. -/
theorem blk1_3 (c : Dev nD) (t : Fin cfg1.N) (k : Fin 128) (q : Fin 128) :
    (iblk1 V c 3 t : Vec Ideal S128x128 .f32) (ix2 k q) = (V c main_arg7 : S128x128.Idx → EReal) (ix2 k q) := by
  obtain ⟨-, -, -, -, -, -, e0, e1, -⟩ := idx_facts1 t
  show (V c main_arg7 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blk1_4 (c : Dev nD) (t : Fin cfg1.N) (k : Fin 128) (q : Fin 128) :
    (iblk1 V c 4 t : Vec Ideal S128x128 .f32) (ix2 k q) = (V c main_arg8 : S128x128.Idx → EReal) (ix2 k q) := by
  obtain ⟨-, -, -, -, -, -, -, -, e0, e1, -⟩ := idx_facts1 t
  show (V c main_arg8 : S128x128.Idx → EReal) (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Window 5 holds the bias row. -/
theorem blk1_5 (c : Dev nD) (t : Fin cfg1.N) (q : Fin 128) :
    (iblk1 V c 5 t : Vec Ideal S1x128 .f32) (ix2 0 q) = (V c main_v30 : S1x128.Idx → EReal) (ix2 0 q) := by
  obtain ⟨-, -, -, -, -, -, -, -, -, -, e0, e1, -⟩ := idx_facts1 t
  show (V c main_v30 : S1x128.Idx → EReal) (((cfg1.win 5).blk t).view.emb (ix2 0 q)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- The output block's entry (p, q) at point t is the array's entry (5000 t + p, q). -/
theorem emb1_6 (t : Fin cfg1.N) (p : Fin 5000) (q : Fin 128) (r : Fin 50000) (hr : r.val = 5000 * t.val + p.val) :
    ((cfg1.win 6).blk t).view.emb (ix2 p q) = (ix2 r q : S50000x128.Idx) := by
  obtain ⟨-, -, -, -, -, -, -, -, -, -, -, -, e0, e1⟩ := idx_facts1 t
  refine funext fun a => Fin.ext ?_
  match a with
  | ⟨0, _⟩ => show win1_6.index t (0 : Fin 2) * 5000 + 1 * p.val = r.val; omega
  | ⟨1, _⟩ => show win1_6.index t (1 : Fin 2) * 128 + 1 * q.val = q.val; omega

/-! ## What each point writes back, and the array -/

/-- WHAT POINT t WRITES BACK is block t of the second layer of the arrays as the region finds them. -/
theorem flushed1_eq (c : Dev nD) (t : Fin cfg1.N) :
    (dat1 V c).flushed 6 t = ((cfg1.win 6).blk t).view.read (Elt Ideal)
      (Cert.Spec.layer1 (V c main_v29) (V c main_v19) (V c main_v7) (V c main_arg7) (V c main_arg8)
        (fun i => V c main_v30 (ix2 0 (i 0)))) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S5000x1) hz1, View.ld_unit_zero (S := S128x128) hz1,
    View.ld_unit_zero (S := S1x128) hz1]
  funext j
  obtain ⟨p, q, rfl⟩ : ∃ (p : Fin 5000) (q : Fin 128), j = ix2 p q := ⟨j 0, j 1, eq_ix2 j⟩
  have ht : t.val < 10 := lt_of_lt_of_eq t.isLt N_1
  have hp : p.val < 5000 := p.isLt
  let r : Fin 50000 := ⟨5000 * t.val + p.val, by omega⟩
  have hr : r.val = 5000 * t.val + p.val := rfl
  show Gen.k1_pay1 (F := Ideal) (iblk1 V c 0 t) (iblk1 V c 2 t) (iblk1 V c 1 t) (iblk1 V c 3 t) (iblk1 V c 4 t) (iblk1 V c 5 t) (ix2 p q)
    = Cert.Spec.layer1 (V c main_v29) (V c main_v19) (V c main_v7) (V c main_arg7) (V c main_arg8)
        (fun i => V c main_v30 (ix2 0 (i 0))) (((cfg1.win 6).blk t).view.emb (ix2 p q))
  rw [emb1_6 t p q r hr]
  exact stored1_of_rows (iblk1 V c 0 t) (iblk1 V c 1 t) (iblk1 V c 2 t) (iblk1 V c 3 t) (iblk1 V c 4 t) (iblk1 V c 5 t)
    (V c main_v29) (V c main_v19) (V c main_v7) (V c main_arg7) (V c main_arg8) (V c main_v30) p r
    (fun k => blk1_0 V c t p k r hr) (fun k => blk1_1 V c t p k r hr) (blk1_2 V c t p r hr)
    (fun k q => blk1_3 V c t k q) (fun k q => blk1_4 V c t k q) (fun q => blk1_5 V c t q) q

/-- An index of the result array is in point t's block iff each coordinate is in the block's range on its axis. -/
theorem mem_blk1_6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v31).slice (win1_6.rect t)).set ↔ _
  rw [View.set_slice_whole, Rect.mem_set_unit]
  exact Iff.rfl

/-- Row r of the result array is in the block of point r / 5000. -/
theorem rows_cover1 (i : S50000x128.Idx) : ∃ t : Fin cfg1.N, (cfg1.win 6).flush t = true ∧ i ∈ ((cfg1.win 6).blk t).view.set := by
  have h0 : (i 0).val < 50000 := (i 0).isLt
  have h1 : (i 1).val < 128 := (i 1).isLt
  have hN : cfg1.N = 10 := N_1
  let t : Fin cfg1.N := ⟨(i 0).val / 5000, by rw [hN]; omega⟩
  have htv : t.val = (i 0).val / 5000 := rfl
  obtain ⟨-, -, -, -, -, -, -, -, -, -, -, -, e0, e1⟩ := idx_facts1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE ARRAY after the region: the second layer of the arrays as the region finds them. -/
theorem arr1 (c : Dev nD) :
    (dat1 V c).arrAt 6 cfg1.N = Cert.Spec.layer1 (V c main_v29) (V c main_v19) (V c main_v7) (V c main_arg7) (V c main_arg8)
      (fun i => V c main_v30 (ix2 0 (i 0))) :=
  (dat1 V c).arrAt_eq_of_cover 6 _ (fun t _ => flushed1_eq V c t) rows_cover1

end Cert.KernelIdeal.Val

end
-- ==== Proof.KI.Pay2.lean ====
/-
  The pool-and-head stage, value by value, on the extended reals.

  Each block of 5000 nodes is turned into a 5000 × 64 membership matrix (entry (y, g) is one when node y belongs to
  graph g, else zero). Contracting that matrix with the block's 5000 × 128 feature rows over the node axis adds, to the
  running 64 × 128 sums, the rows of each graph; contracting it with a column of ones adds the node counts. From the
  finished sums and counts the head takes each graph's mean row (the count floored at one) through one half of the head
  weights, a clamped affine map of the 32 per-graph features through the other half, and adds the bias.

  The product that contracts the FIRST axis of both operands is read here as a sum over the shared rows, in the same way
  the plain rows-by-columns product is read in LibMatProd.
-/
import proofs.«411664_j16982300688532_2_alg».proof.Proof.Spec
import proofs.«411664_j16982300688532_2_alg».proof.Proof.LibMatProd
import proofs.«411664_j16982300688532_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.IdealHost
import Idealize.ShloMosaic.Lib.StableHlo.Predicate

set_option maxRecDepth 16384

noncomputable section

open scoped BigOperators

namespace Cert.KernelIdeal.Val

open Cert.KernelIdeal Cert.KernelIdeal.Gen
open Idealize.ShloMosaic Idealize.ShloMosaic.ValueIdx

/-! ## A product that contracts axis 0 of both operands -/

/-- The dimension numbers that contract axis 0 of both operands: a K × A array against a K × B array, giving A × B. -/
def colsT (K A B : ℕ) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section ColsT
variable (K A B : ℕ)

/-- The left operand's index at result index i and contraction index q: row q's one coordinate … -/
theorem colsT_lhs_axis0 (i : (⟨2, ![A, B]⟩ : Shape).Idx) (q : (colsT K A B).contr.Idx) :
    ((colsT K A B).lhsIdx i q 0).val = (q ⟨0, Nat.one_pos⟩).val :=
  (colsT K A B).lhsIdx_val_of_single rfl i q
/-- … column i 0. -/
theorem colsT_lhs_axis1 (i : (⟨2, ![A, B]⟩ : Shape).Idx) (q : (colsT K A B).contr.Idx) :
    ((colsT K A B).lhsIdx i q 1).val = (i 0).val := by
  unfold DotDims.lhsIdx
  rw [dif_neg (show ¬(1 : Fin (⟨2, ![K, A]⟩ : Shape).rank) ∈ (colsT K A B).lhsBatch from List.not_mem_nil),
    dif_pos (show (1 : Fin (⟨2, ![K, A]⟩ : Shape).rank) ∈ (colsT K A B).lhsNonContracting from List.mem_singleton.2 rfl)]
  rfl
/-- The right operand's index: row q's one coordinate … -/
theorem colsT_rhs_axis0 (i : (⟨2, ![A, B]⟩ : Shape).Idx) (q : (colsT K A B).contr.Idx) :
    ((colsT K A B).rhsIdx i q 0).val = (q ⟨0, Nat.one_pos⟩).val :=
  (colsT K A B).rhsIdx_val_of_single rfl i q
/-- … column i 1. -/
theorem colsT_rhs_axis1 (i : (⟨2, ![A, B]⟩ : Shape).Idx) (q : (colsT K A B).contr.Idx) :
    ((colsT K A B).rhsIdx i q 1).val = (i 1).val := by
  unfold DotDims.rhsIdx
  rw [dif_neg (show ¬(1 : Fin (⟨2, ![K, B]⟩ : Shape).rank) ∈ (colsT K A B).rhsBatch from List.not_mem_nil),
    dif_pos (show (1 : Fin (⟨2, ![K, B]⟩ : Shape).rank) ∈ (colsT K A B).rhsNonContracting from List.mem_singleton.2 rfl)]
  rfl

/-- The sum over the contraction index is the sum over the shared rows. -/
theorem colsT_sum (l : (⟨2, ![K, A]⟩ : Shape).Idx → EReal) (r : (⟨2, ![K, B]⟩ : Shape).Idx → EReal) (a : Fin A) (b : Fin B) :
    (∑ q : (colsT K A B).contr.Idx, l ((colsT K A B).lhsIdx (ix2 a b) q) * r ((colsT K A B).rhsIdx (ix2 a b) q))
      = ∑ k : Fin K, l (ix2 k a) * r (ix2 k b) := by
  rw [← Equiv.sum_comp (contrEquiv1 (colsT K A B) K rfl rfl).symm]
  refine Finset.sum_congr rfl fun k _ => ?_
  have hk := contrEquiv1_symm_val (colsT K A B) K rfl rfl k
  have el : (colsT K A B).lhsIdx (ix2 a b) ((contrEquiv1 (colsT K A B) K rfl rfl).symm k) = ix2 k a :=
    funext fun ax => Fin.ext (by
      match ax with
      | ⟨0, _⟩ => exact (colsT_lhs_axis0 K A B _ _).trans hk
      | ⟨1, _⟩ => exact colsT_lhs_axis1 K A B _ _)
  have er : (colsT K A B).rhsIdx (ix2 a b) ((contrEquiv1 (colsT K A B) K rfl rfl).symm k) = ix2 k b :=
    funext fun ax => Fin.ext (by
      match ax with
      | ⟨0, _⟩ => exact (colsT_rhs_axis0 K A B _ _).trans hk
      | ⟨1, _⟩ => exact colsT_rhs_axis1 K A B _ _)
  rw [el, er]

variable {K A B}

/-- Such a product into a zero accumulator, at entry (a, b): the sum over the shared rows k of lhs (k, a) * rhs (k, b). -/
theorem colsT_matmul_zero_apply {φ₁ φ₂ : FTy} (d : DotDims ⟨2, ![K, A]⟩ ⟨2, ![K, B]⟩ ⟨2, ![A, B]⟩) (hd : d = colsT K A B)
    (prec : Option ContractPrecision) (lhs : FVec Ideal ⟨2, ![K, A]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 k a) * rhs (ix2 k b) := by
  subst hd
  exact (Ideal.matmul_constant_zero_apply _ prec lhs rhs (ix2 a b)).trans (colsT_sum K A B lhs rhs a b)

end ColsT

/-! ## The two starting blocks -/

/-- The pooled-sum accumulator starts at zero. -/
theorem pay1_apply (g : Fin 64) (k : Fin 128) : Gen.k2_pay1 (F := Ideal) (ix2 g k) = 0 := by
  unfold Gen.k2_pay1
  rw [shapeCast_self]
  exact Ideal.ofBits_zero_f32

/-- The count accumulator starts at zero. -/
theorem pay2_apply (g : Fin 64) : Gen.k2_pay2 (F := Ideal) (ix2 g 0) = 0 := by
  unfold Gen.k2_pay2
  rw [shapeCast_self]
  exact Ideal.ofBits_zero_f32

/-! ## The membership matrix -/

/-- For a graph number below 64, a 32-bit word is that number's word exactly when it reads, signed, as that number. -/
theorem word_eq_iff (a : BitVec 32) (g : Fin 64) : a = BitVec.ofNat 32 g.val ↔ a.toInt = (g.val : ℤ) := by
  have hg : ∀ g : Fin 64, (BitVec.ofNat 32 g.val).toInt = (g.val : ℤ) := by decide
  constructor
  · rintro rfl; exact hg g
  · intro h; exact BitVec.eq_of_toInt_eq (h.trans (hg g).symm)

/-- Entry (y, g) of the membership matrix: one when row y's graph number is g, else zero. -/
theorem pay3_apply (v3 : Vec Ideal S5000x1 .i32) (y : Fin 5000) (g : Fin 64) :
    Gen.k2_pay3 (F := Ideal) v3 (ix2 y g) = if (v3 (ix2 y 0)).toInt = (g.val : ℤ) then 1 else 0 := by
  unfold Gen.k2_pay3
  rw [shapeCast_self]
  show ((((IntOp.cmpi .eq (broadcastTo S5000x64 v3 broadcasts_S5000x1_S5000x64 (ix2 y g))
    (iota .tc S5000x64 32 [1] iota_S5000x64_d1_w32 (ix2 y g))).setWidth 32).toInt : ℝ) : EReal) = _
  rw [iota_single_apply, broadcastTo_apply v3 broadcasts_S5000x1_S5000x64 (ix2 y g) (ix2 y 0) (by
    intro a; match a with
    | ⟨0, _⟩ => rfl
    | ⟨1, _⟩ => rfl), toInt_setWidth_bit]
  by_cases h : v3 (ix2 y 0) = BitVec.ofNat 32 g.val
  · rw [if_pos ((word_eq_iff _ g).1 h), StableHlo.Predicate.cmpi_eq_iff.2 h]; norm_num
  · rw [if_neg (fun h' => h ((word_eq_iff _ g).2 h')),
      eq_zero_of_ne_one (fun h' => h (StableHlo.Predicate.cmpi_eq_iff.1 h'))]; norm_num

/-! ## One grid point's step of the two accumulators -/

/-- The pooled-sum accumulator after a block: what it held, plus the block's rows that belong to graph g. -/
theorem pay4_apply (v3 : Vec Ideal S5000x1 .i32) (v11 : Vec Ideal S5000x128 .f32) (v17 : Vec Ideal S64x128 .f32) (g : Fin 64) (k : Fin 128) :
    Gen.k2_pay4 (F := Ideal) v3 v11 v17 (ix2 g k)
      = v17 (ix2 g k) + ∑ y : Fin 5000, if (v3 (ix2 y 0)).toInt = (g.val : ℤ) then v11 (ix2 y k) else 0 := by
  unfold Gen.k2_pay4
  rw [shapeCast_self, shapeCast_self]
  show v17 (ix2 g k) + matmul dot_S5000x64_S5000x128_S64x128_0_0_1_1_n_n none (Gen.k2_pay3 (F := Ideal) v3)
    (truncf .bf16 v11 bitsLt_bf16_f32) (constant S64x128 .f32 0x00000000#32) (ix2 g k) = _
  rw [colsT_matmul_zero_apply (K := 5000) (A := 64) (B := 128) dot_S5000x64_S5000x128_S64x128_0_0_1_1_n_n rfl]
  refine congrArg (_ + ·) (Finset.sum_congr rfl fun y _ => ?_)
  rw [pay3_apply]
  show (if _ then (1 : EReal) else 0) * v11 (ix2 y k) = _
  split_ifs
  · exact one_mul _
  · exact zero_mul _

/-- The bf16 word of one denotes the same extended real as the f32 word of one. -/
theorem one_bf16_eq : Ideal.ofBits .bf16 0x3F80#16 = Cert.Spec.one :=
  Ideal.ofBits_one_bf16.trans Ideal.ofBits_one_f32.symm

/-- The count accumulator after a block: what it held, plus one for every row of the block that belongs to graph g. -/
theorem pay5_apply (v3 : Vec Ideal S5000x1 .i32) (v22 : Vec Ideal S64x1 .f32) (g : Fin 64) :
    Gen.k2_pay5 (F := Ideal) v3 v22 (ix2 g 0)
      = v22 (ix2 g 0) + ∑ y : Fin 5000, if (v3 (ix2 y 0)).toInt = (g.val : ℤ) then Cert.Spec.one else 0 := by
  unfold Gen.k2_pay5
  rw [shapeCast_self]
  show v22 (ix2 g 0) + matmul dot_S5000x64_S5000x1_S64x1_0_0_1_1_n_n none (Gen.k2_pay3 (F := Ideal) v3)
    (broadcast S5000x1 (Ideal.ofBits .bf16 0x3F80#16)) (constant S64x1 .f32 0x00000000#32) (ix2 g 0) = _
  rw [colsT_matmul_zero_apply (K := 5000) (A := 64) (B := 1) dot_S5000x64_S5000x1_S64x1_0_0_1_1_n_n rfl]
  refine congrArg (_ + ·) (Finset.sum_congr rfl fun y _ => ?_)
  rw [pay3_apply]
  show (if _ then (1 : EReal) else 0) * Ideal.ofBits .bf16 0x3F80#16 = _
  rw [one_bf16_eq]
  split_ifs
  · exact one_mul _
  · exact zero_mul _

/-! ## The head -/

/-- A column broadcast along the rows of a 64 × 128 block reads its row's one entry. -/
theorem bcast_col_apply (x : (⟨2, ![64, 1]⟩ : Shape).Idx → EReal) (g : Fin 64) (k : Fin 128) :
    broadcastTo S64x128 x broadcasts_S64x1_S64x128 (ix2 g k) = x (ix2 g 0) :=
  broadcastTo_apply x broadcasts_S64x1_S64x128 (ix2 g k) (ix2 g 0) (by
    intro a; match a with
    | ⟨0, _⟩ => rfl
    | ⟨1, _⟩ => rfl)

/-- A row broadcast down the 64 rows reads its column's one entry. -/
theorem bcast_row_apply (x : (⟨2, ![1, 128]⟩ : Shape).Idx → EReal) (g : Fin 64) (k : Fin 128) :
    broadcastTo S64x128 x broadcasts_S1x128_S64x128 (ix2 g k) = x (ix2 0 k) :=
  broadcastTo_apply x broadcasts_S1x128_S64x128 (ix2 g k) (ix2 0 k) (by
    intro a; match a with
    | ⟨0, _⟩ => rfl
    | ⟨1, _⟩ => rfl)

/-- A single entry broadcast down a column of 64 reads that entry. -/
theorem bcast_one_apply (x : (⟨2, ![1, 1]⟩ : Shape).Idx → EReal) (g : Fin 64) :
    broadcastTo S64x1 x broadcasts_S1x1_S64x1 (ix2 g 0) = x (ix2 0 0) :=
  broadcastTo_apply x broadcasts_S1x1_S64x1 (ix2 g 0) (ix2 0 0) (by
    intro a; match a with
    | ⟨0, _⟩ => rfl
    | ⟨1, _⟩ => rfl)

/-- The head's entry for graph g, from the pooled sums, the counts, the per-graph features and the weights: the mean row
    through one half of the head weights, the clamped affine feature branch through the other half, plus the bias. -/
theorem pay6_apply (v30 : Vec Ideal S64x128 .f32) (v31 : Vec Ideal S64x1 .f32) (v36 : Vec Ideal S64x32 .f32)
    (v38 : Vec Ideal S32x128 .f32) (v41 : Vec Ideal S1x128 .f32) (v49 : Vec Ideal S128x1 .f32) (v52 : Vec Ideal S128x1 .f32)
    (v58 : Vec Ideal S1x1 .f32) (g : Fin 64) :
    Gen.k2_pay6 (F := Ideal) v30 v31 v36 v38 v41 v49 v52 v58 (ix2 g 0)
      = ((∑ k : Fin 128, Ideal.div (v30 (ix2 g k)) (max (v31 (ix2 g 0)) Cert.Spec.one) * v49 (ix2 k 0))
          + ∑ k : Fin 128, max ((∑ q : Fin 32, v36 (ix2 g q) * v38 (ix2 q k)) + v41 (ix2 0 k)) Cert.Spec.zero * v52 (ix2 k 0))
        + v58 (ix2 0 0) := by
  unfold Gen.k2_pay6
  rw [shapeCast_self v41, shapeCast_self v49, shapeCast_self v52, shapeCast_self v58]
  show (matmul (F := Ideal) dot_S64x128_S128x1_S64x1_1_0_0_1_n_n none _ _ (constant S64x1 .f32 0x00000000#32) (ix2 g 0)
      + matmul (F := Ideal) dot_S64x128_S128x1_S64x1_1_0_0_1_n_n none _ _ (constant S64x1 .f32 0x00000000#32) (ix2 g 0))
    + broadcastTo S64x1 v58 broadcasts_S1x1_S64x1 (ix2 g 0) = _
  rw [Cert.LibMatProd.matmul_zero_apply dot_S64x128_S128x1_S64x1_1_0_0_1_n_n rfl,
    Cert.LibMatProd.matmul_zero_apply dot_S64x128_S128x1_S64x1_1_0_0_1_n_n rfl, bcast_one_apply]
  congr 2
  · refine Finset.sum_congr rfl fun k _ => ?_
    show Ideal.div (v30 (ix2 g k)) (broadcastTo S64x128 _ broadcasts_S64x1_S64x128 (ix2 g k)) * v49 (ix2 k 0) = _
    rw [bcast_col_apply]
    rfl
  · refine Finset.sum_congr rfl fun k _ => ?_
    show max (matmul (F := Ideal) dot_S64x32_S32x128_S64x128_1_0_0_1_n_n none _ _ (constant S64x128 .f32 0x00000000#32) (ix2 g k)
        + broadcastTo S64x128 v41 broadcasts_S1x128_S64x128 (ix2 g k)) Cert.Spec.zero * v52 (ix2 k 0) = _
    rw [Cert.LibMatProd.matmul_zero_apply dot_S64x32_S32x128_S64x128_1_0_0_1_n_n rfl, bcast_row_apply]
    rfl

end Cert.KernelIdeal.Val

end
-- ==== Proof.KI.Pool.lean ====
/-
  The pool-and-head stage over the whole graph batch.

  The 50000 nodes are taken in ten consecutive blocks of 5000: row y of block t is node 5000 t + y. Each grid point adds
  its block's contribution to two running accumulators, so after the last point the first holds, for each of the 64
  graphs, the sum of its nodes' rows, and the second the number of its nodes. A sum over all 50000 nodes is the sum over
  the ten blocks of the sums inside each block, which is what identifies the accumulators with the reference's
  per-graph sums and counts; the head computed from them is then the reference's head.
-/
import proofs.«411664_j16982300688532_2_alg».proof.Proof.KI.Pay2
import Mathlib.Algebra.BigOperators.Fin
import Mathlib.Logic.Equiv.Fin.Basic

set_option maxRecDepth 16384

noncomputable section

open scoped BigOperators

namespace Cert.KernelIdeal.Val

open Cert.KernelIdeal Cert.KernelIdeal.Gen
open Idealize.ShloMosaic Idealize.ShloMosaic.ValueIdx

/-! ## Ten blocks of 5000 rows make up the 50000 rows -/

/-- Row y of block t is row 5000 t + y. -/
def blockEquiv : Fin 10 × Fin 5000 ≃ Fin 50000 := finProdFinEquiv.trans (finCongr (by norm_num))

theorem blockEquiv_val (p : Fin 10 × Fin 5000) : (blockEquiv p).val = 5000 * p.1.val + p.2.val := by
  show ((finProdFinEquiv p : Fin (10 * 5000)) : ℕ) = _
  rw [finProdFinEquiv_apply_val]
  omega

/-- A sum over the 50000 rows taken block by block: f t y is the summand of row 5000 t + y. -/
theorem sum_blocks (F : Fin 50000 → EReal) (f : ℕ → Fin 5000 → EReal)
    (hf : ∀ (t : ℕ) (y : Fin 5000) (n : Fin 50000), t < 10 → n.val = 5000 * t + y.val → f t y = F n) :
    ∑ t ∈ Finset.range 10, ∑ y : Fin 5000, f t y = ∑ n : Fin 50000, F n := by
  rw [← Fin.sum_univ_eq_sum_range (fun t => ∑ y : Fin 5000, f t y) 10, ← Equiv.sum_comp blockEquiv F, Fintype.sum_prod_type]
  refine Finset.sum_congr rfl fun t _ => Finset.sum_congr rfl fun y _ => ?_
  exact hf t.val y (blockEquiv (t, y)) t.isLt (blockEquiv_val (t, y))

/-! ## The two accumulators over the ten grid points -/

section Pool
variable (batch : (⟨2, ![50000, 1]⟩ : Shape).Idx → BitVec 32) (h : (⟨2, ![50000, 128]⟩ : Shape).Idx → EReal)
variable (bb : ℕ → Vec Ideal S5000x1 .i32) (hb : ℕ → Vec Ideal S5000x128 .f32)

/-- After grid point n the pooled-sum accumulator holds, for graph g, the rows of blocks 0 … n that belong to g. -/
theorem accSum_upto (A : ℕ → Vec Ideal S64x128 .f32)
    (hA0 : A 0 = Gen.k2_pay4 (F := Ideal) (bb 0) (hb 0) (Gen.k2_pay1 (F := Ideal)))
    (hAs : ∀ n, n + 1 < 10 → A (n + 1) = Gen.k2_pay4 (F := Ideal) (bb (n + 1)) (hb (n + 1)) (A n))
    (g : Fin 64) (k : Fin 128) (n : ℕ) (hn : n < 10) :
    A n (ix2 g k) = ∑ t ∈ Finset.range (n + 1), ∑ y : Fin 5000,
      if (bb t (ix2 y 0)).toInt = (g.val : ℤ) then hb t (ix2 y k) else 0 := by
  induction n with
  | zero => rw [hA0, pay4_apply, pay1_apply, zero_add, Finset.sum_range_one]
  | succ m ih => rw [hAs m hn, pay4_apply, ih (by omega), Finset.sum_range_succ _ (m + 1)]

/-- After grid point n the count accumulator holds, for graph g, the number of rows of blocks 0 … n that belong to g. -/
theorem accCount_upto (C : ℕ → Vec Ideal S64x1 .f32)
    (hC0 : C 0 = Gen.k2_pay5 (F := Ideal) (bb 0) (Gen.k2_pay2 (F := Ideal)))
    (hCs : ∀ n, n + 1 < 10 → C (n + 1) = Gen.k2_pay5 (F := Ideal) (bb (n + 1)) (C n))
    (g : Fin 64) (n : ℕ) (hn : n < 10) :
    C n (ix2 g 0) = ∑ t ∈ Finset.range (n + 1), ∑ y : Fin 5000,
      if (bb t (ix2 y 0)).toInt = (g.val : ℤ) then Cert.Spec.one else 0 := by
  induction n with
  | zero => rw [hC0, pay5_apply, pay2_apply, zero_add, Finset.sum_range_one]
  | succ m ih => rw [hCs m hn, pay5_apply, ih (by omega), Finset.sum_range_succ _ (m + 1)]

variable (hbb : ∀ (t : ℕ) (y : Fin 5000) (n : Fin 50000), t < 10 → n.val = 5000 * t + y.val → bb t (ix2 y 0) = batch (ix2 n 0))
variable (hhb : ∀ (t : ℕ) (y : Fin 5000) (k : Fin 128) (n : Fin 50000), t < 10 → n.val = 5000 * t + y.val →
  hb t (ix2 y k) = h (ix2 n k))

include hbb hhb in
/-- After the last grid point the pooled-sum accumulator is the sum, over all 50000 nodes, of the rows of graph g. -/
theorem accSum_final (A : ℕ → Vec Ideal S64x128 .f32)
    (hA0 : A 0 = Gen.k2_pay4 (F := Ideal) (bb 0) (hb 0) (Gen.k2_pay1 (F := Ideal)))
    (hAs : ∀ n, n + 1 < 10 → A (n + 1) = Gen.k2_pay4 (F := Ideal) (bb (n + 1)) (hb (n + 1)) (A n))
    (g : Fin 64) (k : Fin 128) :
    A 9 (ix2 g k) = Cert.Spec.graphSum (fun i => batch (ix2 (i 0) 0)) h g k := by
  rw [accSum_upto bb hb A hA0 hAs g k 9 (by norm_num)]
  unfold Cert.Spec.graphSum
  exact sum_blocks (fun n => if (batch (ix2 n 0)).toInt = (g.val : ℤ) then h (ix2 n k) else 0)
    (fun t y => if (bb t (ix2 y 0)).toInt = (g.val : ℤ) then hb t (ix2 y k) else 0)
    (fun t y n ht hn => by rw [hbb t y n ht hn, hhb t y k n ht hn])

include hbb in
/-- After the last grid point the count accumulator is the number of nodes of graph g. -/
theorem accCount_final (C : ℕ → Vec Ideal S64x1 .f32)
    (hC0 : C 0 = Gen.k2_pay5 (F := Ideal) (bb 0) (Gen.k2_pay2 (F := Ideal)))
    (hCs : ∀ n, n + 1 < 10 → C (n + 1) = Gen.k2_pay5 (F := Ideal) (bb (n + 1)) (C n))
    (g : Fin 64) :
    C 9 (ix2 g 0) = Cert.Spec.graphCount (fun i => batch (ix2 (i 0) 0)) g := by
  rw [accCount_upto bb C hC0 hCs g 9 (by norm_num)]
  unfold Cert.Spec.graphCount
  exact sum_blocks (fun n => if (batch (ix2 n 0)).toInt = (g.val : ℤ) then Cert.Spec.one else 0)
    (fun t y => if (bb t (ix2 y 0)).toInt = (g.val : ℤ) then Cert.Spec.one else 0)
    (fun t y n ht hn => by rw [hbb t y n ht hn])

/-- The head's entry for graph g, once the two accumulators hold the graphs' row sums and node counts. -/
theorem head_of_pooled (A : Vec Ideal S64x128 .f32) (C : Vec Ideal S64x1 .f32)
    (hA : ∀ (g : Fin 64) (k : Fin 128), A (ix2 g k) = Cert.Spec.graphSum (fun i => batch (ix2 (i 0) 0)) h g k)
    (hC : ∀ g : Fin 64, C (ix2 g 0) = Cert.Spec.graphCount (fun i => batch (ix2 (i 0) 0)) g)
    (u : Vec Ideal S64x32 .f32) (wg : Vec Ideal S32x128 .f32) (bg2 : Vec Ideal S1x128 .f32)
    (whTop whBot : Vec Ideal S128x1 .f32) (bh2 : Vec Ideal S1x1 .f32) (wh : (⟨2, ![256, 1]⟩ : Shape).Idx → EReal)
    (hTop : ∀ k : Fin 128, whTop (ix2 k 0) = wh (ix2 (Fin.castAdd 128 k) 0))
    (hBot : ∀ k : Fin 128, whBot (ix2 k 0) = wh (ix2 (Fin.natAdd 128 k) 0)) (g : Fin 64) :
    Gen.k2_pay6 (F := Ideal) A C u wg bg2 whTop whBot bh2 (ix2 g 0)
      = Cert.Spec.head (fun i => batch (ix2 (i 0) 0)) h u wg (fun i => bg2 (ix2 0 (i 0))) wh (fun i => bh2 (ix2 0 (i 0))) (ix2 g 0) := by
  rw [pay6_apply]
  unfold Cert.Spec.head Cert.Spec.graphMean Cert.Spec.globalEmb
  simp only [hA, hC, hTop, hBot]

include hbb hhb in
/-- The whole stage: the head computed from the accumulators as the ten grid points leave them is the head of the
    reference mathematics. -/
theorem pool_head (A : ℕ → Vec Ideal S64x128 .f32) (C : ℕ → Vec Ideal S64x1 .f32)
    (hA0 : A 0 = Gen.k2_pay4 (F := Ideal) (bb 0) (hb 0) (Gen.k2_pay1 (F := Ideal)))
    (hAs : ∀ n, n + 1 < 10 → A (n + 1) = Gen.k2_pay4 (F := Ideal) (bb (n + 1)) (hb (n + 1)) (A n))
    (hC0 : C 0 = Gen.k2_pay5 (F := Ideal) (bb 0) (Gen.k2_pay2 (F := Ideal)))
    (hCs : ∀ n, n + 1 < 10 → C (n + 1) = Gen.k2_pay5 (F := Ideal) (bb (n + 1)) (C n))
    (u : Vec Ideal S64x32 .f32) (wg : Vec Ideal S32x128 .f32) (bg2 : Vec Ideal S1x128 .f32)
    (whTop whBot : Vec Ideal S128x1 .f32) (bh2 : Vec Ideal S1x1 .f32) (wh : (⟨2, ![256, 1]⟩ : Shape).Idx → EReal)
    (hTop : ∀ k : Fin 128, whTop (ix2 k 0) = wh (ix2 (Fin.castAdd 128 k) 0))
    (hBot : ∀ k : Fin 128, whBot (ix2 k 0) = wh (ix2 (Fin.natAdd 128 k) 0)) (g : Fin 64) :
    Gen.k2_pay6 (F := Ideal) (A 9) (C 9) u wg bg2 whTop whBot bh2 (ix2 g 0)
      = Cert.Spec.head (fun i => batch (ix2 (i 0) 0)) h u wg (fun i => bg2 (ix2 0 (i 0))) wh (fun i => bh2 (ix2 0 (i 0))) (ix2 g 0) :=
  head_of_pooled batch h (A 9) (C 9) (fun g k => accSum_final batch h bb hb hbb hhb A hA0 hAs g k)
    (fun g => accCount_final batch bb hbb C hC0 hCs g) u wg bg2 whTop whBot bh2 wh hTop hBot g

end Pool

end Cert.KernelIdeal.Val

end
-- ==== Proof.KI.Val2.lean ====
/-
  The array the pool-and-head stage leaves.

  The stage walks the 50000 nodes in ten blocks of 5000 rows; row y of block t is row 5000 t + y of the ids array and
  of the rows array, and the six small operands are read whole. Read through these blocks, the two carried buffers are
  the sequences of running per-graph row sums and node counts, so after the last block they hold every graph's row sum
  and node count. The output block, written back once at the last point and covering the whole 64 × 1 result, is then
  the reference's head of the arrays the stage found: each graph's mean row and its clamped affine feature branch through
  the two halves of the head weights, plus the bias.
-/
import proofs.«411664_j16982300688532_2_alg».proof.Proof.KI.R2
import proofs.«411664_j16982300688532_2_alg».proof.Proof.KI.Pool
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

section Region2
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## The blocks the body reads, off the arrays -/

/-- The ids block and the rows block of point t, at their literal types. -/
abbrev idsBlk (t : Fin cfg2.N) : Vec Ideal S5000x1 .i32 := iblk2 V c 0 t
abbrev rowsBlk (t : Fin cfg2.N) : Vec Ideal S5000x128 .f32 := iblk2 V c 1 t

/-- The index maps of the two moving windows, decided over the grid: block t of each starts at row 5000 t, column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row y of the ids block of point t is row 5000 t + y of the ids array. -/
theorem idsBlk_apply (t : Fin cfg2.N) (y : Fin 5000) (n : Fin 50000) (hn : n.val = 5000 * t.val + y.val) :
    idsBlk V c t (ix2 y 0) = V c main_v32 (ix2 n 0) := by
  obtain ⟨e0, e1, e2, e3⟩ := idx_facts t
  show ((cfg2.win 0).blk t).view.read (Elt Ideal) (V c (Pipeline.arrRef spec2 0)) (ix2 y 0) = _
  rw [View.read_apply]
  show V c main_v32 (((cfg2.win 0).blk t).view.emb (ix2 y 0)) = V c main_v32 (ix2 n 0)
  refine congrArg (V c main_v32) (funext fun a => Fin.ext ?_)
  match a with
  | ⟨0, _⟩ => show win2_0.index t (0 : Fin 2) * 5000 + 1 * y.val = n.val; omega
  | ⟨1, _⟩ => show win2_0.index t (1 : Fin 2) * 1 + 1 * 0 = 0; omega

/-- Entry (y, k) of the rows block of point t is entry (5000 t + y, k) of the rows array. -/
theorem rowsBlk_apply (t : Fin cfg2.N) (y : Fin 5000) (k : Fin 128) (n : Fin 50000) (hn : n.val = 5000 * t.val + y.val) :
    rowsBlk V c t (ix2 y k) = V c main_v31 (ix2 n k) := by
  obtain ⟨e0, e1, e2, e3⟩ := idx_facts t
  show ((cfg2.win 1).blk t).view.read (Elt Ideal) (V c (Pipeline.arrRef spec2 1)) (ix2 y k) = _
  rw [View.read_apply]
  show V c main_v31 (((cfg2.win 1).blk t).view.emb (ix2 y k)) = V c main_v31 (ix2 n k)
  refine congrArg (V c main_v31) (funext fun a => Fin.ext ?_)
  match a with
  | ⟨0, _⟩ => show win2_1.index t (0 : Fin 2) * 5000 + 1 * y.val = n.val; omega
  | ⟨1, _⟩ => show win2_1.index t (1 : Fin 2) * 128 + 1 * k.val = k.val; omega

/-- At the last point each of the six small operands' blocks is its whole array. -/
theorem blk2_2 : (iblk2 V c 2 Gen.t2_9 : Vec Ideal S64x32 .f32) = V c main_arg2 := by
  have hz' : (fun a => win2_2.index Gen.t2_9 a * main_arg2.ty.shape.size a) = fun _ => 0 := funext fun a => by fin_cases a <;> decide
  exact Memref.read_access_unit_zero (Elt Ideal) main_arg2 hz' (fun a => by rw [congrFun hz' a]; simp) (V c main_arg2)
theorem blk2_3 : (iblk2 V c 3 Gen.t2_9 : Vec Ideal S32x128 .f32) = V c main_arg10 := by
  have hz' : (fun a => win2_3.index Gen.t2_9 a * main_arg10.ty.shape.size a) = fun _ => 0 := funext fun a => by fin_cases a <;> decide
  exact Memref.read_access_unit_zero (Elt Ideal) main_arg10 hz' (fun a => by rw [congrFun hz' a]; simp) (V c main_arg10)
theorem blk2_4 : (iblk2 V c 4 Gen.t2_9 : Vec Ideal S1x128 .f32) = V c main_v35 := by
  have hz' : (fun a => win2_4.index Gen.t2_9 a * main_v35.ty.shape.size a) = fun _ => 0 := funext fun a => by fin_cases a <;> decide
  exact Memref.read_access_unit_zero (Elt Ideal) main_v35 hz' (fun a => by rw [congrFun hz' a]; simp) (V c main_v35)
theorem blk2_5 : (iblk2 V c 5 Gen.t2_9 : Vec Ideal S128x1 .f32) = V c main_v33 := by
  have hz' : (fun a => win2_5.index Gen.t2_9 a * main_v33.ty.shape.size a) = fun _ => 0 := funext fun a => by fin_cases a <;> decide
  exact Memref.read_access_unit_zero (Elt Ideal) main_v33 hz' (fun a => by rw [congrFun hz' a]; simp) (V c main_v33)
theorem blk2_6 : (iblk2 V c 6 Gen.t2_9 : Vec Ideal S128x1 .f32) = V c main_v34 := by
  have hz' : (fun a => win2_6.index Gen.t2_9 a * main_v34.ty.shape.size a) = fun _ => 0 := funext fun a => by fin_cases a <;> decide
  exact Memref.read_access_unit_zero (Elt Ideal) main_v34 hz' (fun a => by rw [congrFun hz' a]; simp) (V c main_v34)
theorem blk2_7 : (iblk2 V c 7 Gen.t2_9 : Vec Ideal S1x1 .f32) = V c main_v36 := by
  have hz' : (fun a => win2_7.index Gen.t2_9 a * main_v36.ty.shape.size a) = fun _ => 0 := funext fun a => by fin_cases a <;> decide
  exact Memref.read_access_unit_zero (Elt Ideal) main_v36 hz' (fun a => by rw [congrFun hz' a]; simp) (V c main_v36)

/-! ## The two carried buffers, point by point, as payloads of the blocks -/

theorem acc2_zero_fst (h : 0 < cfg2.N) :
    (acc2 V c 0 h).1 = k2_pay4 (F := Ideal) (idsBlk V c ⟨0, h⟩) (rowsBlk V c ⟨0, h⟩) (k2_pay1 (F := Ideal)) := by
  rw [acc2_zero V c h]
  dsimp only
  rw [View.canon_unit_zero hz]
  simp only [View.ld_unit_zero (S := S5000x1) hz, View.ld_unit_zero (S := S5000x128) hz, View.ld_unit_zero (S := S64x128) hz,
    View.canon_unit_zero (S := S64x128) hz]

theorem acc2_zero_snd (h : 0 < cfg2.N) :
    (acc2 V c 0 h).2 = k2_pay5 (F := Ideal) (idsBlk V c ⟨0, h⟩) (k2_pay2 (F := Ideal)) := by
  rw [acc2_zero V c h]
  dsimp only
  rw [View.canon_unit_zero hz]
  simp only [View.ld_unit_zero (S := S5000x1) hz, View.ld_unit_zero (S := S64x1) hz, View.canon_unit_zero (S := S64x1) hz]

theorem acc2_succ_fst (n : ℕ) (h : n + 1 < cfg2.N) :
    (acc2 V c (n + 1) h).1
      = k2_pay4 (F := Ideal) (idsBlk V c ⟨n + 1, h⟩) (rowsBlk V c ⟨n + 1, h⟩) (acc2 V c n (Nat.lt_of_succ_lt h)).1 := by
  rw [acc2_succ V c n h]
  dsimp only
  rw [View.canon_unit_zero hz]
  simp only [View.ld_unit_zero (S := S5000x1) hz, View.ld_unit_zero (S := S5000x128) hz, View.ld_unit_zero (S := S64x128) hz]

theorem acc2_succ_snd (n : ℕ) (h : n + 1 < cfg2.N) :
    (acc2 V c (n + 1) h).2 = k2_pay5 (F := Ideal) (idsBlk V c ⟨n + 1, h⟩) (acc2 V c n (Nat.lt_of_succ_lt h)).2 := by
  rw [acc2_succ V c n h]
  dsimp only
  rw [View.canon_unit_zero hz]
  simp only [View.ld_unit_zero (S := S5000x1) hz, View.ld_unit_zero (S := S64x1) hz]

/-- The blocks and the carried buffers as sequences over all naturals (anything past the grid). -/
def seqIds (t : ℕ) : Vec Ideal S5000x1 .i32 := if h : t < cfg2.N then idsBlk V c ⟨t, h⟩ else fun _ => (0 : BitVec 32)
def seqRows (t : ℕ) : Vec Ideal S5000x128 .f32 := if h : t < cfg2.N then rowsBlk V c ⟨t, h⟩ else fun _ => (0 : EReal)
def seqSum (n : ℕ) : Vec Ideal S64x128 .f32 := if h : n < cfg2.N then (acc2 V c n h).1 else fun _ => (0 : EReal)
def seqCnt (n : ℕ) : Vec Ideal S64x1 .f32 := if h : n < cfg2.N then (acc2 V c n h).2 else fun _ => (0 : EReal)

theorem lt_N {t : ℕ} (ht : t < 10) : t < cfg2.N := by rw [show cfg2.N = 10 from N_2]; exact ht

theorem seq_hbb (t : ℕ) (y : Fin 5000) (n : Fin 50000) (ht : t < 10) (hn : n.val = 5000 * t + y.val) :
    seqIds V c t (ix2 y 0) = V c main_v32 (ix2 n 0) := by
  unfold seqIds; rw [dif_pos (lt_N ht)]; exact idsBlk_apply V c ⟨t, lt_N ht⟩ y n hn

theorem seq_hhb (t : ℕ) (y : Fin 5000) (k : Fin 128) (n : Fin 50000) (ht : t < 10) (hn : n.val = 5000 * t + y.val) :
    seqRows V c t (ix2 y k) = V c main_v31 (ix2 n k) := by
  unfold seqRows; rw [dif_pos (lt_N ht)]; exact rowsBlk_apply V c ⟨t, lt_N ht⟩ y k n hn

theorem seq_hA0 : seqSum V c 0 = k2_pay4 (F := Ideal) (seqIds V c 0) (seqRows V c 0) (k2_pay1 (F := Ideal)) := by
  have h0 : 0 < cfg2.N := lt_N (by decide)
  unfold seqSum seqIds seqRows; simp only [dif_pos h0]; exact acc2_zero_fst V c h0

theorem seq_hAs (n : ℕ) (hn : n + 1 < 10) :
    seqSum V c (n + 1) = k2_pay4 (F := Ideal) (seqIds V c (n + 1)) (seqRows V c (n + 1)) (seqSum V c n) := by
  have h1 : n + 1 < cfg2.N := lt_N hn
  have h2 : n < cfg2.N := Nat.lt_of_succ_lt h1
  unfold seqSum seqIds seqRows; simp only [dif_pos h1, dif_pos h2]; exact acc2_succ_fst V c n h1

theorem seq_hC0 : seqCnt V c 0 = k2_pay5 (F := Ideal) (seqIds V c 0) (k2_pay2 (F := Ideal)) := by
  have h0 : 0 < cfg2.N := lt_N (by decide)
  unfold seqCnt seqIds; simp only [dif_pos h0]; exact acc2_zero_snd V c h0

theorem seq_hCs (n : ℕ) (hn : n + 1 < 10) :
    seqCnt V c (n + 1) = k2_pay5 (F := Ideal) (seqIds V c (n + 1)) (seqCnt V c n) := by
  have h1 : n + 1 < cfg2.N := lt_N hn
  have h2 : n < cfg2.N := Nat.lt_of_succ_lt h1
  unfold seqCnt seqIds; simp only [dif_pos h1, dif_pos h2]; exact acc2_succ_snd V c n h1

/-! ## The output block at the last point, and the array -/

variable (wh : (⟨2, ![256, 1]⟩ : Shape).Idx → EReal)
  (hTop : ∀ k : Fin 128, V c main_v33 (ix2 k 0) = wh (ix2 (Fin.castAdd 128 k) 0))
  (hBot : ∀ k : Fin 128, V c main_v34 (ix2 k 0) = wh (ix2 (Fin.natAdd 128 k) 0))

/-- The reference's head of the arrays as the region finds them. -/
abbrev headOf : (⟨2, ![64, 1]⟩ : Shape).Idx → EReal :=
  Cert.Spec.head (fun i => V c main_v32 (ix2 (i 0) 0)) (V c main_v31) (V c main_arg2) (V c main_arg10)
    (fun i => V c main_v35 (ix2 0 (i 0))) wh (fun i => V c main_v36 (ix2 0 (i 0)))

include hTop hBot in
/-- The output block the last point leaves is the head. -/
theorem out_last : ((dat2 V c).after 8 Gen.t2_9 : Vec Ideal S64x1 .f32) = headOf V c wh := by
  have h9 : 9 < cfg2.N := lt_N (by decide)
  rw [after2_8_last V c, View.canon_unit_zero hz]
  simp only [View.ld_unit_zero (S := S64x128) hz, View.ld_unit_zero (S := S64x1) hz, View.ld_unit_zero (S := S64x32) hz,
    View.ld_unit_zero (S := S32x128) hz, View.ld_unit_zero (S := S1x128) hz, View.ld_unit_zero (S := S128x1) hz,
    View.ld_unit_zero (S := S1x1) hz]
  rw [blk2_2, blk2_3, blk2_4, blk2_5, blk2_6, blk2_7]
  funext i
  obtain ⟨g, z, rfl⟩ : ∃ (g : Fin 64) (z : Fin 1), i = ix2 g z := ⟨i 0, i 1, eq_ix2 i⟩
  obtain rfl : z = 0 := Subsingleton.elim _ _
  have hS : seqSum V c 9 = (acc2 V c 9 h9).1 := by unfold seqSum; rw [dif_pos h9]
  have hC : seqCnt V c 9 = (acc2 V c 9 h9).2 := by unfold seqCnt; rw [dif_pos h9]
  rw [← hS, ← hC]
  exact pool_head (V c main_v32) (V c main_v31) (seqIds V c) (seqRows V c) (seq_hbb V c) (seq_hhb V c) (seqSum V c) (seqCnt V c)
    (seq_hA0 V c) (seq_hAs V c) (seq_hC0 V c) (seq_hCs V c) (V c main_arg2) (V c main_arg10) (V c main_v35) (V c main_v33) (V c main_v34)
    (V c main_v36) wh hTop hBot g

include hTop hBot in
/-- The one write-back, at the last point, writes the head: its block is the whole 64 × 1 array. -/
theorem flushed_eq (t : Fin cfg2.N) (hf : (cfg2.win 8).flush t = true) :
    (dat2 V c).flushed 8 t = ((cfg2.win 8).blk t).view.read (Elt Ideal) (headOf V c wh) := by
  have hN : cfg2.N = 10 := N_2
  have h9 : t.val = 9 := by have := (flush2_8 t).mp hf; have := t.isLt; omega
  obtain rfl : t = Gen.t2_9 := Fin.ext h9
  show (cfg2.win 8).cut (grid2.coords Gen.t2_9) ((dat2 V c).after 8 Gen.t2_9) = _
  rw [out_last V c wh hTop hBot]
  have hz' : (fun a => win2_8.index Gen.t2_9 a * main_v37.ty.shape.size a) = fun _ => 0 := funext fun a => by fin_cases a <;> decide
  exact (Memref.read_access_unit_zero (Elt Ideal) main_v37 hz' (fun a => by rw [congrFun hz' a]; simp) (headOf V c wh)).symm

include hTop hBot in
/-- The result array after the region is the reference's head of the arrays the region found. -/
theorem arr2 : (dat2 V c).arrAt 8 cfg2.N
      = Cert.Spec.head (fun i => V c main_v32 (ix2 (i 0) 0)) (V c main_v31) (V c main_arg2) (V c main_arg10)
          (fun i => V c main_v35 (ix2 0 (i 0))) wh (fun i => V c main_v36 (ix2 0 (i 0))) :=
  (dat2 V c).arrAt_eq_of_cover 8 (headOf V c wh) (flushed_eq V c wh hTop hBot) fun i =>
    ⟨Gen.t2_9, (flush2_8 Gen.t2_9).mpr rfl, by
      show i ∈ ((View.whole main_v37).slice (win2_8.rect Gen.t2_9)).set
      rw [View.set_slice_whole, Rect.mem_set_unit]
      intro a
      have h0 : (i 0 : Nat) < 64 := (i 0).isLt
      have h1 : (i 1 : Nat) < 1 := (i 1).isLt
      match a with
      | ⟨0, _⟩ => show win2_8.index Gen.t2_9 0 * win2_8.size 0 ≤ (i 0 : Nat) ∧ (i 0 : Nat) < win2_8.index Gen.t2_9 0 * win2_8.size 0 + win2_8.xsize (grid2.coords Gen.t2_9) 0
                  rw [show win2_8.index Gen.t2_9 0 * win2_8.size 0 = 0 from by decide +kernel, show win2_8.xsize (grid2.coords Gen.t2_9) 0 = 64 from by decide +kernel]; omega
      | ⟨1, _⟩ => show win2_8.index Gen.t2_9 1 * win2_8.size 1 ≤ (i 1 : Nat) ∧ (i 1 : Nat) < win2_8.index Gen.t2_9 1 * win2_8.size 1 + win2_8.xsize (grid2.coords Gen.t2_9) 1
                  rw [show win2_8.index Gen.t2_9 1 * win2_8.size 1 = 0 from by decide +kernel, show win2_8.xsize (grid2.coords Gen.t2_9) 1 = 1 from by decide +kernel]; omega⟩

end Region2

end Cert.KernelIdeal.Val

end
-- ==== Proof.KI.KVal.lean ====
/-
  The kernel program's result as the specification's head of the launch memory: region 2 leaves the head of the second
  layer; the second layer is what region 1 leaves, of the second neighbour sums of what region 0 leaves; the first
  layer is what region 0 leaves, of the first neighbour sums of the features. The host stretches only gather, sum over
  edges, reshape and slice.
-/
import proofs.«411664_j16982300688532_2_alg».proof.Proof.KI.HostVal
import proofs.«411664_j16982300688532_2_alg».proof.Proof.KI.Val0
import proofs.«411664_j16982300688532_2_alg».proof.Proof.KI.Val1
import proofs.«411664_j16982300688532_2_alg».proof.Proof.KI.Val2
import proofs.«411664_j16982300688532_2_alg».proof.Proof.KI.Frame

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The first layer over the launch memory. -/
def h0K : (⟨S50000x128, .f32⟩ : BufTy).Contents (Elt Ideal) :=
  Cert.Spec.layer0 (ssum0K m c) (m ((c : Thread nD τ).loc main_arg0)) (degK m c) (m ((c : Thread nD τ).loc main_arg4))
    (m ((c : Thread nD τ).loc main_arg5)) (m ((c : Thread nD τ).loc main_arg6))

/-- The second layer over the launch memory. -/
def h1K : (⟨S50000x128, .f32⟩ : BufTy).Contents (Elt Ideal) :=
  Cert.Spec.layer1 (ssum1K (h0K m c) m c) (h0K m c) (degK m c) (m ((c : Thread nD τ).loc main_arg7))
    (m ((c : Thread nD τ).loc main_arg8)) (m ((c : Thread nD τ).loc main_arg9))

/-- Region 0 leaves the first layer in its output array. -/
theorem W2_main_v19 : W2 m ρ c (Proc.devRef .tc main_v19) = h0K m c := by
  refine (W2_arr m ρ c 6).trans ?_
  rw [arr0 (V1 m ρ) c, V1_main_v17, V1_main_v7, V1_main_arg0, V1_main_arg4, V1_main_arg5, V1_main_v18_fun]
  rfl

/-- Region 1 leaves the second layer in its output array. -/
theorem W4_main_v31 : W4 m ρ c (Proc.devRef .tc main_v31) = h1K m c := by
  refine (W4_arr m ρ c 6).trans ?_
  rw [arr1 (V3 m ρ) c, V3_main_v29, V3_main_v19, V3_main_v7, V3_main_arg7, V3_main_arg8, V3_main_v30_fun, W2_main_v19]
  rfl

/-- Region 2 leaves the head of the second layer in the result array. -/
theorem kernel_val : (dat2 (V5 m ρ) c).arrAt 8 cfg2.N
    = Cert.Spec.head (m ((c : Thread nD τ).loc main_arg3)) (h1K m c) (m ((c : Thread nD τ).loc main_arg2))
        (m ((c : Thread nD τ).loc main_arg10)) (m ((c : Thread nD τ).loc main_arg11)) (m ((c : Thread nD τ).loc main_arg12))
        (m ((c : Thread nD τ).loc main_arg13)) := by
  rw [arr2 (V5 m ρ) c (m ((c : Thread nD τ).loc main_arg12)) (fun k => V5_main_v33_at m ρ c k 0) (fun k => V5_main_v34_at m ρ c k 0),
    V5_main_v32_fun, V5_main_v31, W4_main_v31, V5_main_arg2, V5_main_arg10, V5_main_v35_fun, V5_main_v36_fun]

end Cert.KernelIdeal.Val

end
-- ==== Proof.RefLayer0.lean ====
/-
  The first node layer of the reference, read entry by entry.

  The stage after the clamp at zero is, at row r and column j, the specification's first layer of the neighbour sums
  (the first segment sum), the node features, the in-degrees (the segment sum of ones) and the three weight arrays:
  the two products become sums over the 96 shared coordinates, the keep-dimension broadcasts read their column at
  row r, and the reduction over a row is its initial zero plus the sum over the 128 columns.
-/
import proofs.«411664_j16982300688532_2_alg».proof.Proof.Gen.ReferenceIdeal.Read
import proofs.«411664_j16982300688532_2_alg».proof.Proof.Spec

noncomputable section

open scoped BigOperators

namespace Cert.ReferenceIdeal.RefVal

open Cert.ReferenceIdeal Cert.ReferenceIdeal.Gen Cert.ReferenceIdeal.Read Idealize.ShloMosaic Idealize.ShloMosaic.ValueIdx

variable (x0 : (⟨S50000x96, .f32⟩ : BufTy).Contents (Elt Ideal)) (x1 : (⟨S2x800000, .i32⟩ : BufTy).Contents (Elt Ideal)) (x4 x5 : (⟨S96x128, .f32⟩ : BufTy).Contents (Elt Ideal)) (x6 : (⟨S128, .f32⟩ : BufTy).Contents (Elt Ideal))

/-! ### Where the layout stages read -/

theorem lidx22 (r : Fin 50000) (j : Fin 128) (k : Fin 96) : lidx_main_v22 (ix2 r j) k = ix2 r k := funext fun a => Fin.ext (by match a with | ⟨0, _⟩ => rfl | ⟨1, _⟩ => rfl)
theorem ridx22 (r : Fin 50000) (j : Fin 128) (k : Fin 96) : ridx_main_v22 (ix2 r j) k = ix2 k j := funext fun a => Fin.ext (by match a with | ⟨0, _⟩ => rfl | ⟨1, _⟩ => rfl)
theorem lidx23 (r : Fin 50000) (j : Fin 128) (k : Fin 96) : lidx_main_v23 (ix2 r j) k = ix2 r k := funext fun a => Fin.ext (by match a with | ⟨0, _⟩ => rfl | ⟨1, _⟩ => rfl)
theorem ridx23 (r : Fin 50000) (j : Fin 128) (k : Fin 96) : ridx_main_v23 (ix2 r j) k = ix2 k j := funext fun a => Fin.ext (by match a with | ⟨0, _⟩ => rfl | ⟨1, _⟩ => rfl)
theorem idx20 (r : Fin 50000) (k : Fin 96) : idx_main_v20 (ix2 r k) = ix2 r (0 : Fin 1) := funext fun a => Fin.ext (by match a with | ⟨0, _⟩ => rfl | ⟨1, _⟩ => rfl)
theorem idx2526 (r : Fin 50000) (j : Fin 128) : idx_main_v25 (idx_main_v26 (ix2 r j)) = ix1 j := funext fun a => Fin.ext (by match a with | ⟨0, _⟩ => rfl)
theorem idx31 (r : Fin 50000) (j : Fin 128) : idx_main_v31 (ix2 r j) = ix2 r (0 : Fin 1) := funext fun a => Fin.ext (by match a with | ⟨0, _⟩ => rfl | ⟨1, _⟩ => rfl)
theorem idxNorm0 (r : Fin 50000) (k : Fin 128) :
    idx_main_call0_v1 (idx_main_call0_v2 (ix2 r (0 : Fin 1))) k = ix2 r k := funext fun a => Fin.ext (by match a with | ⟨0, _⟩ => rfl | ⟨1, _⟩ => rfl)

/-! ### The layer -/

/-- Before normalisation: the mean of the neighbours through the left weights, the node's own row through the right
    weights, plus the bias. -/
theorem pre0_apply (r : Fin 50000) (j : Fin 128) :
    val_main_v27 (F := Ideal) x0 x1 x4 x5 x6 (ix2 r j)
      = Cert.Spec.pre 96 (val_main_v13 (F := Ideal) x0 x1) x0 (val_main_v17 (F := Ideal) x1) x4 x5 x6 r j := by
  unfold Cert.Spec.pre
  rw [val_main_v27_apply, val_main_v24_apply, val_main_v22_apply, val_main_v23_apply, val_main_v26_apply,
    val_main_v25_apply, idx2526]
  refine congrArg₂ (· + ·) (congrArg₂ (· + ·) (Finset.sum_congr rfl fun k _ => ?_) (Finset.sum_congr rfl fun k _ => ?_)) rfl
  · rw [lidx22, ridx22, val_main_v21_apply, val_main_v20_apply, idx20, val_main_v19_apply, val_main_v18_apply,
      val_main_cst_3_apply]
    rfl
  · rw [lidx23, ridx23]

/-- The Euclidean norm of a row: the reduction starts from zero. -/
theorem norm0_apply (r : Fin 50000) :
    val_main_v28 (F := Ideal) x0 x1 x4 x5 x6 (ix2 r (0 : Fin 1))
      = Cert.Spec.rowNorm 96 (val_main_v13 (F := Ideal) x0 x1) x0 (val_main_v17 (F := Ideal) x1) x4 x5 x6 r := by
  unfold Cert.Spec.rowNorm
  rw [val_main_v28_apply, val_main_call0_v2_apply, val_main_call0_v1_apply, val_main_call0_cst_apply,
    Ideal.hostUnary_sqrt_def, Ideal.ofBits_def, Ideal.ofBits_zero_f32, zero_add]
  refine congrArg Ideal.sqrt (Finset.sum_congr rfl fun k _ => ?_)
  rw [idxNorm0, val_main_call0_v0_apply, pre0_apply]
  rfl

/-- The first layer of the reference is the specification's, of the first neighbour sums and the in-degrees. -/
theorem layer0_val :
    val_main_v33 (F := Ideal) x0 x1 x4 x5 x6
      = Cert.Spec.layer0 (val_main_v13 (F := Ideal) x0 x1) x0 (val_main_v17 (F := Ideal) x1) x4 x5 x6 := by
  funext i
  obtain ⟨r, j, rfl⟩ : ∃ (r : Fin 50000) (j : Fin 128), i = ix2 r j := ⟨i 0, i 1, eq_ix2 i⟩
  unfold Cert.Spec.layer0 Cert.Spec.normed
  rw [val_main_v33_apply, val_main_v32_apply, val_main_v31_apply, val_main_v30_apply, val_main_v29_apply,
    val_main_cst_4_apply, val_main_call1_v0_apply, val_main_call1_cst_apply, idx31, pre0_apply, norm0_apply]
  rfl

end Cert.ReferenceIdeal.RefVal

end
-- ==== Proof.RefLayer1.lean ====
/-
  The second node layer of the reference, read entry by entry.

  The stage after the second normalisation is, at row r and column j, the specification's second layer of the second
  neighbour sums (the segment sum of the gathered first-layer rows), the first layer itself, the in-degrees and the
  three weight arrays of the second round. The reading is the first layer's with 128 shared coordinates and no clamp.
-/
import proofs.«411664_j16982300688532_2_alg».proof.Proof.Gen.ReferenceIdeal.Read
import proofs.«411664_j16982300688532_2_alg».proof.Proof.Spec

noncomputable section

open scoped BigOperators

namespace Cert.ReferenceIdeal.RefVal

open Cert.ReferenceIdeal Cert.ReferenceIdeal.Gen Cert.ReferenceIdeal.Read Idealize.ShloMosaic Idealize.ShloMosaic.ValueIdx

variable (x0 : (⟨S50000x96, .f32⟩ : BufTy).Contents (Elt Ideal)) (x1 : (⟨S2x800000, .i32⟩ : BufTy).Contents (Elt Ideal)) (x4 x5 : (⟨S96x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))

/-! ### Where the layout stages read -/

theorem lidx52 (r : Fin 50000) (j : Fin 128) (k : Fin 128) : lidx_main_v52 (ix2 r j) k = ix2 r k := funext fun a => Fin.ext (by match a with | ⟨0, _⟩ => rfl | ⟨1, _⟩ => rfl)
theorem ridx52 (r : Fin 50000) (j : Fin 128) (k : Fin 128) : ridx_main_v52 (ix2 r j) k = ix2 k j := funext fun a => Fin.ext (by match a with | ⟨0, _⟩ => rfl | ⟨1, _⟩ => rfl)
theorem lidx53 (r : Fin 50000) (j : Fin 128) (k : Fin 128) : lidx_main_v53 (ix2 r j) k = ix2 r k := funext fun a => Fin.ext (by match a with | ⟨0, _⟩ => rfl | ⟨1, _⟩ => rfl)
theorem ridx53 (r : Fin 50000) (j : Fin 128) (k : Fin 128) : ridx_main_v53 (ix2 r j) k = ix2 k j := funext fun a => Fin.ext (by match a with | ⟨0, _⟩ => rfl | ⟨1, _⟩ => rfl)
theorem idx50 (r : Fin 50000) (k : Fin 128) : idx_main_v50 (ix2 r k) = ix2 r (0 : Fin 1) := funext fun a => Fin.ext (by match a with | ⟨0, _⟩ => rfl | ⟨1, _⟩ => rfl)
theorem idx5556 (r : Fin 50000) (j : Fin 128) : idx_main_v55 (idx_main_v56 (ix2 r j)) = ix1 j := funext fun a => Fin.ext (by match a with | ⟨0, _⟩ => rfl)
theorem idx61 (r : Fin 50000) (j : Fin 128) : idx_main_v61 (ix2 r j) = ix2 r (0 : Fin 1) := funext fun a => Fin.ext (by match a with | ⟨0, _⟩ => rfl | ⟨1, _⟩ => rfl)
theorem idxNorm1 (r : Fin 50000) (k : Fin 128) :
    idx_main_call2_v1 (idx_main_call2_v2 (ix2 r (0 : Fin 1))) k = ix2 r k := funext fun a => Fin.ext (by match a with | ⟨0, _⟩ => rfl | ⟨1, _⟩ => rfl)

/-! ### The layer -/

/-- Before normalisation: the mean of the neighbours' first-layer rows through the left weights, the node's own
    first-layer row through the right weights, plus the bias. -/
theorem pre1_apply (r : Fin 50000) (j : Fin 128) :
    val_main_v57 (F := Ideal) x0 x1 x4 x5 x6 x7 x8 x9 (ix2 r j)
      = Cert.Spec.pre 128 (val_main_v43 (F := Ideal) x0 x1 x4 x5 x6) (val_main_v33 (F := Ideal) x0 x1 x4 x5 x6)
          (val_main_v47 (F := Ideal) x1) x7 x8 x9 r j := by
  unfold Cert.Spec.pre
  rw [val_main_v57_apply, val_main_v54_apply, val_main_v52_apply, val_main_v53_apply, val_main_v56_apply,
    val_main_v55_apply, idx5556]
  refine congrArg₂ (· + ·) (congrArg₂ (· + ·) (Finset.sum_congr rfl fun k _ => ?_) (Finset.sum_congr rfl fun k _ => ?_)) rfl
  · rw [lidx52, ridx52, val_main_v51_apply, val_main_v50_apply, idx50, val_main_v49_apply, val_main_v48_apply,
      val_main_cst_10_apply]
    rfl
  · rw [lidx53, ridx53]

/-- The Euclidean norm of a row: the reduction starts from zero. -/
theorem norm1_apply (r : Fin 50000) :
    val_main_v58 (F := Ideal) x0 x1 x4 x5 x6 x7 x8 x9 (ix2 r (0 : Fin 1))
      = Cert.Spec.rowNorm 128 (val_main_v43 (F := Ideal) x0 x1 x4 x5 x6) (val_main_v33 (F := Ideal) x0 x1 x4 x5 x6)
          (val_main_v47 (F := Ideal) x1) x7 x8 x9 r := by
  unfold Cert.Spec.rowNorm
  rw [val_main_v58_apply, val_main_call2_v2_apply, val_main_call2_v1_apply, val_main_call2_cst_apply,
    Ideal.hostUnary_sqrt_def, Ideal.ofBits_def, Ideal.ofBits_zero_f32, zero_add]
  refine congrArg Ideal.sqrt (Finset.sum_congr rfl fun k _ => ?_)
  rw [idxNorm1, val_main_call2_v0_apply, pre1_apply]
  rfl

/-- The second layer of the reference is the specification's, of the second neighbour sums, the first layer and the
    in-degrees. -/
theorem layer1_val :
    val_main_v62 (F := Ideal) x0 x1 x4 x5 x6 x7 x8 x9
      = Cert.Spec.layer1 (val_main_v43 (F := Ideal) x0 x1 x4 x5 x6) (val_main_v33 (F := Ideal) x0 x1 x4 x5 x6)
          (val_main_v47 (F := Ideal) x1) x7 x8 x9 := by
  funext i
  obtain ⟨r, j, rfl⟩ : ∃ (r : Fin 50000) (j : Fin 128), i = ix2 r j := ⟨i 0, i 1, eq_ix2 i⟩
  unfold Cert.Spec.layer1 Cert.Spec.normed
  rw [val_main_v62_apply, val_main_v61_apply, val_main_v60_apply, val_main_v59_apply, val_main_cst_11_apply, idx61,
    pre1_apply, norm1_apply]
  rfl

end Cert.ReferenceIdeal.RefVal

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.RefHead.lean ====
/-
  The pooling and the head of the reference, read entry by entry.

  The two segment sums over the graph numbers give, for graph g, the sum of its nodes' rows and the number of its
  nodes; their quotient (the count floored at one) is the mean row. The feature branch is an affine map clamped at
  zero. The head's product over the 256 joined columns splits at 128 into the mean row through the top half of the
  head weights and the feature branch through the bottom half.
-/
import proofs.«411664_j16982300688532_2_alg».proof.Proof.Gen.ReferenceIdeal.Read
import proofs.«411664_j16982300688532_2_alg».proof.Proof.Spec
import proofs.«411664_j16982300688532_2_alg».proof.Proof.LibSegment

noncomputable section

open scoped BigOperators

namespace Cert.ReferenceIdeal.RefVal

open Cert.ReferenceIdeal Cert.ReferenceIdeal.Gen Cert.ReferenceIdeal.Read Idealize.ShloMosaic Idealize.ShloMosaic.ValueIdx
  Idealize.ShloMosaic.StableHlo.Predicate

variable (x0 : (⟨S50000x96, .f32⟩ : BufTy).Contents (Elt Ideal)) (x1 : (⟨S2x800000, .i32⟩ : BufTy).Contents (Elt Ideal)) (x2 : (⟨S64x32, .f32⟩ : BufTy).Contents (Elt Ideal)) (x3 : (⟨S50000, .i32⟩ : BufTy).Contents (Elt Ideal)) (x4 x5 : (⟨S96x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S256x1, .f32⟩ : BufTy).Contents (Elt Ideal)) (x13 : (⟨S1, .f32⟩ : BufTy).Contents (Elt Ideal))

/-! ### Where the layout stages read -/

theorem idx64 (n : Fin 50000) : idx_main_v64 (ixP n) = ix1 n := funext fun a => Fin.ext (by match a with | ⟨0, _⟩ => rfl)
theorem idx68 (n : Fin 50000) : idx_main_v68 (ixP n) = ix1 n := funext fun a => Fin.ext (by match a with | ⟨0, _⟩ => rfl)
theorem idx72 (g : Fin 64) (k : Fin 128) : idx_main_v72 (ix2 g k) = ix2 g (0 : Fin 1) := funext fun a => Fin.ext (by match a with | ⟨0, _⟩ => rfl | ⟨1, _⟩ => rfl)
theorem lidx74 (g : Fin 64) (k : Fin 128) (q : Fin 32) : lidx_main_v74 (ix2 g k) q = ix2 g q := funext fun a => Fin.ext (by match a with | ⟨0, _⟩ => rfl | ⟨1, _⟩ => rfl)
theorem ridx74 (g : Fin 64) (k : Fin 128) (q : Fin 32) : ridx_main_v74 (ix2 g k) q = ix2 q k := funext fun a => Fin.ext (by match a with | ⟨0, _⟩ => rfl | ⟨1, _⟩ => rfl)
theorem idx7576 (g : Fin 64) (k : Fin 128) : idx_main_v75 (idx_main_v76 (ix2 g k)) = ix1 k := funext fun a => Fin.ext (by match a with | ⟨0, _⟩ => rfl)
theorem idx8182 (g : Fin 64) : idx_main_v81 (idx_main_v82 (ix2 g (0 : Fin 1))) = ix1 (0 : Fin 1) := funext fun a => Fin.ext (by match a with | ⟨0, _⟩ => rfl)
theorem ridx80 (g : Fin 64) (k : Fin 256) : ridx_main_v80 (ix2 g (0 : Fin 1)) k = ix2 k (0 : Fin 1) := funext fun a => Fin.ext (by match a with | ⟨0, _⟩ => rfl | ⟨1, _⟩ => rfl)

/-! ### The pooling -/

/-- The sum of the rows of graph g, column k. -/
theorem gsum_apply (g : Fin 64) (k : Fin 128) :
    val_main_v65 (F := Ideal) x0 x1 x3 x4 x5 x6 x7 x8 x9 (ix2 g k)
      = Cert.Spec.graphSum x3 (val_main_v62 (F := Ideal) x0 x1 x4 x5 x6 x7 x8 x9) g k := by
  unfold val_main_v65
  generalize val_main_v62 (F := Ideal) x0 x1 x4 x5 x6 x7 x8 x9 = H
  refine (Cert.LibSegment.scatterAdd_seg2_apply scatter_S64x128_S50000x1_S50000x128_1_0_0_1_wf
    (val_main_v63 (F := Ideal)) (val_main_v64 (F := Ideal) x3) H g k).trans ?_
  rw [val_main_v63_apply, val_main_cst_12_apply, Ideal.ofBits_def, Ideal.ofBits_zero_f32, zero_add]
  unfold Cert.Spec.graphSum
  refine Finset.sum_congr rfl fun n _ => ?_
  rw [val_main_v64_apply, idx64]

/-- The number of nodes of graph g. -/
theorem gcount_apply (g : Fin 64) :
    val_main_v69 (F := Ideal) x3 (ix2 g (0 : Fin 1)) = Cert.Spec.graphCount x3 g := by
  unfold val_main_v69
  refine (Cert.LibSegment.scatterAdd_seg2_apply scatter_S64x1_S50000x1_S50000x1_1_0_0_1_wf
    (val_main_v67 (F := Ideal)) (val_main_v68 (F := Ideal) x3) (val_main_v66 (F := Ideal)) g (0 : Fin 1)).trans ?_
  rw [val_main_v67_apply, val_main_cst_14_apply, Ideal.ofBits_def, Ideal.ofBits_zero_f32, zero_add]
  unfold Cert.Spec.graphCount
  refine Finset.sum_congr rfl fun n _ => ?_
  rw [val_main_v68_apply, idx68, val_main_v66_apply, val_main_cst_13_apply, Ideal.ofBits_def]

/-- The mean row of graph g. -/
theorem mean_apply (g : Fin 64) (k : Fin 128) :
    val_main_v73 (F := Ideal) x0 x1 x3 x4 x5 x6 x7 x8 x9 (ix2 g k)
      = Cert.Spec.graphMean x3 (val_main_v62 (F := Ideal) x0 x1 x4 x5 x6 x7 x8 x9) g k := by
  unfold Cert.Spec.graphMean
  rw [val_main_v73_apply, val_main_v72_apply, val_main_v71_apply, val_main_v70_apply, val_main_cst_15_apply, idx72,
    gsum_apply, gcount_apply]
  rfl

/-! ### The feature branch -/

theorem emb_apply (g : Fin 64) (k : Fin 128) :
    val_main_v78 (F := Ideal) x2 x10 x11 (ix2 g k) = Cert.Spec.globalEmb x2 x10 x11 g k := by
  unfold Cert.Spec.globalEmb
  rw [val_main_v78_apply, val_main_v77_apply, val_main_v74_apply, val_main_v76_apply, val_main_v75_apply,
    val_main_call3_v0_apply, val_main_call3_cst_apply, idx7576, Ideal.maximumf_def, Ideal.addf_def, Ideal.ofBits_def]
  refine congrArg₂ max (congrArg₂ (· + ·) (Finset.sum_congr rfl fun q _ => ?_) rfl) rfl
  rw [lidx74, ridx74]

/-! ### The two branches side by side -/

/-- A column below 128 of the joined array is the mean row's. -/
theorem cat_left (g : Fin 64) (k : Fin 128) :
    val_main_v79 (F := Ideal) x0 x1 x2 x3 x4 x5 x6 x7 x8 x9 x10 x11 (lidx_main_v80 (ix2 g (0 : Fin 1)) (Fin.castAdd 128 k))
      = val_main_v73 (F := Ideal) x0 x1 x3 x4 x5 x6 x7 x8 x9 (ix2 g k) := by
  unfold val_main_v79
  exact concatenate_pair_apply_left (1 : Fin S64x256.rank) _ _ concatenates_S64x128_S64x128_S64x256_d1 _ rfl (ix2 g k)
    (fun b => by match b with | ⟨0, _⟩ => rfl | ⟨1, _⟩ => rfl)

/-- A column from 128 on of the joined array is the feature branch's, 128 less. -/
theorem cat_right (g : Fin 64) (k : Fin 128) :
    val_main_v79 (F := Ideal) x0 x1 x2 x3 x4 x5 x6 x7 x8 x9 x10 x11 (lidx_main_v80 (ix2 g (0 : Fin 1)) (Fin.natAdd 128 k))
      = val_main_v78 (F := Ideal) x2 x10 x11 (ix2 g k) := by
  unfold val_main_v79
  exact concatenate_pair_apply_right (1 : Fin S64x256.rank) _ _ concatenates_S64x128_S64x128_S64x256_d1 _ rfl rfl (ix2 g k)
    (fun b hb => by
      match b, hb with
      | ⟨0, _⟩, _ => rfl
      | ⟨1, _⟩, hb => exact absurd rfl hb)
    (by show k.val + 128 = 128 + k.val; omega)

/-! ### The head -/

/-- The reference's result is the specification's head of the second layer. -/
theorem head_val :
    val_main_v83 (F := Ideal) x0 x1 x2 x3 x4 x5 x6 x7 x8 x9 x10 x11 x12 x13
      = Cert.Spec.head x3 (val_main_v62 (F := Ideal) x0 x1 x4 x5 x6 x7 x8 x9) x2 x10 x11 x12 x13 := by
  funext i
  obtain ⟨g, z, rfl⟩ : ∃ (g : Fin 64) (z : Fin 1), i = ix2 g z := ⟨i 0, i 1, eq_ix2 i⟩
  obtain rfl : z = 0 := Subsingleton.elim _ _
  unfold Cert.Spec.head
  have hs : ∀ f : Fin (128 + 128) → EReal,
      ∑ k : Fin 256, f k = ∑ k : Fin 128, f (Fin.castAdd 128 k) + ∑ k : Fin 128, f (Fin.natAdd 128 k) :=
    fun f => Fin.sum_univ_add f
  rw [val_main_v83_apply, val_main_v80_apply, val_main_v82_apply, val_main_v81_apply, idx8182, hs, Ideal.addf_def]
  refine congrArg₂ (· + ·) (congrArg₂ (· + ·) (Finset.sum_congr rfl fun k _ => ?_) (Finset.sum_congr rfl fun k _ => ?_)) rfl
  · rw [cat_left, mean_apply, ridx80]
  · rw [cat_right, emb_apply, ridx80]

end Cert.ReferenceIdeal.RefVal

end
-- ==== Proof.RefVal.lean ====
/-
  The reference's run, stage by stage, is the specification.

  The named arrays are the reference's own composed terms of its arguments: the two index columns the gathers and the
  segment sums read, the in-degrees, the two neighbour sums and the two node layers. Each layer is the specification's
  layer of the arrays before it, and the result is the specification's head of the second layer.
-/
import proofs.«411664_j16982300688532_2_alg».proof.Proof.Gen.ReferenceIdeal.Run
import proofs.«411664_j16982300688532_2_alg».proof.Proof.Gen.ReferenceIdeal.Read
import proofs.«411664_j16982300688532_2_alg».proof.Proof.Spec
import proofs.«411664_j16982300688532_2_alg».proof.Proof.RefLayer0
import proofs.«411664_j16982300688532_2_alg».proof.Proof.RefLayer1
import proofs.«411664_j16982300688532_2_alg».proof.Proof.RefHead

noncomputable section

namespace Cert.ReferenceIdeal.RefVal

open Cert.ReferenceIdeal Cert.ReferenceIdeal.Gen Idealize.ShloMosaic Idealize.ShloMosaic.TcCoe Idealize.SL.Sem Idealize.ShloMosaic.StableHlo

section Terms
variable {F : FTy → Type} [FloatOps F]

/-- The source-node column the gathers read: row 0 of the edge array, a negative entry wrapped by the node count. -/
def srcCol (m : (ℓ : Loc nD τ sig) → Buf (Elt F) ℓ) (c : Dev nD) : Buf (Elt F) ((c.tc : Thread nD τ).loc main_v9) :=
  broadcastInDim S800000x1 ![0] bcast_S800000_S800000x1_0 (select (cmpi .slt (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg1)) slices_S2x800000_S1x800000_0_0) shapeCasts_S1x800000_S800000))

/-- The target-node column the segment sums read: row 1 of the edge array. -/
def dstCol (m : (ℓ : Loc nD τ sig) → Buf (Elt F) ℓ) (c : Dev nD) : Buf (Elt F) ((c.tc : Thread nD τ).loc main_v12) :=
  broadcastInDim S800000x1 ![0] bcast_S800000_S800000x1_0 (shapeCast _ (extractStridedSlice S1x800000 ![1, 0] (m ((c.tc : Thread nD τ).loc main_arg1)) slices_S2x800000_S1x800000_1_0) shapeCasts_S1x800000_S800000)

/-- The in-degrees: the segment sum of ones over the target nodes. -/
def deg (m : (ℓ : Loc nD τ sig) → Buf (Elt F) ℓ) (c : Dev nD) : Buf (Elt F) ((c.tc : Thread nD τ).loc main_v17) :=
  Host.scatterAdd scatter_S50000x1_S800000x1_S800000x1_1_0_0_1 (broadcastInDim S50000x1 ![] bcast_S_S50000x1 (constant S_ .f32 0x00000000#32)) (dstCol m c) (broadcastInDim S800000x1 ![] bcast_S_S800000x1 (constant S_ .f32 0x3F800000#32))

/-- The first neighbour sums: the segment sum over the target nodes of the source nodes' feature rows. -/
def ssum0 (m : (ℓ : Loc nD τ sig) → Buf (Elt F) ℓ) (c : Dev nD) : Buf (Elt F) ((c.tc : Thread nD τ).loc main_v13) :=
  Host.scatterAdd scatter_S50000x96_S800000x1_S800000x96_1_0_0_1 (broadcastInDim S50000x96 ![] bcast_S_S50000x96 (constant S_ .f32 0x00000000#32)) (dstCol m c) (Host.gather gather_S50000x96_S800000x1_S800000x96_1_0_n_n_0_1_196 (m ((c.tc : Thread nD τ).loc main_arg0)) (srcCol m c))

/-- The first node layer. -/
def h0 (m : (ℓ : Loc nD τ sig) → Buf (Elt F) ℓ) (c : Dev nD) : Buf (Elt F) ((c.tc : Thread nD τ).loc main_v33) :=
  maximumf (Host.divf (addf (addf (Host.dotGeneral dot_S50000x96_S96x128_S50000x128_1_0_0_1_n_n none (Host.divf (ssum0 m c) (broadcastInDim S50000x96 ![0, 1] bcast_S50000x1_S50000x96_0_1 (maximumf (deg m c) (broadcastInDim S50000x1 ![] bcast_S_S50000x1 (constant S_ .f32 0x3F800000#32))))) (m ((c.tc : Thread nD τ).loc main_arg4))) (Host.dotGeneral dot_S50000x96_S96x128_S50000x128_1_0_0_1_n_n none (m ((c.tc : Thread nD τ).loc main_arg0)) (m ((c.tc : Thread nD τ).loc main_arg5)))) (broadcastInDim S50000x128 ![0, 1] bcast_S1x128_S50000x128_0_1 (broadcastInDim S1x128 ![1] bcast_S128_S1x128_1 (m ((c.tc : Thread nD τ).loc main_arg6))))) (broadcastInDim S50000x128 ![0, 1] bcast_S50000x1_S50000x128_0_1 (maximumf (Host.sqrt (broadcastInDim S50000x1 ![0] bcast_S50000_S50000x1_0 (Host.reduceAdd (mulf (addf (addf (Host.dotGeneral dot_S50000x96_S96x128_S50000x128_1_0_0_1_n_n none (Host.divf (ssum0 m c) (broadcastInDim S50000x96 ![0, 1] bcast_S50000x1_S50000x96_0_1 (maximumf (deg m c) (broadcastInDim S50000x1 ![] bcast_S_S50000x1 (constant S_ .f32 0x3F800000#32))))) (m ((c.tc : Thread nD τ).loc main_arg4))) (Host.dotGeneral dot_S50000x96_S96x128_S50000x128_1_0_0_1_n_n none (m ((c.tc : Thread nD τ).loc main_arg0)) (m ((c.tc : Thread nD τ).loc main_arg5)))) (broadcastInDim S50000x128 ![0, 1] bcast_S1x128_S50000x128_0_1 (broadcastInDim S1x128 ![1] bcast_S128_S1x128_1 (m ((c.tc : Thread nD τ).loc main_arg6))))) (addf (addf (Host.dotGeneral dot_S50000x96_S96x128_S50000x128_1_0_0_1_n_n none (Host.divf (ssum0 m c) (broadcastInDim S50000x96 ![0, 1] bcast_S50000x1_S50000x96_0_1 (maximumf (deg m c) (broadcastInDim S50000x1 ![] bcast_S_S50000x1 (constant S_ .f32 0x3F800000#32))))) (m ((c.tc : Thread nD τ).loc main_arg4))) (Host.dotGeneral dot_S50000x96_S96x128_S50000x128_1_0_0_1_n_n none (m ((c.tc : Thread nD τ).loc main_arg0)) (m ((c.tc : Thread nD τ).loc main_arg5)))) (broadcastInDim S50000x128 ![0, 1] bcast_S1x128_S50000x128_0_1 (broadcastInDim S1x128 ![1] bcast_S128_S1x128_1 (m ((c.tc : Thread nD τ).loc main_arg6)))))) (constant S_ .f32 0x00000000#32) reducesTo_S50000x128_S50000_d1 h_S_))) (broadcastInDim S50000x1 ![] bcast_S_S50000x1 (constant S_ .f32 0x2B8CBCCC#32))))) (broadcastInDim S50000x128 ![] bcast_S_S50000x128 (constant S_ .f32 0x00000000#32))

/-- The second neighbour sums: the segment sum over the target nodes of the source nodes' first-layer rows. -/
def ssum1 (m : (ℓ : Loc nD τ sig) → Buf (Elt F) ℓ) (c : Dev nD) : Buf (Elt F) ((c.tc : Thread nD τ).loc main_v43) :=
  Host.scatterAdd scatter_S50000x128_S800000x1_S800000x128_1_0_0_1 (broadcastInDim S50000x128 ![] bcast_S_S50000x128 (constant S_ .f32 0x00000000#32)) (dstCol m c) (Host.gather gather_S50000x128_S800000x1_S800000x128_1_0_n_n_0_1_1128 (h0 m c) (srcCol m c))

/-- The second node layer. -/
def h1 (m : (ℓ : Loc nD τ sig) → Buf (Elt F) ℓ) (c : Dev nD) : Buf (Elt F) ((c.tc : Thread nD τ).loc main_v62) :=
  Host.divf (addf (addf (Host.dotGeneral dot_S50000x128_S128x128_S50000x128_1_0_0_1_n_n none (Host.divf (ssum1 m c) (broadcastInDim S50000x128 ![0, 1] bcast_S50000x1_S50000x128_0_1 (maximumf (deg m c) (broadcastInDim S50000x1 ![] bcast_S_S50000x1 (constant S_ .f32 0x3F800000#32))))) (m ((c.tc : Thread nD τ).loc main_arg7))) (Host.dotGeneral dot_S50000x128_S128x128_S50000x128_1_0_0_1_n_n none (h0 m c) (m ((c.tc : Thread nD τ).loc main_arg8)))) (broadcastInDim S50000x128 ![0, 1] bcast_S1x128_S50000x128_0_1 (broadcastInDim S1x128 ![1] bcast_S128_S1x128_1 (m ((c.tc : Thread nD τ).loc main_arg9))))) (broadcastInDim S50000x128 ![0, 1] bcast_S50000x1_S50000x128_0_1 (maximumf (Host.sqrt (broadcastInDim S50000x1 ![0] bcast_S50000_S50000x1_0 (Host.reduceAdd (mulf (addf (addf (Host.dotGeneral dot_S50000x128_S128x128_S50000x128_1_0_0_1_n_n none (Host.divf (ssum1 m c) (broadcastInDim S50000x128 ![0, 1] bcast_S50000x1_S50000x128_0_1 (maximumf (deg m c) (broadcastInDim S50000x1 ![] bcast_S_S50000x1 (constant S_ .f32 0x3F800000#32))))) (m ((c.tc : Thread nD τ).loc main_arg7))) (Host.dotGeneral dot_S50000x128_S128x128_S50000x128_1_0_0_1_n_n none (h0 m c) (m ((c.tc : Thread nD τ).loc main_arg8)))) (broadcastInDim S50000x128 ![0, 1] bcast_S1x128_S50000x128_0_1 (broadcastInDim S1x128 ![1] bcast_S128_S1x128_1 (m ((c.tc : Thread nD τ).loc main_arg9))))) (addf (addf (Host.dotGeneral dot_S50000x128_S128x128_S50000x128_1_0_0_1_n_n none (Host.divf (ssum1 m c) (broadcastInDim S50000x128 ![0, 1] bcast_S50000x1_S50000x128_0_1 (maximumf (deg m c) (broadcastInDim S50000x1 ![] bcast_S_S50000x1 (constant S_ .f32 0x3F800000#32))))) (m ((c.tc : Thread nD τ).loc main_arg7))) (Host.dotGeneral dot_S50000x128_S128x128_S50000x128_1_0_0_1_n_n none (h0 m c) (m ((c.tc : Thread nD τ).loc main_arg8)))) (broadcastInDim S50000x128 ![0, 1] bcast_S1x128_S50000x128_0_1 (broadcastInDim S1x128 ![1] bcast_S128_S1x128_1 (m ((c.tc : Thread nD τ).loc main_arg9)))))) (constant S_ .f32 0x00000000#32) reducesTo_S50000x128_S50000_d1 h_S_))) (broadcastInDim S50000x1 ![] bcast_S_S50000x1 (constant S_ .f32 0x2B8CBCCC#32))))

/-- The run's result, spelt over the named arrays. -/
theorem res_eq (m : (ℓ : Loc nD τ sig) → Buf (Elt F) ℓ) (c : Dev nD) :
    Cert.ReferenceIdeal.Value.res_main_v83 (F := F) m c =
      addf (Host.dotGeneral dot_S64x256_S256x1_S64x1_1_0_0_1_n_n none (concatenate S64x256 1 [⟨S64x128, (Host.divf (Host.scatterAdd scatter_S64x128_S50000x1_S50000x128_1_0_0_1 (broadcastInDim S64x128 ![] bcast_S_S64x128 (constant S_ .f32 0x00000000#32)) (broadcastInDim S50000x1 ![0] bcast_S50000_S50000x1_0 (m ((c.tc : Thread nD τ).loc main_arg3))) (h1 m c)) (broadcastInDim S64x128 ![0, 1] bcast_S64x1_S64x128_0_1 (maximumf (Host.scatterAdd scatter_S64x1_S50000x1_S50000x1_1_0_0_1 (broadcastInDim S64x1 ![] bcast_S_S64x1 (constant S_ .f32 0x00000000#32)) (broadcastInDim S50000x1 ![0] bcast_S50000_S50000x1_0 (m ((c.tc : Thread nD τ).loc main_arg3))) (broadcastInDim S50000x1 ![] bcast_S_S50000x1 (constant S_ .f32 0x3F800000#32))) (broadcastInDim S64x1 ![] bcast_S_S64x1 (constant S_ .f32 0x3F800000#32)))))⟩, ⟨S64x128, (maximumf (addf (Host.dotGeneral dot_S64x32_S32x128_S64x128_1_0_0_1_n_n none (m ((c.tc : Thread nD τ).loc main_arg2)) (m ((c.tc : Thread nD τ).loc main_arg10))) (broadcastInDim S64x128 ![0, 1] bcast_S1x128_S64x128_0_1 (broadcastInDim S1x128 ![1] bcast_S128_S1x128_1 (m ((c.tc : Thread nD τ).loc main_arg11))))) (broadcastInDim S64x128 ![] bcast_S_S64x128 (constant S_ .f32 0x00000000#32)))⟩] concatenates_S64x128_S64x128_S64x256_d1) (m ((c.tc : Thread nD τ).loc main_arg12))) (broadcastInDim S64x1 ![0, 1] bcast_S1x1_S64x1_0_1 (broadcastInDim S1x1 ![1] bcast_S1_S1x1_1 (m ((c.tc : Thread nD τ).loc main_arg13)))) := by
  unfold Cert.ReferenceIdeal.Value.res_main_v83; rfl

/-! ### Each named array is the stage of the same number -/

theorem srcCol_val (m : (ℓ : Loc nD τ sig) → Buf (Elt F) ℓ) (c : Dev nD) : srcCol (F := F) m c = Read.val_main_v9 (F := F) (m ((c.tc : Thread nD τ).loc main_arg1)) := rfl
theorem dstCol_val (m : (ℓ : Loc nD τ sig) → Buf (Elt F) ℓ) (c : Dev nD) : dstCol (F := F) m c = Read.val_main_v12 (F := F) (m ((c.tc : Thread nD τ).loc main_arg1)) := rfl
theorem deg_val (m : (ℓ : Loc nD τ sig) → Buf (Elt F) ℓ) (c : Dev nD) : deg (F := F) m c = Read.val_main_v17 (F := F) (m ((c.tc : Thread nD τ).loc main_arg1)) := rfl
theorem deg_val' (m : (ℓ : Loc nD τ sig) → Buf (Elt F) ℓ) (c : Dev nD) : deg (F := F) m c = Read.val_main_v47 (F := F) (m ((c.tc : Thread nD τ).loc main_arg1)) := rfl
theorem ssum0_val (m : (ℓ : Loc nD τ sig) → Buf (Elt F) ℓ) (c : Dev nD) : ssum0 (F := F) m c = Read.val_main_v13 (F := F) (m ((c.tc : Thread nD τ).loc main_arg0)) (m ((c.tc : Thread nD τ).loc main_arg1)) := rfl
theorem h0_val (m : (ℓ : Loc nD τ sig) → Buf (Elt F) ℓ) (c : Dev nD) :
    h0 (F := F) m c = Read.val_main_v33 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := rfl
theorem ssum1_val (m : (ℓ : Loc nD τ sig) → Buf (Elt F) ℓ) (c : Dev nD) :
    ssum1 (F := F) m c = Read.val_main_v43 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := rfl
theorem h1_val (m : (ℓ : Loc nD τ sig) → Buf (Elt F) ℓ) (c : Dev nD) :
    h1 (F := F) m c = Read.val_main_v62 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

end Terms

/-! ### The layers and the head, on the extended reals -/

/-- The first layer is the specification's, of the first neighbour sums, the features and the in-degrees. -/
theorem h0_eq (m : (ℓ : Loc nD τ sig) → Buf (Elt Ideal) ℓ) (c : Dev nD) :
    h0 (F := Ideal) m c = Cert.Spec.layer0 (ssum0 m c) (m ((c.tc : Thread nD τ).loc main_arg0)) (deg m c) (m ((c.tc : Thread nD τ).loc main_arg4)) (m ((c.tc : Thread nD τ).loc main_arg5)) (m ((c.tc : Thread nD τ).loc main_arg6)) := by
  rw [h0_val m c, ssum0_val m c, deg_val m c]
  exact layer0_val _ _ _ _ _

/-- The second layer is the specification's, of the second neighbour sums, the first layer and the in-degrees. -/
theorem h1_eq (m : (ℓ : Loc nD τ sig) → Buf (Elt Ideal) ℓ) (c : Dev nD) :
    h1 (F := Ideal) m c = Cert.Spec.layer1 (ssum1 m c) (h0 m c) (deg m c) (m ((c.tc : Thread nD τ).loc main_arg7)) (m ((c.tc : Thread nD τ).loc main_arg8)) (m ((c.tc : Thread nD τ).loc main_arg9)) := by
  rw [h1_val m c, ssum1_val m c, h0_val m c, deg_val' m c]
  exact layer1_val _ _ _ _ _ _ _ _

/-- The result is the specification's head of the second layer. -/
theorem out_eq (m : (ℓ : Loc nD τ sig) → Buf (Elt Ideal) ℓ) (c : Dev nD) :
    Cert.ReferenceIdeal.Value.res_out0 (F := Ideal) m c
      = Cert.Spec.head (m ((c.tc : Thread nD τ).loc main_arg3)) (h1 m c) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) := by
  rw [h1_val m c]
  exact (Read.val_main_v83_eq m c).trans (head_val _ _ _ _ _ _ _ _ _ _ _ _ _ _)

end Cert.ReferenceIdeal.RefVal

end
-- ==== Proof.Bridge.lean ====
/-
  The bridge between the two programs. From memories that agree on the fourteen argument arrays, the kernel
  program's composed terms — the index columns, the in-degrees, the neighbour sums, the two layers — are the reference's,
  term by term: the same operations over the same arrays. So the specification's head of the kernel's second layer is
  the reference's result.
-/
import proofs.«411664_j16982300688532_2_alg».proof.Proof.RefVal
import proofs.«411664_j16982300688532_2_alg».proof.Proof.KI.KVal
import proofs.«411664_j16982300688532_2_alg».proof.Proof.Spec

set_option maxRecDepth 16384

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' source columns are one term of the edge array. -/
theorem srcCol_eq
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefVal.srcCol (F := Ideal) m' c = Cert.KernelIdeal.Val.srcCol (F := Ideal) m c := by
  unfold Cert.ReferenceIdeal.RefVal.srcCol Cert.KernelIdeal.Val.srcCol
  rw [e1]

/-- The two programs' target columns are one term of the edge array. -/
theorem dstCol_eq
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefVal.dstCol (F := Ideal) m' c = Cert.KernelIdeal.Val.dstCol (F := Ideal) m c := by
  unfold Cert.ReferenceIdeal.RefVal.dstCol Cert.KernelIdeal.Val.dstCol
  rw [e1]

/-- The in-degrees agree. -/
theorem deg_eq
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefVal.deg (F := Ideal) m' c = Cert.KernelIdeal.Val.degK (F := Ideal) m c := by
  unfold Cert.ReferenceIdeal.RefVal.deg Cert.KernelIdeal.Val.degK
  rw [dstCol_eq m m' c e1]
  rfl

/-- The first neighbour sums agree. -/
theorem ssum0_eq
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefVal.ssum0 (F := Ideal) m' c = Cert.KernelIdeal.Val.ssum0K (F := Ideal) m c := by
  unfold Cert.ReferenceIdeal.RefVal.ssum0 Cert.KernelIdeal.Val.ssum0K
  rw [dstCol_eq m m' c e1, srcCol_eq m m' c e1, e0]
  rfl

/-- The first layers agree. -/
theorem h0_eq (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RefVal.h0 (F := Ideal) m' c = Cert.KernelIdeal.Val.h0K m c := by
  rw [Cert.ReferenceIdeal.RefVal.h0_eq, ssum0_eq m m' c e0 e1, deg_eq m m' c e1, e0, e4, e5, e6]
  rfl

/-- The second neighbour sums agree. -/
theorem ssum1_eq (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RefVal.ssum1 (F := Ideal) m' c = Cert.KernelIdeal.Val.ssum1K (F := Ideal) (Cert.KernelIdeal.Val.h0K m c) m c := by
  unfold Cert.ReferenceIdeal.RefVal.ssum1 Cert.KernelIdeal.Val.ssum1K
  rw [h0_eq m m' c e0 e1 e4 e5 e6, dstCol_eq m m' c e1, srcCol_eq m m' c e1]
  rfl

/-- The second layers agree. -/
theorem h1_eq (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefVal.h1 (F := Ideal) m' c = Cert.KernelIdeal.Val.h1K m c := by
  rw [Cert.ReferenceIdeal.RefVal.h1_eq, ssum1_eq m m' c e0 e1 e4 e5 e6, h0_eq m m' c e0 e1 e4 e5 e6, deg_eq m m' c e1, e7, e8, e9]
  rfl

/-- The specification's head of the kernel's second layer is the reference's result. -/
theorem head_eq
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.Spec.head (m ((c.tc : Thread Cert.KernelIdeal.nD Cert.KernelIdeal.τ).loc Cert.KernelIdeal.main_arg3)) (Cert.KernelIdeal.Val.h1K m c) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.ReferenceIdeal.Value.res_out0 (F := Ideal) m' c := by
  obtain ⟨e0, e1, e2, e3, e4, e5, e6, e7, e8, e9, e10, e11, e12, e13⟩ := hagree
  rw [Cert.ReferenceIdeal.RefVal.out_eq, h1_eq m m' c e0 e1 e4 e5 e6 e7 e8 e9, e2, e3, e10, e11, e12, e13]

end Cert.Bridge

end
-- ==== Proof.lean ====
/-
  The certificate's claim. Both kernel programs (the word-level one and its idealization) run to the end on three
  regions among host stretches and leave the argument arrays as launched; the reference's run is its operations'
  composed term. On the extended reals the kernel's result and the reference's are one function of the arguments:
  two rounds of mean aggregation over incoming edges, each through an affine map and a row normalisation (the first
  clamped at zero), a mean over each graph's nodes, an affine branch on the graph features, and a linear head. The
  kernel pools by a product with a 0/1 membership matrix accumulated block by block, the reference by a segment sum;
  the kernel applies the two halves of the head weights separately, the reference to the two branches side by side.
-/
import proofs.«411664_j16982300688532_2_alg».proof.Defs
import proofs.«411664_j16982300688532_2_alg».proof.Proof.Gen.Kernel
import proofs.«411664_j16982300688532_2_alg».proof.Proof.Gen.KernelIdeal
import proofs.«411664_j16982300688532_2_alg».proof.Proof.Gen.ReferenceIdeal
import proofs.«411664_j16982300688532_2_alg».proof.Proof.Gen.Pre_finite_inputs
import proofs.«411664_j16982300688532_2_alg».proof.Proof.Gen.ReferenceIdeal.Run
import proofs.«411664_j16982300688532_2_alg».proof.Proof.K.Frame
import proofs.«411664_j16982300688532_2_alg».proof.Proof.KI.Frame
import proofs.«411664_j16982300688532_2_alg».proof.Proof.KI.KVal
import proofs.«411664_j16982300688532_2_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.ReferenceIdeal.Value.res_out0 (F := Ideal) m' c,
    (θ_run Cert.KernelIdeal.defs _ _).mono
      (fun _ h c => ⟨((h c).1.trans (Cert.KernelIdeal.Val.kernel_val m ρ c)).trans (Cert.Bridge.head_eq m m' c (hagree c)), (h c).2⟩)
      (Cert.KernelIdeal.Hand.run_val (F := Ideal) m ρ),
    Cert.ReferenceIdeal.Value.run (F := Ideal) m' ρ'⟩⟩

end Cert.Proof

end
